-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1024 : Shape := ⟨2, ![131072, 1024]⟩
abbrev S131072 : Shape := ⟨1, ![131072]⟩
abbrev S128x1024 : Shape := ⟨2, ![128, 1024]⟩
abbrev S128 : Shape := ⟨1, ![128]⟩
abbrev S256x16 : Shape := ⟨2, ![256, 16]⟩
abbrev S256 : Shape := ⟨1, ![256]⟩
abbrev S8x32 : Shape := ⟨2, ![8, 32]⟩
abbrev S8 : Shape := ⟨1, ![8]⟩
abbrev S_ : Shape := ⟨0, ![]⟩

class Facts : Prop where
  bcast_S_S131072x1024 : S_.BroadcastsInDim S131072x1024 (![] : Fin 0 → Fin S131072x1024.rank)
  reducesTo_S131072x1024_S_d0_1 : S131072x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S256x16 : S_.BroadcastsInDim S256x16 (![] : Fin 0 → Fin S256x16.rank)
  reducesTo_S256x16_S_d0_1 : S256x16.ReducesTo [0, 1] S_
  bcast_S_S256 : S_.BroadcastsInDim S256 (![] : Fin 0 → Fin S256.rank)
  reducesTo_S256_S_d0 : S256.ReducesTo [0] S_
  bcast_S_S8x32 : S_.BroadcastsInDim S8x32 (![] : Fin 0 → Fin S8x32.rank)
  reducesTo_S8x32_S_d0_1 : S8x32.ReducesTo [0, 1] S_
  bcast_S_S8 : S_.BroadcastsInDim S8 (![] : Fin 0 → Fin S8.rank)
  reducesTo_S8_S_d0 : S8.ReducesTo [0] S_
  bcast_S_S131072 : S_.BroadcastsInDim S131072 (![] : Fin 0 → Fin S131072.rank)
  reducesTo_S131072_S_d0 : S131072.ReducesTo [0] S_

variable [Facts]

def fn_part2 {F : FTy → Type} [FloatOps F] (main_arg1 : IVec S131072 32) (main_v33 : IVec S_ 1) : IVec S_ 1 :=
  let main_c_12 : IVec S_ 32 := constantI S_ 32 0#32
  let main_v34 : IVec S131072 32 := broadcastInDim S131072 ![] bcast_S_S131072 main_c_12
  let main_v35 : IVec S131072 1 := cmpi .sge main_arg1 main_v34
  let main_c_13 : IVec S_ 1 := constantI S_ 1 1#1
  let main_v36 : IVec S_ 1 := (fun x v => Host.reduce IntOp.andi x v reducesTo_S131072_S_d0 h_S_) main_v35 main_c_13
  let main_v37 : IVec S_ 1 := andi main_v33 main_v36
  let main_c_14 : IVec S_ 32 := constantI S_ 32 8#32
  let main_v38 : IVec S131072 32 := broadcastInDim S131072 ![] bcast_S_S131072 main_c_14
  let main_v39 : IVec S131072 1 := cmpi .slt main_arg1 main_v38
  let main_c_15 : IVec S_ 1 := constantI S_ 1 1#1
  let main_v40 : IVec S_ 1 := (fun x v => Host.reduce IntOp.andi x v reducesTo_S131072_S_d0 h_S_) main_v39 main_c_15
  let main_v41 : IVec S_ 1 := andi main_v37 main_v40
  main_v41

def fn_part1 {F : FTy → Type} [FloatOps F] (main_arg1 : IVec S131072 32) (main_arg5 : FVec F S256 .f32) (main_arg6 : FVec F S8x32 .f32) (main_arg7 : FVec F S8 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8x32 .f32 := Host.absf main_arg6
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S8 .f32 := Host.absf main_arg7
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg1 main_v33

def fn {F : FTy → Type} [FloatOps F] (main_arg0 : FVec F S131072x1024 .f32) (main_arg1 : IVec S131072 32) (main_arg2 : FVec F S128x1024 .f32) (main_arg3 : FVec F S128 .f32) (main_arg4 : FVec F S256x16 .f32) (main_arg5 : FVec F S256 .f32) (main_arg6 : FVec F S8x32 .f32) (main_arg7 : FVec F S8 .f32) : IVec S_ 1 :=
  let main_v0 : FVec F S131072x1024 .f32 := Host.absf main_arg0
  let main_cst : FVec F S_ .f32 := constant S_ .f32 0x7F800000#32
  let main_v1 : FVec F S131072x1024 .f32 := broadcastInDim S131072x1024 ![] bcast_S_S131072x1024 main_cst
  let main_v2 : IVec S131072x1024 1 := cmpf .olt main_v0 main_v1
  let main_c : IVec S_ 1 := constantI S_ 1 1#1
  let main_v3 : IVec S_ 1 := (fun x v => Host.reduce IntOp.andi x v reducesTo_S131072x1024_S_d0_1 h_S_) main_v2 main_c
  let main_v4 : FVec F S128x1024 .f32 := Host.absf main_arg2
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x16 .f32 := Host.absf main_arg4
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg1 main_arg5 main_arg6 main_arg7 main_v13 main_v16
-- ==== Kernel.lean ====
abbrev S131072x1024 : Shape := ⟨2, ![131072, 1024]⟩
abbrev S131072 : Shape := ⟨1, ![131072]⟩
abbrev S128x1024 : Shape := ⟨2, ![128, 1024]⟩
abbrev S128 : Shape := ⟨1, ![128]⟩
abbrev S256x16 : Shape := ⟨2, ![256, 16]⟩
abbrev S256 : Shape := ⟨1, ![256]⟩
abbrev S8x32 : Shape := ⟨2, ![8, 32]⟩
abbrev S8 : Shape := ⟨1, ![8]⟩
abbrev S1024x128 : Shape := ⟨2, ![1024, 128]⟩
abbrev S16x256 : Shape := ⟨2, ![16, 256]⟩
abbrev S1x16x1x256 : Shape := ⟨4, ![1, 16, 1, 256]⟩
abbrev S8x16x1x256 : Shape := ⟨4, ![8, 16, 1, 256]⟩
abbrev S128x256 : Shape := ⟨2, ![128, 256]⟩
abbrev S32x8 : Shape := ⟨2, ![32, 8]⟩
abbrev S1x32x1x8 : Shape := ⟨4, ![1, 32, 1, 8]⟩
abbrev S8x32x1x8 : Shape := ⟨4, ![8, 32, 1, 8]⟩
abbrev S256x8 : Shape := ⟨2, ![256, 8]⟩
abbrev S_ : Shape := ⟨0, ![]⟩
abbrev S131072x1 : Shape := ⟨2, ![131072, 1]⟩
abbrev S1x131072 : Shape := ⟨2, ![1, 131072]⟩
abbrev S2048x1024 : Shape := ⟨2, ![2048, 1024]⟩
abbrev S2048x1 : Shape := ⟨2, ![2048, 1]⟩
abbrev S1x2048 : Shape := ⟨2, ![1, 2048]⟩
abbrev S2048x128 : Shape := ⟨2, ![2048, 128]⟩
abbrev S1x128 : Shape := ⟨2, ![1, 128]⟩
abbrev S2048x256 : Shape := ⟨2, ![2048, 256]⟩
abbrev S1x256 : Shape := ⟨2, ![1, 256]⟩
abbrev S2048x8 : Shape := ⟨2, ![2048, 8]⟩
abbrev S1x8 : Shape := ⟨2, ![1, 8]⟩
abbrev S2048 : Shape := ⟨1, ![2048]⟩

abbrev nBuf : Space → Nat
  | .hbm => 31
  | .vmem => 12
  | .smem => 0
  | _ => 0

abbrev bufTy : (tb : Table) → Fin (tcTables nBuf tb) → BufTy
  | .hbm, ⟨0, _⟩ => ⟨S131072x1024, .f32⟩
  | .hbm, ⟨1, _⟩ => ⟨S131072, .i32⟩
  | .hbm, ⟨2, _⟩ => ⟨S128x1024, .f32⟩
  | .hbm, ⟨3, _⟩ => ⟨S128, .f32⟩
  | .hbm, ⟨4, _⟩ => ⟨S256x16, .f32⟩
  | .hbm, ⟨5, _⟩ => ⟨S256, .f32⟩
  | .hbm, ⟨6, _⟩ => ⟨S8x32, .f32⟩
  | .hbm, ⟨7, _⟩ => ⟨S8, .f32⟩
  | .hbm, ⟨8, _⟩ => ⟨S1024x128, .f32⟩
  | .hbm, ⟨9, _⟩ => ⟨S1024x128, .bf16⟩
  | .hbm, ⟨10, _⟩ => ⟨S16x256, .f32⟩
  | .hbm, ⟨11, _⟩ => ⟨S16x256, .bf16⟩
  | .hbm, ⟨12, _⟩ => ⟨S1x16x1x256, .bf16⟩
  | .hbm, ⟨13, _⟩ => ⟨S8x16x1x256, .bf16⟩
  | .hbm, ⟨14, _⟩ => ⟨S128x256, .bf16⟩
  | .hbm, ⟨15, _⟩ => ⟨S32x8, .f32⟩
  | .hbm, ⟨16, _⟩ => ⟨S32x8, .bf16⟩
  | .hbm, ⟨17, _⟩ => ⟨S1x32x1x8, .bf16⟩
  | .hbm, ⟨18, _⟩ => ⟨S8x32x1x8, .bf16⟩
  | .hbm, ⟨19, _⟩ => ⟨S256x8, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S131072, .i32⟩
  | .hbm, ⟨24, _⟩ => ⟨S131072, .i32⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072x1, .i32⟩
  | .hbm, ⟨29, _⟩ => ⟨S1x131072, .f32⟩
  | .hbm, ⟨30, _⟩ => ⟨S131072x1, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S1024x128, .bf16⟩
  | .local _ .vmem, ⟨5, _⟩ => ⟨S128, .f32⟩
  | .local _ .vmem, ⟨6, _⟩ => ⟨S128x256, .bf16⟩
  | .local _ .vmem, ⟨7, _⟩ => ⟨S256, .f32⟩
  | .local _ .vmem, ⟨8, _⟩ => ⟨S256x8, .bf16⟩
  | .local _ .vmem, ⟨9, _⟩ => ⟨S8, .f32⟩
  | .local _ .vmem, ⟨10, _⟩ => ⟨S1x2048, .f32⟩
  | .local _ .vmem, ⟨11, _⟩ => ⟨S1x2048, .f32⟩
  | _, _ => ⟨S131072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x8 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S128x1024_S1024x128_1_0 : S128x1024.Transposes [1, 0] S1024x128
  bitsLt_bf16_f32 : FTy.bits .bf16 < FTy.bits .f32
  transposes_S256x16_S16x256_1_0 : S256x16.Transposes [1, 0] S16x256
  shapeCasts_S16x256_S1x16x1x256 : S16x256.ShapeCasts S1x16x1x256
  bcast_S1x16x1x256_S8x16x1x256_0_1_2_3 : S1x16x1x256.BroadcastsInDim S8x16x1x256 (![0, 1, 2, 3] : Fin 4 → Fin S8x16x1x256.rank)
  shapeCasts_S8x16x1x256_S128x256 : S8x16x1x256.ShapeCasts S128x256
  transposes_S8x32_S32x8_1_0 : S8x32.Transposes [1, 0] S32x8
  shapeCasts_S32x8_S1x32x1x8 : S32x8.ShapeCasts S1x32x1x8
  bcast_S1x32x1x8_S8x32x1x8_0_1_2_3 : S1x32x1x8.BroadcastsInDim S8x32x1x8 (![0, 1, 2, 3] : Fin 4 → Fin S8x32x1x8.rank)
  shapeCasts_S8x32x1x8_S256x8 : S8x32x1x8.ShapeCasts S256x8
  bcast_S_S131072 : S_.BroadcastsInDim S131072 (![] : Fin 0 → Fin S131072.rank)
  shapeCasts_S131072_S131072x1 : S131072.ShapeCasts S131072x1
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  iota_S2048x128_d1_w32 : S2048x128.Iotas .tc 32 [1]
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  iota_S2048x256_d1_w32 : S2048x256.Iotas .tc 32 [1]
  broadcasts_S2048x1_S2048x256 : S2048x1.Broadcasts S2048x256
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  iota_S2048x8_d1_w32 : S2048x8.Iotas .tc 32 [1]
  broadcasts_S2048x1_S2048x8 : S2048x1.Broadcasts S2048x8
  reduces_S2048x8_S2048 : S2048x8.Reduces [1] S2048
  shapeCasts_S2048_S2048x1 : S2048.ShapeCasts S2048x1
  transposes_S2048x1_p1_0_S1x2048 : S2048x1.Transposes [1, 0] S1x2048
  inb_S1x2048_S1x2048_0_0 : ∀ a, (![0, 0] : Fin 2 → Nat) a + S1x2048.size a ≤ S1x2048.size a
  h_S1x2048 : 0 < S1x2048.numel
  shapeCasts_S1x131072_S131072x1 : S1x131072.ShapeCasts S131072x1
  dot_S2048x1024_S1024x128_S2048x128_1_0_0_1_n_n_wf : DotDims.WF S2048x1024 S1024x128 S2048x128 [1] [0] [0] [1] [] []
  dot_S2048x128_S128x256_S2048x256_1_0_0_1_n_n_wf : DotDims.WF S2048x128 S128x256 S2048x256 [1] [0] [0] [1] [] []
  dot_S2048x256_S256x8_S2048x8_1_0_0_1_n_n_wf : DotDims.WF S2048x256 S256x8 S2048x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S131072x1024.size a
  hwx0_0 : ∀ i : grid0.Coords, EltTy.bits .f32 = 32 ∨ (Rect.block (s := S131072x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .bf16 = 32 ∨ (Rect.block (s := S1024x128) S1024x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x8.size a ≤ S256x8.size a
  hwx0_6 : ∀ i : grid0.Coords, EltTy.bits .bf16 = 32 ∨ (Rect.block (s := S256x8) S256x8.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x131072.size a
  hwx0_8 : ∀ i : grid0.Coords, EltTy.bits .f32 = 32 ∨ (Rect.block (s := S1x131072) S1x2048.size (cc0_transform_8 i) (hinb0_8 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S256x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x1024 : Shape := ⟨2, ![131072, 1024]⟩
abbrev S131072 : Shape := ⟨1, ![131072]⟩
abbrev S128x1024 : Shape := ⟨2, ![128, 1024]⟩
abbrev S128 : Shape := ⟨1, ![128]⟩
abbrev S256x16 : Shape := ⟨2, ![256, 16]⟩
abbrev S256 : Shape := ⟨1, ![256]⟩
abbrev S8x32 : Shape := ⟨2, ![8, 32]⟩
abbrev S8 : Shape := ⟨1, ![8]⟩
abbrev S131072x1x1 : Shape := ⟨3, ![131072, 1, 1]⟩
abbrev S1024x128 : Shape := ⟨2, ![1024, 128]⟩
abbrev S131072x128 : Shape := ⟨2, ![131072, 128]⟩
abbrev S1x128 : Shape := ⟨2, ![1, 128]⟩
abbrev S131072x8x16 : Shape := ⟨3, ![131072, 8, 16]⟩
abbrev S_ : Shape := ⟨0, ![]⟩
abbrev S1 : Shape := ⟨1, ![1]⟩
abbrev S1x1x1 : Shape := ⟨3, ![1, 1, 1]⟩
abbrev S131072x1 : Shape := ⟨2, ![131072, 1]⟩
abbrev S131072x1x16 : Shape := ⟨3, ![131072, 1, 16]⟩
abbrev S131072x16 : Shape := ⟨2, ![131072, 16]⟩
abbrev S16x256 : Shape := ⟨2, ![16, 256]⟩
abbrev S131072x256 : Shape := ⟨2, ![131072, 256]⟩
abbrev S1x256 : Shape := ⟨2, ![1, 256]⟩
abbrev S131072x8x32 : Shape := ⟨3, ![131072, 8, 32]⟩
abbrev S131072x1x32 : Shape := ⟨3, ![131072, 1, 32]⟩
abbrev S131072x32 : Shape := ⟨2, ![131072, 32]⟩
abbrev S32x8 : Shape := ⟨2, ![32, 8]⟩
abbrev S131072x8 : Shape := ⟨2, ![131072, 8]⟩
abbrev S1x8 : Shape := ⟨2, ![1, 8]⟩
abbrev S131072x8x1 : Shape := ⟨3, ![131072, 8, 1]⟩

abbrev nBuf : Space → Nat
  | .hbm => 138
  | .vmem => 0
  | .smem => 0
  | _ => 0

abbrev hbmTy0_0 (i : Nat) : BufTy := match i % 128 with
  | 0 => ⟨S131072x1024, .f32⟩
  | 1 => ⟨S131072, .i32⟩
  | 2 => ⟨S128x1024, .f32⟩
  | 3 => ⟨S128, .f32⟩
  | 4 => ⟨S256x16, .f32⟩
  | 5 => ⟨S256, .f32⟩
  | 6 => ⟨S8x32, .f32⟩
  | 7 => ⟨S8, .f32⟩
  | 8 => ⟨S131072x1x1, .i32⟩
  | 9 => ⟨S1024x128, .f32⟩
  | 10 => ⟨S131072x128, .f32⟩
  | 11 => ⟨S1x128, .f32⟩
  | 12 => ⟨S131072x128, .f32⟩
  | 13 => ⟨S131072x128, .f32⟩
  | 14 => ⟨S131072x8x16, .f32⟩
  | 15 => ⟨S_, .i32⟩
  | 16 => ⟨S131072x1x1, .i32⟩
  | 17 => ⟨S131072x1x1, .i1⟩
  | 18 => ⟨S_, .i32⟩
  | 19 => ⟨S131072x1x1, .i32⟩
  | 20 => ⟨S131072x1x1, .i32⟩
  | 21 => ⟨S131072x1x1, .i32⟩
  | 22 => ⟨S1, .i32⟩
  | 23 => ⟨S_, .i32⟩
  | 24 => ⟨S131072x1x1, .i32⟩
  | 25 => ⟨S131072x1x1, .i1⟩
  | 26 => ⟨S1x1x1, .i32⟩
  | 27 => ⟨S131072x1x1, .i32⟩
  | 28 => ⟨S131072x1x1, .i1⟩
  | 29 => ⟨S131072x1x1, .i1⟩
  | 30 => ⟨S_, .i1⟩
  | 31 => ⟨S131072x1, .i1⟩
  | 32 => ⟨S131072x1x16, .f32⟩
  | 33 => ⟨S131072x1x16, .i1⟩
  | 34 => ⟨S_, .f32⟩
  | 35 => ⟨S131072x1x16, .f32⟩
  | 36 => ⟨S131072x1x16, .f32⟩
  | 37 => ⟨S131072x16, .f32⟩
  | 38 => ⟨S_, .f32⟩
  | 39 => ⟨S131072x16, .f32⟩
  | 40 => ⟨S131072x16, .i1⟩
  | 41 => ⟨S131072x16, .f32⟩
  | 42 => ⟨S131072x16, .f32⟩
  | 43 => ⟨S131072x16, .f32⟩
  | 44 => ⟨S_, .f32⟩
  | 45 => ⟨S131072x16, .f32⟩
  | 46 => ⟨S131072x16, .f32⟩
  | 47 => ⟨S131072x16, .f32⟩
  | 48 => ⟨S_, .i32⟩
  | 49 => ⟨S_, .i32⟩
  | 50 => ⟨S_, .f32⟩
  | 51 => ⟨S131072x16, .f32⟩
  | 52 => ⟨S131072x16, .f32⟩
  | 53 => ⟨S_, .f32⟩
  | 54 => ⟨S131072x16, .f32⟩
  | 55 => ⟨S131072x16, .f32⟩
  | 56 => ⟨S_, .f32⟩
  | 57 => ⟨S131072x16, .f32⟩
  | 58 => ⟨S131072x16, .f32⟩
  | 59 => ⟨S16x256, .f32⟩
  | 60 => ⟨S131072x256, .f32⟩
  | 61 => ⟨S1x256, .f32⟩
  | 62 => ⟨S131072x256, .f32⟩
  | 63 => ⟨S131072x256, .f32⟩
  | 64 => ⟨S131072x8x32, .f32⟩
  | 65 => ⟨S_, .i32⟩
  | 66 => ⟨S131072x1x1, .i32⟩
  | 67 => ⟨S131072x1x1, .i1⟩
  | 68 => ⟨S_, .i32⟩
  | 69 => ⟨S131072x1x1, .i32⟩
  | 70 => ⟨S131072x1x1, .i32⟩
  | 71 => ⟨S131072x1x1, .i32⟩
  | 72 => ⟨S1, .i32⟩
  | 73 => ⟨S_, .i32⟩
  | 74 => ⟨S131072x1x1, .i32⟩
  | 75 => ⟨S131072x1x1, .i1⟩
  | 76 => ⟨S1x1x1, .i32⟩
  | 77 => ⟨S131072x1x1, .i32⟩
  | 78 => ⟨S131072x1x1, .i1⟩
  | 79 => ⟨S131072x1x1, .i1⟩
  | 80 => ⟨S_, .i1⟩
  | 81 => ⟨S131072x1, .i1⟩
  | 82 => ⟨S131072x1x32, .f32⟩
  | 83 => ⟨S131072x1x32, .i1⟩
  | 84 => ⟨S_, .f32⟩
  | 85 => ⟨S131072x1x32, .f32⟩
  | 86 => ⟨S131072x1x32, .f32⟩
  | 87 => ⟨S131072x32, .f32⟩
  | 88 => ⟨S_, .f32⟩
  | 89 => ⟨S131072x32, .f32⟩
  | 90 => ⟨S131072x32, .i1⟩
  | 91 => ⟨S131072x32, .f32⟩
  | 92 => ⟨S131072x32, .f32⟩
  | 93 => ⟨S131072x32, .f32⟩
  | 94 => ⟨S_, .f32⟩
  | 95 => ⟨S131072x32, .f32⟩
  | 96 => ⟨S131072x32, .f32⟩
  | 97 => ⟨S131072x32, .f32⟩
  | 98 => ⟨S_, .i32⟩
  | 99 => ⟨S_, .i32⟩
  | 100 => ⟨S_, .f32⟩
  | 101 => ⟨S131072x32, .f32⟩
  | 102 => ⟨S131072x32, .f32⟩
  | 103 => ⟨S_, .f32⟩
  | 104 => ⟨S131072x32, .f32⟩
  | 105 => ⟨S131072x32, .f32⟩
  | 106 => ⟨S_, .f32⟩
  | 107 => ⟨S131072x32, .f32⟩
  | 108 => ⟨S131072x32, .f32⟩
  | 109 => ⟨S32x8, .f32⟩
  | 110 => ⟨S131072x8, .f32⟩
  | 111 => ⟨S1x8, .f32⟩
  | 112 => ⟨S131072x8, .f32⟩
  | 113 => ⟨S131072x8, .f32⟩
  | 114 => ⟨S131072x8x1, .f32⟩
  | 115 => ⟨S_, .i32⟩
  | 116 => ⟨S131072x1x1, .i32⟩
  | 117 => ⟨S131072x1x1, .i1⟩
  | 118 => ⟨S_, .i32⟩
  | 119 => ⟨S131072x1x1, .i32⟩
  | 120 => ⟨S131072x1x1, .i32⟩
  | 121 => ⟨S131072x1x1, .i32⟩
  | 122 => ⟨S1, .i32⟩
  | 123 => ⟨S_, .i32⟩
  | 124 => ⟨S131072x1x1, .i32⟩
  | 125 => ⟨S131072x1x1, .i1⟩
  | 126 => ⟨S1x1x1, .i32⟩
  | 127 => ⟨S131072x1x1, .i32⟩
  | _ => ⟨S131072x1024, .f32⟩

abbrev hbmTy0_1 (i : Nat) : BufTy := match i % 128 with
  | 0 => ⟨S131072x1x1, .i1⟩
  | 1 => ⟨S131072x1x1, .i1⟩
  | 2 => ⟨S_, .i1⟩
  | 3 => ⟨S131072x1, .i1⟩
  | 4 => ⟨S131072x1x1, .f32⟩
  | 5 => ⟨S131072x1x1, .i1⟩
  | 6 => ⟨S_, .f32⟩
  | 7 => ⟨S131072x1x1, .f32⟩
  | 8 => ⟨S131072x1x1, .f32⟩
  | 9 => ⟨S131072x1, .f32⟩
  | _ => ⟨S131072x1024, .f32⟩

abbrev hbmTy (i : Nat) : BufTy := match i / 128 with
  | 0 => hbmTy0_0 i
  | 1 => hbmTy0_1 i
  | _ => ⟨S131072x1024, .f32⟩

abbrev bufTy : (tb : Table) → Fin (tcTables nBuf tb) → BufTy
  | .hbm, ⟨i, _⟩ => hbmTy i
  | _, _ => ⟨S131072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_c_2 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_c_3 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v7 : Ref sig .tc := ⟨.hbm, 36, rfl⟩
abbrev main_v8 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_v9 : Ref sig .tc := ⟨.hbm, 43, rfl⟩
abbrev main_cst : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_c : Ref sig .tc := ⟨.hbm, 48, rfl⟩
abbrev main_c_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v13 : Ref sig .tc := ⟨.hbm, 55, rfl⟩
abbrev main_call3_cst : Ref sig .tc := ⟨.hbm, 56, rfl⟩
abbrev main_call3_v0 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_c_1 : Ref sig .tc := ⟨.hbm, 72, rfl⟩
abbrev main_call4_c_2 : Ref sig .tc := ⟨.hbm, 73, rfl⟩
abbrev main_call4_v5 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_call4_c_3 : Ref sig .tc := ⟨.hbm, 80, rfl⟩
abbrev main_call4_v11 : Ref sig .tc := ⟨.hbm, 81, rfl⟩
abbrev main_call4_v12 : Ref sig .tc := ⟨.hbm, 82, rfl⟩
abbrev main_call4_v13 : Ref sig .tc := ⟨.hbm, 83, rfl⟩
abbrev main_call4_cst : Ref sig .tc := ⟨.hbm, 84, rfl⟩
abbrev main_call4_v14 : Ref sig .tc := ⟨.hbm, 85, rfl⟩
abbrev main_v21 : Ref sig .tc := ⟨.hbm, 86, rfl⟩
abbrev main_v22 : Ref sig .tc := ⟨.hbm, 87, rfl⟩
abbrev main_call5_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_v23 : Ref sig .tc := ⟨.hbm, 93, rfl⟩
abbrev main_cst_1 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_c_2 : Ref sig .tc := ⟨.hbm, 98, rfl⟩
abbrev main_c_3 : Ref sig .tc := ⟨.hbm, 99, rfl⟩
abbrev main_call6_v0 : Ref sig .tc := ⟨.hbm, 100, rfl⟩
abbrev main_call6_v1 : Ref sig .tc := ⟨.hbm, 101, rfl⟩
abbrev main_call6_v2 : Ref sig .tc := ⟨.hbm, 102, rfl⟩
abbrev main_call6_v3 : Ref sig .tc := ⟨.hbm, 103, rfl⟩
abbrev main_call6_v4 : Ref sig .tc := ⟨.hbm, 104, rfl⟩
abbrev main_v27 : Ref sig .tc := ⟨.hbm, 105, rfl⟩
abbrev main_call7_cst : Ref sig .tc := ⟨.hbm, 106, rfl⟩
abbrev main_call7_v0 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩
abbrev main_call8_c : Ref sig .tc := ⟨.hbm, 115, rfl⟩
abbrev main_call8_v0 : Ref sig .tc := ⟨.hbm, 116, rfl⟩
abbrev main_call8_v1 : Ref sig .tc := ⟨.hbm, 117, rfl⟩
abbrev main_call8_c_0 : Ref sig .tc := ⟨.hbm, 118, rfl⟩
abbrev main_call8_v2 : Ref sig .tc := ⟨.hbm, 119, rfl⟩
abbrev main_call8_v3 : Ref sig .tc := ⟨.hbm, 120, rfl⟩
abbrev main_call8_v4 : Ref sig .tc := ⟨.hbm, 121, rfl⟩
abbrev main_call8_c_1 : Ref sig .tc := ⟨.hbm, 122, rfl⟩
abbrev main_call8_c_2 : Ref sig .tc := ⟨.hbm, 123, rfl⟩
abbrev main_call8_v5 : Ref sig .tc := ⟨.hbm, 124, rfl⟩
abbrev main_call8_v6 : Ref sig .tc := ⟨.hbm, 125, rfl⟩
abbrev main_call8_v7 : Ref sig .tc := ⟨.hbm, 126, rfl⟩
abbrev main_call8_v8 : Ref sig .tc := ⟨.hbm, 127, rfl⟩
abbrev main_call8_v9 : Ref sig .tc := ⟨.hbm, 128, rfl⟩
abbrev main_call8_v10 : Ref sig .tc := ⟨.hbm, 129, rfl⟩
abbrev main_call8_c_3 : Ref sig .tc := ⟨.hbm, 130, rfl⟩
abbrev main_call8_v11 : Ref sig .tc := ⟨.hbm, 131, rfl⟩
abbrev main_call8_v12 : Ref sig .tc := ⟨.hbm, 132, rfl⟩
abbrev main_call8_v13 : Ref sig .tc := ⟨.hbm, 133, rfl⟩
abbrev main_call8_cst : Ref sig .tc := ⟨.hbm, 134, rfl⟩
abbrev main_call8_v14 : Ref sig .tc := ⟨.hbm, 135, rfl⟩
abbrev main_v35 : Ref sig .tc := ⟨.hbm, 136, rfl⟩
abbrev main_v36 : Ref sig .tc := ⟨.hbm, 137, rfl⟩

abbrev nD : Nat := 1
abbrev τ : Topo := Topo.v7x

variable {F : FTy → Type} [FloatOps F]

class Facts₀ : Prop where
  bcast_S131072_S131072x1x1_0 : S131072.BroadcastsInDim S131072x1x1 (![0] : Fin 1 → Fin S131072x1x1.rank)
  transposes_S128x1024_S1024x128_1_0 : S128x1024.Transposes [1, 0] S1024x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S131072x8x16 : S131072x128.ShapeCasts S131072x8x16
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  h_S_ : 0 < S_.numel
  bcast_S131072x1_S131072x1x16_0_1 : S131072x1.BroadcastsInDim S131072x1x16 (![0, 1] : Fin 2 → Fin S131072x1x16.rank)
  bcast_S_S131072x1x16 : S_.BroadcastsInDim S131072x1x16 (![] : Fin 0 → Fin S131072x1x16.rank)
  shapeCasts_S131072x1x16_S131072x16 : S131072x1x16.ShapeCasts S131072x16
  bcast_S_S131072x16 : S_.BroadcastsInDim S131072x16 (![] : Fin 0 → Fin S131072x16.rank)
  transposes_S256x16_S16x256_1_0 : S256x16.Transposes [1, 0] S16x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  shapeCasts_S131072x256_S131072x8x32 : S131072x256.ShapeCasts S131072x8x32
  bcast_S131072x1_S131072x1x32_0_1 : S131072x1.BroadcastsInDim S131072x1x32 (![0, 1] : Fin 2 → Fin S131072x1x32.rank)
  bcast_S_S131072x1x32 : S_.BroadcastsInDim S131072x1x32 (![] : Fin 0 → Fin S131072x1x32.rank)
  shapeCasts_S131072x1x32_S131072x32 : S131072x1x32.ShapeCasts S131072x32
  bcast_S_S131072x32 : S_.BroadcastsInDim S131072x32 (![] : Fin 0 → Fin S131072x32.rank)
  transposes_S8x32_S32x8_1_0 : S8x32.Transposes [1, 0] S32x8
  bcast_S8_S1x8_1 : S8.BroadcastsInDim S1x8 (![1] : Fin 1 → Fin S1x8.rank)
  bcast_S1x8_S131072x8_0_1 : S1x8.BroadcastsInDim S131072x8 (![0, 1] : Fin 2 → Fin S131072x8.rank)
  shapeCasts_S131072x8_S131072x8x1 : S131072x8.ShapeCasts S131072x8x1
  bcast_S131072x1_S131072x1x1_0_1 : S131072x1.BroadcastsInDim S131072x1x1 (![0, 1] : Fin 2 → Fin S131072x1x1.rank)
  shapeCasts_S131072x1x1_S131072x1 : S131072x1x1.ShapeCasts S131072x1
  dot_S131072x1024_S1024x128_S131072x128_1_0_0_1_n_n_wf : DotDims.WF S131072x1024 S1024x128 S131072x128 [1] [0] [0] [1] [] []
  gather_S131072x8x16_S131072x1x1_S131072x1x16_2_1_0_0_1_2_1116_wf : GatherDims.WF S131072x8x16 S131072x1x1 S131072x1x16 [2] [1] [0] [1] [0] 2 ![1, 1, 16]
  dot_S131072x16_S16x256_S131072x256_1_0_0_1_n_n_wf : DotDims.WF S131072x16 S16x256 S131072x256 [1] [0] [0] [1] [] []
  gather_S131072x8x32_S131072x1x1_S131072x1x32_2_1_0_0_1_2_1132_wf : GatherDims.WF S131072x8x32 S131072x1x1 S131072x1x32 [2] [1] [0] [1] [0] 2 ![1, 1, 32]
  dot_S131072x32_S32x8_S131072x8_1_0_0_1_n_n_wf : DotDims.WF S131072x32 S32x8 S131072x8 [1] [0] [0] [1] [] []
  gather_S131072x8x1_S131072x1x1_S131072x1x1_2_1_0_0_1_2_111_wf : GatherDims.WF S131072x8x1 S131072x1x1 S131072x1x1 [2] [1] [0] [1] [0] 2 ![1, 1, 1]

variable [Facts₀]

def dot_S131072x1024_S1024x128_S131072x128_1_0_0_1_n_n : DotDims S131072x1024 S1024x128 S131072x128 where
  lhsContracting := [1]
  rhsContracting := [0]
  lhsNonContracting := [0]
  rhsNonContracting := [1]
  lhsBatch := []
  rhsBatch := []
  wf := dot_S131072x1024_S1024x128_S131072x128_1_0_0_1_n_n_wf
def gather_S131072x8x16_S131072x1x1_S131072x1x16_2_1_0_0_1_2_1116 : GatherDims S131072x8x16 S131072x1x1 S131072x1x16 where
  offsetDims := [2]
  collapsedSliceDims := [1]
  operandBatchingDims := [0]
  startIndicesBatchingDims := [0]
  startIndexMap := [1]
  indexVectorDim := 2
  sliceSizes := ![1, 1, 16]
  wf := gather_S131072x8x16_S131072x1x1_S131072x1x16_2_1_0_0_1_2_1116_wf
def dot_S131072x16_S16x256_S131072x256_1_0_0_1_n_n : DotDims S131072x16 S16x256 S131072x256 where
  lhsContracting := [1]
  rhsContracting := [0]
  lhsNonContracting := [0]
  rhsNonContracting := [1]
  lhsBatch := []
  rhsBatch := []
  wf := dot_S131072x16_S16x256_S131072x256_1_0_0_1_n_n_wf
def gather_S131072x8x32_S131072x1x1_S131072x1x32_2_1_0_0_1_2_1132 : GatherDims S131072x8x32 S131072x1x1 S131072x1x32 where
  offsetDims := [2]
  collapsedSliceDims := [1]
  operandBatchingDims := [0]
  startIndicesBatchingDims := [0]
  startIndexMap := [1]
  indexVectorDim := 2
  sliceSizes := ![1, 1, 32]
  wf := gather_S131072x8x32_S131072x1x1_S131072x1x32_2_1_0_0_1_2_1132_wf
def dot_S131072x32_S32x8_S131072x8_1_0_0_1_n_n : DotDims S131072x32 S32x8 S131072x8 where
  lhsContracting := [1]
  rhsContracting := [0]
  lhsNonContracting := [0]
  rhsNonContracting := [1]
  lhsBatch := []
  rhsBatch := []
  wf := dot_S131072x32_S32x8_S131072x8_1_0_0_1_n_n_wf
def gather_S131072x8x1_S131072x1x1_S131072x1x1_2_1_0_0_1_2_111 : GatherDims S131072x8x1 S131072x1x1 S131072x1x1 where
  offsetDims := [2]
  collapsedSliceDims := [1]
  operandBatchingDims := [0]
  startIndicesBatchingDims := [0]
  startIndexMap := [1]
  indexVectorDim := 2
  sliceSizes := ![1, 1, 1]
  wf := gather_S131072x8x1_S131072x1x1_S131072x1x1_2_1_0_0_1_2_111_wf

class Facts : Prop extends Facts₀ where

variable [Facts]
-- ==== Proof.PreIdx.lean ====
/-
  From the precondition to the range of the stack indices: its last two conjuncts say that every entry of the index array is,
  read as a signed integer, at least 0 and below 8; as an unsigned word it is then below 8.
-/
import proofs.«426485_j6262062317933_3_alg».proof.Pre_finite_inputs
import proofs.«426485_j6262062317933_3_alg».proof.Proof.Gen.Pre_finite_inputs
import Idealize.ShloMosaic.Lib.ValueIdx
import Idealize.ShloMosaic.Lib.ReduceAll

noncomputable section

namespace Cert.PreIdx

open Idealize.ShloMosaic Cert.Pre_finite_inputs

variable {F : FTy → Type} [FloatOps F]

/-- A 32-bit word that is, read as a signed integer, at least 0 and below 8 is below 8 as an unsigned word. -/
theorem toNat_lt_of_toInt {w : BitVec 32} (h0 : (0#32 : BitVec 32).toInt ≤ w.toInt) (h8 : w.toInt < (8#32 : BitVec 32).toInt) :
    w.toNat < 8 := by
  have e0 : (0#32 : BitVec 32).toInt = 0 := by decide
  have e8 : (8#32 : BitVec 32).toInt = 8 := by decide
  rw [e0] at h0
  rw [e8] at h8
  rw [BitVec.toInt_eq_toNat_cond] at h0 h8
  have hw : w.toNat < 2 ^ 32 := w.isLt
  split at h0 <;> omega

/-- The tail of the conjunction: the last two conjuncts are the two range tests of the index array, whatever the conjunction
    of the earlier ones is. -/
theorem part2_lt (a1 : IVec S131072 32) (v33 : IVec S_ 1)
    (h : fn_part2 (F := F) a1 v33 ValueIdx.ix0 = 1#1) (b : Fin 131072) : (a1 (ValueIdx.ix1 b)).toNat < 8 := by
  haveI : Subsingleton S_.Idx := ⟨fun a b => funext fun d => d.elim0⟩
  unfold fn_part2 at h
  dsimp only at h
  -- the outermost conjunction: (earlier conjuncts ∧ all (0 ≤ idx)) ∧ all (idx < 8)
  obtain ⟨h37, h40⟩ := IntOp.andi_eq_one.1 h
  obtain ⟨_, h36⟩ := IntOp.andi_eq_one.1 h37
  -- each reduction by conjunction being 1, its operand is 1 at the entry b
  have hge := Host.reduce_andi_all _ _ _ _ _ h36 (ValueIdx.ix1 b)
  have hlt := Host.reduce_andi_all _ _ _ _ _ h40 (ValueIdx.ix1 b)
  -- the broadcast constants read at that entry are the constants
  have hge' : IntOp.cmpi .sge (a1 (ValueIdx.ix1 b)) 0#32 = 1#1 := hge
  have hlt' : IntOp.cmpi .slt (a1 (ValueIdx.ix1 b)) 8#32 = 1#1 := hlt
  exact toNat_lt_of_toInt (IntOp.cmpi_sge.1 hge') (IntOp.cmpi_slt.1 hlt')

/-- Where the precondition holds, every stack index is a word below 8. -/
theorem idx_lt (a0 : FVec F S131072x1024 .f32) (a1 : IVec S131072 32) (a2 : FVec F S128x1024 .f32) (a3 : FVec F S128 .f32)
    (a4 : FVec F S256x16 .f32) (a5 : FVec F S256 .f32) (a6 : FVec F S8x32 .f32) (a7 : FVec F S8 .f32)
    (h : Cert.Pre_finite_inputs.fn (F := F) a0 a1 a2 a3 a4 a5 a6 a7 = fun _ => 1#1) (b : Fin 131072) :
    (a1 (ValueIdx.ix1 b)).toNat < 8 := by
  have h0 := congrFun h ValueIdx.ix0
  -- the conjunction is written in three parts, each ending in the call of the next
  unfold fn fn_part1 at h0
  exact part2_lt a1 _ h0 b

end Cert.PreIdx

end
-- ==== Proof.Spec.lean ====
/-
  The function both programs compute, row by row, on the extended reals.

  A row b of the input selects one of eight stacks, s = idx[b]. Three affine layers follow one another; after each of the
  first two, only the columns of the selected stack are kept and sent through the quantiser
  q(y) = min(127, max(0, ⌊y / 64⌋)):

    pre1[n] = Σ_k x[b,k] · w1[n,k] + b1[n]            (n < 128),   act1[j] = q(pre1[16 s + j])   (j < 16)
    pre2[n] = Σ_j act1[j] · w2[n,j] + b2[n]           (n < 256),   act2[j] = q(pre2[32 s + j])   (j < 32)
    pre3[n] = Σ_j act2[j] · wout[n,j] + bout[n]       (n < 8),     out[b]  = pre3[s].

  Nothing here mentions a program: the two sides of the certificate are each shown equal to this.
-/
import Idealize.ShloMosaic.PureOps.Ideal
import Idealize.ShloMosaic.Lib.ValueIdx

noncomputable section

namespace Cert.Spec

open Idealize.ShloMosaic Idealize.ShloMosaic.ValueIdx

/-! ## The float literals the two programs spell, as extended reals -/

theorem ofBits_zero : Ideal.ofBits .f32 0x00000000#32 = 0 := by
  simp [Ideal.ofBits, Ideal.ieee]

/-- 0x3C800000 is 2⁻⁶, the kernel's scale. -/
theorem ofBits_inv64 : Ideal.ofBits .f32 0x3C800000#32 = ((1 / 64 : ℝ) : EReal) := by
  simp [Ideal.ofBits, Ideal.ieee, -EReal.coe_mul]; norm_num

/-- 0x42800000 is 64, the reference's divisor. -/
theorem ofBits_64 : Ideal.ofBits .f32 0x42800000#32 = ((64 : ℝ) : EReal) := by
  simp [Ideal.ofBits, Ideal.ieee, -EReal.coe_mul]; norm_num

/-- 0x42FE0000 is 127, the upper clamp. -/
theorem ofBits_127 : Ideal.ofBits .f32 0x42FE0000#32 = ((127 : ℝ) : EReal) := by
  simp [Ideal.ofBits, Ideal.ieee, -EReal.coe_mul]; norm_num

/-! ## One row -/

/-- The stack an index word selects (total: the word's value modulo 8; on words below 8 it is the word). -/
def stack (i : BitVec 32) : Fin 8 := ⟨i.toNat % 8, Nat.mod_lt _ (by decide)⟩

theorem stack_val_of_lt {i : BitVec 32} (h : i.toNat < 8) : (stack i).val = i.toNat := Nat.mod_eq_of_lt h

/-- The quantiser: scale by 2⁻⁶, round down, clamp to [0, 127]. Its literals are kept as the words the kernel spells. -/
def quant (y : EReal) : EReal :=
  min (Ideal.ofBits .f32 0x42FE0000#32)
    (max (Ideal.ofBits .f32 0x00000000#32) (Ideal.liftRound Int.floor (y * Ideal.ofBits .f32 0x3C800000#32)))

/-- Column 16 s + j of the first layer: entry j of stack s. -/
def col1 (s : Fin 8) (j : Fin 16) : Fin 128 := ⟨16 * s.val + j.val, by omega⟩
/-- Column 32 s + j of the second layer: entry j of stack s. -/
def col2 (s : Fin 8) (j : Fin 32) : Fin 256 := ⟨32 * s.val + j.val, by omega⟩

section Row
variable (xr : Fin 1024 → EReal) (s : Fin 8)
  (w1 : Fin 128 → Fin 1024 → EReal) (b1 : Fin 128 → EReal)
  (w2 : Fin 256 → Fin 16 → EReal) (b2 : Fin 256 → EReal)
  (wo : Fin 8 → Fin 32 → EReal) (bo : Fin 8 → EReal)

def pre1 (n : Fin 128) : EReal := (∑ k : Fin 1024, xr k * w1 n k) + b1 n
def act1 (j : Fin 16) : EReal := quant (pre1 xr w1 b1 (col1 s j))
def pre2 (n : Fin 256) : EReal := (∑ j : Fin 16, act1 xr s w1 b1 j * w2 n j) + b2 n
def act2 (j : Fin 32) : EReal := quant (pre2 xr s w1 b1 w2 b2 (col2 s j))
def pre3 (n : Fin 8) : EReal := (∑ j : Fin 32, act2 xr s w1 b1 w2 b2 j * wo n j) + bo n
/-- The row's result: the selected stack's entry of the last layer. -/
def rowOut : EReal := pre3 xr s w1 b1 w2 b2 wo bo s
end Row

/-! ## The whole result array, from the argument arrays -/

/-- The [131072, 1] result as a function of the eight argument arrays: row b is rowOut of x's row b at the stack idx[b]. -/
def out (X : (⟨2, ![131072, 1024]⟩ : Shape).Idx → EReal) (I : (⟨1, ![131072]⟩ : Shape).Idx → BitVec 32)
    (W1 : (⟨2, ![128, 1024]⟩ : Shape).Idx → EReal) (B1 : (⟨1, ![128]⟩ : Shape).Idx → EReal)
    (W2 : (⟨2, ![256, 16]⟩ : Shape).Idx → EReal) (B2 : (⟨1, ![256]⟩ : Shape).Idx → EReal)
    (WO : (⟨2, ![8, 32]⟩ : Shape).Idx → EReal) (BO : (⟨1, ![8]⟩ : Shape).Idx → EReal) :
    (⟨2, ![131072, 1]⟩ : Shape).Idx → EReal :=
  fun y =>
    rowOut (fun k => X (ix2 (⟨(y 0).val, idx2_lt0 y⟩ : Fin 131072) k)) (stack (I (ix1 (⟨(y 0).val, idx2_lt0 y⟩ : Fin 131072))))
      (fun n k => W1 (ix2 n k)) (fun n => B1 (ix1 n)) (fun n j => W2 (ix2 n j)) (fun n => B2 (ix1 n))
      (fun n j => WO (ix2 n j)) (fun n => BO (ix1 n))

end Cert.Spec

end
-- ==== Proof.Algebra.lean ====
/-
  The identities that join the two programs to the specification.

  * The reference quantises by trunc, divide by 64, floor, clamp to [0,127], relu; the kernel by multiply by 2⁻⁶, floor,
    clamp. On every extended real these agree: at the infinities both give the clamp's end; on a real r ≥ 0 the nested floor
    ⌊⌊r⌋/64⌋ is ⌊r/64⌋; on r < 0 both floors are ≤ 0 and the clamp's lower end answers.
  * The kernel zeroes every column outside the selected stack and multiplies by a weight matrix tiled eight times along the
    contracted axis; the sum over all 8·L columns is then the sum over the L columns of the selected stack.
  * A sum over eight entries of which only the selected one is kept is that entry.
  * The kernel's range test is one unsigned comparison of (column − L·s) with L; for s < 8 it says L·s ≤ column < L·s + L.
-/
import proofs.«426485_j6262062317933_3_alg».proof.Proof.Spec

noncomputable section

namespace Cert.Spec

open Idealize.ShloMosaic

/-! ## The two quantisers -/

/-- The reference's chain on one extended real, in the order its operations are printed. -/
def refQuant (y : EReal) : EReal :=
  max (min (((127#32 : BitVec 32).toInt : ℝ) : EReal)
        (max (((0#32 : BitVec 32).toInt : ℝ) : EReal)
          (Ideal.liftRound Int.floor
            (Ideal.div
              (Scalar.select (Ideal.cmp .olt y (Ideal.ofBits .f32 0x00000000#32)) (Ideal.liftRound Int.ceil y) (Ideal.liftRound Int.floor y))
              (Ideal.ofBits .f32 0x42800000#32)))))
    (Ideal.ofBits .f32 0x00000000#32)

theorem toInt_127 : (((127#32 : BitVec 32).toInt : ℝ) : EReal) = ((127 : ℝ) : EReal) := by
  have h : (127#32 : BitVec 32).toInt = 127 := by decide
  rw [h]; norm_num

theorem toInt_0 : (((0#32 : BitVec 32).toInt : ℝ) : EReal) = 0 := by
  have h : (0#32 : BitVec 32).toInt = 0 := by decide
  rw [h]; norm_num

/-- Rounding down after dividing a rounded-down real by 64 is rounding down after dividing the real by 64. -/
theorem floor_floor_div (r : ℝ) : ⌊((⌊r⌋ : ℤ) : ℝ) * (1 / 64 : ℝ)⌋ = ⌊r * (1 / 64 : ℝ)⌋ := by
  have h1 : ((⌊r⌋ : ℤ) : ℝ) * (1 / 64 : ℝ) = ((⌊r⌋ : ℤ) : ℝ) / ((64 : ℕ) : ℝ) := by push_cast; ring
  have h2 : r * (1 / 64 : ℝ) = r / ((64 : ℕ) : ℝ) := by push_cast; ring
  rw [h1, h2, Int.floor_div_natCast, Int.floor_div_natCast, Int.floor_intCast]

theorem refQuant_eq (y : EReal) : refQuant y = quant y := by
  unfold refQuant quant
  rw [ofBits_zero, ofBits_64, ofBits_127, ofBits_inv64, toInt_127, toInt_0, Ideal.div_coe (by norm_num : (64 : ℝ) ≠ 0)]
  induction y using EReal.rec with
  | bot =>
    have hc : Ideal.cmp .olt (⊥ : EReal) 0 = 1#1 := by simp [Ideal.cmp]
    rw [hc]
    have hb : (⊥ : EReal) * ((1 / 64 : ℝ) : EReal) = ⊥ := EReal.bot_mul_coe_of_pos (by norm_num)
    show max (min _ (max 0 (Ideal.liftRound Int.floor ((⊥ : EReal) * _)))) 0 = min _ (max 0 (Ideal.liftRound Int.floor ((⊥ : EReal) * _)))
    rw [hb]
    show max (min ((127 : ℝ) : EReal) (max 0 ⊥)) 0 = min ((127 : ℝ) : EReal) (max 0 ⊥)
    have h127 : (0 : EReal) ≤ ((127 : ℝ) : EReal) := by exact_mod_cast (by norm_num : (0 : ℝ) ≤ 127)
    rw [max_eq_left bot_le, min_eq_right h127, max_self]
  | top =>
    have hc : Ideal.cmp .olt (⊤ : EReal) 0 = 0#1 := by simp [Ideal.cmp]
    rw [hc]
    have ht : (⊤ : EReal) * ((1 / 64 : ℝ) : EReal) = ⊤ := EReal.top_mul_coe_of_pos (by norm_num)
    show max (min _ (max 0 (Ideal.liftRound Int.floor ((⊤ : EReal) * _)))) 0 = min _ (max 0 (Ideal.liftRound Int.floor ((⊤ : EReal) * _)))
    rw [ht]
    show max (min ((127 : ℝ) : EReal) (max 0 ⊤)) 0 = min ((127 : ℝ) : EReal) (max 0 ⊤)
    have h127 : (0 : EReal) ≤ ((127 : ℝ) : EReal) := by exact_mod_cast (by norm_num : (0 : ℝ) ≤ 127)
    rw [max_eq_right le_top, min_eq_left le_top, max_eq_left h127]
  | coe r =>
    have h127 : (0 : EReal) ≤ ((127 : ℝ) : EReal) := by exact_mod_cast (by norm_num : (0 : ℝ) ≤ 127)
    have hge : ∀ z : EReal, (0 : EReal) ≤ min ((127 : ℝ) : EReal) (max 0 z) := fun z => le_min h127 (le_max_left _ _)
    by_cases hr : r < 0
    · have hc : Ideal.cmp .olt ((r : ℝ) : EReal) 0 = 1#1 := by
        have : ((r : ℝ) : EReal) < 0 := by exact_mod_cast hr
        simp [Ideal.cmp, this]
      rw [hc]
      show max (min _ (max 0 (Ideal.liftRound Int.floor (Ideal.liftRound Int.ceil ((r : ℝ) : EReal) * _)))) 0
        = min _ (max 0 (Ideal.liftRound Int.floor (((r : ℝ) : EReal) * _)))
      show max (min _ (max 0 (Ideal.liftRound Int.floor ((((⌈r⌉ : ℤ) : ℝ) : EReal) * ((1 / 64 : ℝ) : EReal))))) 0
        = min _ (max 0 (Ideal.liftRound Int.floor (((r : ℝ) : EReal) * ((1 / 64 : ℝ) : EReal))))
      rw [← EReal.coe_mul, ← EReal.coe_mul]
      show max (min _ (max 0 (((⌊((⌈r⌉ : ℤ) : ℝ) * (1 / 64 : ℝ)⌋ : ℤ) : ℝ) : EReal))) 0
        = min _ (max 0 (((⌊r * (1 / 64 : ℝ)⌋ : ℤ) : ℝ) : EReal))
      have hp : (((⌊((⌈r⌉ : ℤ) : ℝ) * (1 / 64 : ℝ)⌋ : ℤ) : ℝ) : EReal) ≤ 0 := by
        have h1 : ((⌈r⌉ : ℤ) : ℝ) ≤ 0 := by
          have : ⌈r⌉ ≤ 0 := Int.ceil_le.mpr (by simpa using hr.le)
          exact_mod_cast this
        have h2 : ⌊((⌈r⌉ : ℤ) : ℝ) * (1 / 64 : ℝ)⌋ ≤ 0 := Int.floor_nonpos (by linarith)
        exact_mod_cast h2
      have hq : (((⌊r * (1 / 64 : ℝ)⌋ : ℤ) : ℝ) : EReal) ≤ 0 := by
        have h2 : ⌊r * (1 / 64 : ℝ)⌋ ≤ 0 := Int.floor_nonpos (by linarith)
        exact_mod_cast h2
      rw [max_eq_left hp, max_eq_left hq, min_eq_right h127, max_self]
    · have hc : Ideal.cmp .olt ((r : ℝ) : EReal) 0 = 0#1 := by
        have : ¬ ((r : ℝ) : EReal) < 0 := by
          have : (0 : ℝ) ≤ r := not_lt.mp hr
          exact not_lt.mpr (by exact_mod_cast this)
        simp [Ideal.cmp, this]
      rw [hc]
      show max (min _ (max 0 (Ideal.liftRound Int.floor ((((⌊r⌋ : ℤ) : ℝ) : EReal) * ((1 / 64 : ℝ) : EReal))))) 0
        = min _ (max 0 (Ideal.liftRound Int.floor (((r : ℝ) : EReal) * ((1 / 64 : ℝ) : EReal))))
      rw [← EReal.coe_mul, ← EReal.coe_mul]
      show max (min _ (max 0 (((⌊((⌊r⌋ : ℤ) : ℝ) * (1 / 64 : ℝ)⌋ : ℤ) : ℝ) : EReal))) 0
        = min _ (max 0 (((⌊r * (1 / 64 : ℝ)⌋ : ℤ) : ℝ) : EReal))
      rw [floor_floor_div, max_eq_left (hge _)]

/-- A zeroed column quantises to zero. -/
theorem quant_ofBits_zero : quant (Ideal.ofBits .f32 0x00000000#32) = 0 := by
  unfold quant
  rw [ofBits_zero, ofBits_127, zero_mul]
  show min ((127 : ℝ) : EReal) (max 0 (((⌊(0 : ℝ)⌋ : ℤ) : ℝ) : EReal)) = 0
  have h127 : (0 : EReal) ≤ ((127 : ℝ) : EReal) := by exact_mod_cast (by norm_num : (0 : ℝ) ≤ 127)
  rw [Int.floor_zero]
  simp only [Int.cast_zero, EReal.coe_zero, max_self]
  exact min_eq_right h127

/-! ## Masked contractions -/

theorem masked_sum16 (s : Fin 8) (f : Fin 128 → EReal) (g : Fin 16 → EReal) :
    (∑ k : Fin 128, (if 16 * s.val ≤ k.val ∧ k.val < 16 * s.val + 16 then f k else 0) * g ⟨k.val % 16, Nat.mod_lt _ (by decide)⟩)
      = ∑ j : Fin 16, f (col1 s j) * g j := by
  refine ((finProdFinEquiv : Fin 8 × Fin 16 ≃ Fin 128).sum_comp _).symm.trans ?_
  rw [Fintype.sum_prod_type, Finset.sum_eq_single s]
  · refine Finset.sum_congr rfl fun j _ => ?_
    have hv : ((finProdFinEquiv (s, j) : Fin 128) : ℕ) = j.val + 16 * s.val := rfl
    have hcond : 16 * s.val ≤ ((finProdFinEquiv (s, j) : Fin 128) : ℕ)
        ∧ ((finProdFinEquiv (s, j) : Fin 128) : ℕ) < 16 * s.val + 16 := by
      rw [hv]; have := j.isLt; omega
    rw [if_pos hcond]
    have e1 : (finProdFinEquiv (s, j) : Fin 128) = col1 s j := Fin.ext (by rw [hv]; simp only [col1]; omega)
    have e2 : (⟨((finProdFinEquiv (s, j) : Fin 128) : ℕ) % 16, Nat.mod_lt _ (by decide)⟩ : Fin 16) = j :=
      Fin.ext (by simp only [hv]; have := j.isLt; omega)
    rw [e2, e1]
  · intro a _ ha
    refine Finset.sum_eq_zero fun j _ => ?_
    have hv : ((finProdFinEquiv (a, j) : Fin 128) : ℕ) = j.val + 16 * a.val := rfl
    have hcond : ¬ (16 * s.val ≤ ((finProdFinEquiv (a, j) : Fin 128) : ℕ)
        ∧ ((finProdFinEquiv (a, j) : Fin 128) : ℕ) < 16 * s.val + 16) := by
      rw [hv]; intro h; have := j.isLt; exact ha (Fin.ext (by omega))
    rw [if_neg hcond, zero_mul]
  · intro hs
    exact absurd (Finset.mem_univ s) hs

theorem masked_sum32 (s : Fin 8) (f : Fin 256 → EReal) (g : Fin 32 → EReal) :
    (∑ k : Fin 256, (if 32 * s.val ≤ k.val ∧ k.val < 32 * s.val + 32 then f k else 0) * g ⟨k.val % 32, Nat.mod_lt _ (by decide)⟩)
      = ∑ j : Fin 32, f (col2 s j) * g j := by
  refine ((finProdFinEquiv : Fin 8 × Fin 32 ≃ Fin 256).sum_comp _).symm.trans ?_
  rw [Fintype.sum_prod_type, Finset.sum_eq_single s]
  · refine Finset.sum_congr rfl fun j _ => ?_
    have hv : ((finProdFinEquiv (s, j) : Fin 256) : ℕ) = j.val + 32 * s.val := rfl
    have hcond : 32 * s.val ≤ ((finProdFinEquiv (s, j) : Fin 256) : ℕ)
        ∧ ((finProdFinEquiv (s, j) : Fin 256) : ℕ) < 32 * s.val + 32 := by
      rw [hv]; have := j.isLt; omega
    rw [if_pos hcond]
    have e1 : (finProdFinEquiv (s, j) : Fin 256) = col2 s j := Fin.ext (by rw [hv]; simp only [col2]; omega)
    have e2 : (⟨((finProdFinEquiv (s, j) : Fin 256) : ℕ) % 32, Nat.mod_lt _ (by decide)⟩ : Fin 32) = j :=
      Fin.ext (by simp only [hv]; have := j.isLt; omega)
    rw [e2, e1]
  · intro a _ ha
    refine Finset.sum_eq_zero fun j _ => ?_
    have hv : ((finProdFinEquiv (a, j) : Fin 256) : ℕ) = j.val + 32 * a.val := rfl
    have hcond : ¬ (32 * s.val ≤ ((finProdFinEquiv (a, j) : Fin 256) : ℕ)
        ∧ ((finProdFinEquiv (a, j) : Fin 256) : ℕ) < 32 * s.val + 32) := by
      rw [hv]; intro h; have := j.isLt; exact ha (Fin.ext (by omega))
    rw [if_neg hcond, zero_mul]
  · intro hs
    exact absurd (Finset.mem_univ s) hs

theorem onehot_sum (s : Fin 8) (h : Fin 8 → EReal) : (∑ n : Fin 8, if n.val = s.val then h n else 0) = h s := by
  rw [Finset.sum_eq_single s]
  · simp
  · intro b _ hb
    rw [if_neg (fun e => hb (Fin.ext e))]
  · intro hs
    exact absurd (Finset.mem_univ s) hs

/-! ## The kernel's range tests on words -/

theorem mask16_iff (i : BitVec 32) (hi : i.toNat < 8) (n : ℕ) (hn : n < 128) :
    (BitVec.ofNat 32 n - i * 16#32).toNat < 16 ↔ 16 * (stack i).val ≤ n ∧ n < 16 * (stack i).val + 16 := by
  rw [stack_val_of_lt hi]
  simp only [BitVec.toNat_sub, BitVec.toNat_mul, BitVec.toNat_ofNat]
  omega

theorem mask32_iff (i : BitVec 32) (hi : i.toNat < 8) (n : ℕ) (hn : n < 256) :
    (BitVec.ofNat 32 n - i * 32#32).toNat < 32 ↔ 32 * (stack i).val ≤ n ∧ n < 32 * (stack i).val + 32 := by
  rw [stack_val_of_lt hi]
  simp only [BitVec.toNat_sub, BitVec.toNat_mul, BitVec.toNat_ofNat]
  omega

theorem eq_iff (i : BitVec 32) (hi : i.toNat < 8) (n : ℕ) (hn : n < 8) :
    BitVec.ofNat 32 n = i ↔ n = (stack i).val := by
  rw [stack_val_of_lt hi]
  constructor
  · intro h
    have := congrArg BitVec.toNat h
    simp only [BitVec.toNat_ofNat] at this
    omega
  · intro h
    apply BitVec.eq_of_toNat_eq
    simp only [BitVec.toNat_ofNat]
    omega

end Cert.Spec

end
-- ==== Proof.KerPayload.lean ====
/-
  What the kernel body stores, read at one column of its [1, 2048] output block.

  The body is given eight loaded blocks: 2048 rows of x, their stack indices, and the (transposed, tiled) weights and the biases.
  Column r of the stored row is the specification's row function of row r of the x block at the stack that row's index selects,
  provided the weight blocks hold the transposed first-layer weights and the second- and third-layer weights repeated eight
  times along the contracted axis, and the index is a word below 8: the masked matmuls collapse to the selected stack's columns,
  and the one-hot sum picks the selected entry.
-/
import proofs.«426485_j6262062317933_3_alg».proof.Proof.Gen.KernelIdeal.Skeleton
import proofs.«426485_j6262062317933_3_alg».proof.Proof.Algebra
import Idealize.ShloMosaic.PureOps.Ideal.Laws
import Idealize.ShloMosaic.Lib.ValueIdx
import Idealize.ShloMosaic.Lib.Pipeline.Value
import Idealize.ShloMosaic.Lib.ValueLayout

noncomputable section

namespace Cert.KerSide

open Idealize.ShloMosaic Idealize.ShloMosaic.ValueIdx Cert.KernelIdeal Cert.KernelIdeal.Gen

/-! ## A plain matrix product read at an index -/

section Plain
variable {M K N : Nat}

/-- The left operand's row coordinate is the output's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (id (List.not_mem_nil) : ¬(0 : Fin 2) ∈ (DotDims.plain M K N).lhsBatch),
    dif_pos (id (List.mem_singleton.mpr rfl) : (0 : Fin 2) ∈ (DotDims.plain M K N).lhsNonContracting)]
  rfl

/-- The left operand's column coordinate is the contracted coordinate. -/
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contracted coordinate. -/
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (id (List.not_mem_nil) : ¬(1 : Fin 2) ∈ (DotDims.plain M K N).rhsBatch),
    dif_pos (id (List.mem_singleton.mpr rfl) : (1 : Fin 2) ∈ (DotDims.plain M K N).rhsNonContracting)]
  rfl

/-- A matrix product into the zero accumulator, at row a and column b: the sum over the contracted coordinate. -/
theorem matmul_plain_apply {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (a : Fin M) (b : Fin N) :
    matmul D none A B (constant (F := Ideal) ⟨2, ![M, N]⟩ .f32 0x00000000#32) (ix2 a b) = ∑ c : Fin K, A (ix2 a c) * B (ix2 c b) := by
  subst hD
  refine (Ideal.matmul_constant_zero_apply (DotDims.plain M K N) none A B (ix2 a b)).trans ?_
  rw [← Equiv.sum_comp (contrEquiv1 (DotDims.plain M K N) K rfl rfl).symm]
  refine Finset.sum_congr rfl fun c _ => ?_
  have hc := contrEquiv1_symm_val (DotDims.plain M K N) K rfl rfl c
  have el : (DotDims.plain M K N).lhsIdx (ix2 a b) ((contrEquiv1 (DotDims.plain M K N) K rfl rfl).symm c) = ix2 a c :=
    funext fun x => Fin.ext (by
      match x with
      | ⟨0, _⟩ => exact plain_lhs_0 _ _
      | ⟨1, _⟩ => exact (plain_lhs_1 _ _).trans hc)
  have er : (DotDims.plain M K N).rhsIdx (ix2 a b) ((contrEquiv1 (DotDims.plain M K N) K rfl rfl).symm c) = ix2 c b :=
    funext fun x => Fin.ext (by
      match x with
      | ⟨0, _⟩ => exact (plain_rhs_0 _ _).trans hc
      | ⟨1, _⟩ => exact plain_rhs_1 _ _)
  rw [el, er]

end Plain

/-! ## The column forms of two layout operations -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One affine layer, one range word, one masked quantiser, read at an index -/

/-- A matrix product into the zero accumulator plus a bias row, at row a and column b. -/
theorem layer_apply {M K N : Nat} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (bias : FVec Ideal ⟨1, ![N]⟩ .f32)
    (hc : (⟨1, ![N]⟩ : Shape).ShapeCasts ⟨2, ![1, N]⟩) (hb : (⟨2, ![1, N]⟩ : Shape).Broadcasts ⟨2, ![M, N]⟩) (a : Fin M) (b : Fin N) :
    addf (matmul D none A B (constant (F := Ideal) ⟨2, ![M, N]⟩ .f32 0x00000000#32))
        (broadcastTo ⟨2, ![M, N]⟩ (shapeCast ⟨2, ![1, N]⟩ bias hc) hb) (ix2 a b)
      = (∑ c : Fin K, A (ix2 a c) * B (ix2 c b)) + bias (ix1 b) := by
  refine (addf_apply _ _ _).trans ?_
  rw [matmul_plain_apply D hD A B a b, broadcastTo_1b_ab_apply, shapeCast_a_1a_apply]

/-- The range test's left operand at row r and column n: the column's word minus the row's index word times the stack width. -/
theorem rangeWord_apply {M N : Nat} (v3 : IVec ⟨2, ![M, 1]⟩ 32) (L : BitVec 32)
    (hi : (⟨2, ![M, N]⟩ : Shape).Iotas .tc 32 [1]) (hb : (⟨2, ![M, 1]⟩ : Shape).Broadcasts ⟨2, ![M, N]⟩) (r : Fin M) (n : Fin N) :
    subi (iota .tc ⟨2, ![M, N]⟩ 32 [1] hi) (broadcastTo ⟨2, ![M, N]⟩ (muli v3 (broadcast ⟨2, ![M, 1]⟩ L)) hb) (ix2 r n)
      = BitVec.ofNat 32 n.val - v3 (ix2 r (0 : Fin 1)) * L := by
  show IntOp.subi (iota .tc ⟨2, ![M, N]⟩ 32 [1] hi (ix2 r n)) (broadcastTo ⟨2, ![M, N]⟩ (muli v3 (broadcast ⟨2, ![M, 1]⟩ L)) hb (ix2 r n)) = _
  rw [iota_single_apply, broadcastTo_a1_ab_apply]
  rfl

/-- The quantiser chain on a masked entry: a kept entry is quantised, a zeroed one gives zero. -/
theorem maskq (c : BitVec 1) (y : EReal) :
    min (Ideal.ofBits .f32 0x42FE0000#32) (max (Ideal.ofBits .f32 0x00000000#32)
      (Ideal.liftRound Int.floor (Scalar.select c y (Ideal.ofBits .f32 0x00000000#32) * Ideal.ofBits .f32 0x3C800000#32)))
      = if c = 1#1 then Cert.Spec.quant y else 0 := by
  by_cases hc : c = 1#1
  · rw [if_pos hc, hc, select_one]; rfl
  · rw [if_neg hc, eq_zero_of_ne_one hc, select_zero]; exact Cert.Spec.quant_ofBits_zero

/-- The same chain as the body spells it on vectors, read at an index. -/
theorem maskq_apply {s : Shape} (c : IVec s 1) (x : FVec Ideal s .f32) (h : FTy.bits .bf16 < FTy.bits .f32) (i : s.Idx) :
    (truncf .bf16 (minimumf (broadcast s (Scalar.ofBits (F := Ideal) .f32 0x42FE0000#32))
        (maximumf (broadcast s (Scalar.ofBits (F := Ideal) .f32 0x00000000#32))
          (floor (mulf (select c x (broadcast s (Scalar.ofBits (F := Ideal) .f32 0x00000000#32)))
            (broadcast s (Scalar.ofBits (F := Ideal) .f32 0x3C800000#32)))))) h : FVec Ideal s .bf16) i
      = if c i = 1#1 then Cert.Spec.quant (x i) else 0 :=
  maskq (c i) (x i)

/-- The range test of a column against a row's stack: set exactly when the column's word minus the row's index word times the
    width is, unsigned, below the width. -/
theorem rangeTest_apply {M N : Nat} (v3 : IVec ⟨2, ![M, 1]⟩ 32) (L : BitVec 32)
    (hi : (⟨2, ![M, N]⟩ : Shape).Iotas .tc 32 [1]) (hb : (⟨2, ![M, 1]⟩ : Shape).Broadcasts ⟨2, ![M, N]⟩) (r : Fin M) (n : Fin N) :
    cmpi .ult (subi (iota .tc ⟨2, ![M, N]⟩ 32 [1] hi) (broadcastTo ⟨2, ![M, N]⟩ (muli v3 (broadcast ⟨2, ![M, 1]⟩ L)) hb))
        (broadcast ⟨2, ![M, N]⟩ L) (ix2 r n) = 1#1
      ↔ (BitVec.ofNat 32 n.val - v3 (ix2 r (0 : Fin 1)) * L).toNat < L.toNat := by
  show IntOp.cmpi .ult (subi (iota .tc ⟨2, ![M, N]⟩ 32 [1] hi) (broadcastTo ⟨2, ![M, N]⟩ (muli v3 (broadcast ⟨2, ![M, 1]⟩ L)) hb) (ix2 r n)) L = 1#1 ↔ _
  rw [rangeWord_apply]
  exact IntOp.cmpi_ult

/-- The one-hot select at row r and lane n: the entry when the lane's word is the row's index word, else the zero fill. -/
theorem onehot_apply {M N : Nat} (v3 : IVec ⟨2, ![M, 1]⟩ 32) (x : FVec Ideal ⟨2, ![M, N]⟩ .f32)
    (hi : (⟨2, ![M, N]⟩ : Shape).Iotas .tc 32 [1]) (hb : (⟨2, ![M, 1]⟩ : Shape).Broadcasts ⟨2, ![M, N]⟩) (r : Fin M) (n : Fin N) :
    select (cmpi .eq (iota .tc ⟨2, ![M, N]⟩ 32 [1] hi) (broadcastTo ⟨2, ![M, N]⟩ v3 hb)) x
        (broadcast ⟨2, ![M, N]⟩ (Scalar.ofBits (F := Ideal) .f32 0x00000000#32)) (ix2 r n)
      = Scalar.select (IntOp.cmpi .eq (BitVec.ofNat 32 n.val) (v3 (ix2 r (0 : Fin 1)))) (x (ix2 r n)) (Ideal.ofBits .f32 0x00000000#32) := by
  show Scalar.select (IntOp.cmpi .eq (iota .tc ⟨2, ![M, N]⟩ 32 [1] hi (ix2 r n)) (broadcastTo ⟨2, ![M, N]⟩ v3 hb (ix2 r n))) (x (ix2 r n)) _ = _
  rw [iota_single_apply, broadcastTo_a1_ab_apply]
  rfl

/-- On an index word below 8, that select keeps the entry of the selected stack's lane and zeroes the others. -/
theorem onehot_entry (i : BitVec 32) (hi : i.toNat < 8) (n : Fin 8) (y : EReal) :
    Scalar.select (IntOp.cmpi .eq (BitVec.ofNat 32 n.val) i) y (Ideal.ofBits .f32 0x00000000#32)
      = if n.val = (Cert.Spec.stack i).val then y else 0 := by
  by_cases h : n.val = (Cert.Spec.stack i).val
  · rw [if_pos h, IntOp.cmpi_eq.mpr ((Cert.Spec.eq_iff i hi n.val n.isLt).mpr h), select_one]
  · rw [if_neg h, eq_zero_of_ne_one (fun hc => h ((Cert.Spec.eq_iff i hi n.val n.isLt).mp (IntOp.cmpi_eq.mp hc))), select_zero,
      Cert.Spec.ofBits_zero]

/-- The sum over the 8 lanes of a [2048, 8] vector, at row r. -/
theorem laneSum_apply (src : FVec Ideal S2048x8 .f32) (h : S2048x8.Reduces [1] S2048) (hφ : FKind.Formats .f32)
    (hacc : (0x00000000#32 : BitVec (FTy.bits .f32)) = FKind.add.neutral .f32 hφ) (r : Fin 2048) :
    multiReduction (F := Ideal) .add [1] S2048 src 0x00000000#32 h hφ hacc (ix1 r) = ∑ n : Fin 8, src (ix2 r n) := by
  refine (Ideal.multiReduction_add_single src 0x00000000#32 h hφ hacc (ix1 r)).trans ?_
  refine Finset.sum_congr rfl fun k _ => congrArg src ?_
  funext a
  refine Fin.ext ?_
  match a with
  | ⟨0, _⟩ => rfl
  | ⟨1, _⟩ => rfl

/-! ## The body's payloads at row r -/

/-- The index column as the body passes it on: the loaded column. -/
theorem pay2_apply (v2 : IVec S2048x1 32) (r : Fin 2048) :
    k0_pay2 (F := Ideal) v2 (ix2 r (0 : Fin 1)) = v2 (ix2 r (0 : Fin 1)) :=
  congrFun (shapeCast_self v2 shapeCasts_S2048x1_S2048x1) _

/-- The second range test's left operand at row r and column n. -/
theorem pay4_apply (v2 : IVec S2048x1 32) (r : Fin 2048) (n : Fin 256) :
    k0_pay4 (F := Ideal) v2 (ix2 r n) = BitVec.ofNat 32 n.val - v2 (ix2 r (0 : Fin 1)) * 32#32 := by
  unfold k0_pay4
  refine (rangeWord_apply (k0_pay2 (F := Ideal) v2) 32#32 _ _ r n).trans ?_
  rw [pay2_apply]

/-- Layers 1 and 2 up to the second pre-mask sum, at row r and column n: the specification's second-layer entry. -/
theorem pay3_apply (v0 : FVec Ideal S2048x1024 .f32) (v2 : IVec S2048x1 32) (v4 : FVec Ideal S1024x128 .bf16) (v7 : FVec Ideal S128 .f32)
    (v28 : FVec Ideal S128x256 .bf16) (v31 : FVec Ideal S256 .f32)
    (w1 : Fin 128 → Fin 1024 → EReal) (b1 : Fin 128 → EReal) (w2 : Fin 256 → Fin 16 → EReal) (b2 : Fin 256 → EReal)
    (h4 : ∀ (k : Fin 1024) (n : Fin 128), v4 (ix2 k n) = w1 n k)
    (h7 : ∀ n : Fin 128, v7 (ix1 n) = b1 n)
    (h28 : ∀ (k : Fin 128) (n : Fin 256), v28 (ix2 k n) = w2 n ⟨k.val % 16, Nat.mod_lt _ (by decide)⟩)
    (h31 : ∀ n : Fin 256, v31 (ix1 n) = b2 n)
    (r : Fin 2048) (hr : (v2 (ix2 r (0 : Fin 1))).toNat < 8) (n : Fin 256) :
    k0_pay3 (F := Ideal) v0 v2 v4 v7 v28 v31 (ix2 r n)
      = Cert.Spec.pre2 (fun k => v0 (ix2 r k)) (Cert.Spec.stack (v2 (ix2 r (0 : Fin 1)))) w1 b1 w2 b2 n := by
  unfold k0_pay3
  refine (layer_apply _ rfl _ _ v31 _ _ r n).trans ?_
  unfold Cert.Spec.pre2
  refine congrArg₂ (· + ·) ?_ (h31 n)
  refine (Finset.sum_congr rfl fun c _ => ?_).trans
    (Cert.Spec.masked_sum16 (Cert.Spec.stack (v2 (ix2 r (0 : Fin 1))))
      (fun k => Cert.Spec.quant (Cert.Spec.pre1 (fun k => v0 (ix2 r k)) w1 b1 k)) (fun j => w2 n j))
  refine congrArg₂ (· * ·) ?_ ((congrFun (shapeCast_self v28 _) (ix2 c n)).trans (h28 c n))
  refine (maskq_apply _ _ _ (ix2 r c)).trans ?_
  refine if_congr ?_ (congrArg Cert.Spec.quant ?_) rfl
  · refine (rangeTest_apply (k0_pay2 (F := Ideal) v2) 16#32 _ _ r c).trans ?_
    rw [pay2_apply]
    exact Cert.Spec.mask16_iff _ hr c.val c.isLt
  · refine (layer_apply _ rfl _ _ v7 _ _ r c).trans ?_
    unfold Cert.Spec.pre1
    refine congrArg₂ (· + ·) (Finset.sum_congr rfl fun k _ => ?_) (h7 c)
    exact congrArg₂ (· * ·) rfl ((congrFun (shapeCast_self v4 _) (ix2 k c)).trans (h4 k c))

/-- The stored row at column r, from the three values it is given, each known along row r: the selected stack's
    entry of the third layer over the quantised selected columns of the second pre-mask sum. -/
theorem pay1_apply (v3 : IVec S2048x1 32) (v34 : FVec Ideal S2048x256 .f32) (v39 : IVec S2048x256 32)
    (v52 : FVec Ideal S256x8 .bf16) (v55 : FVec Ideal S8 .f32) (wo : Fin 8 → Fin 32 → EReal) (bo : Fin 8 → EReal)
    (h52 : ∀ (k : Fin 256) (n : Fin 8), v52 (ix2 k n) = wo n ⟨k.val % 32, Nat.mod_lt _ (by decide)⟩)
    (h55 : ∀ n : Fin 8, v55 (ix1 n) = bo n)
    (r : Fin 2048) (i : BitVec 32) (hi : i.toNat < 8) (P : Fin 256 → EReal)
    (h3 : v3 (ix2 r (0 : Fin 1)) = i) (h34 : ∀ n : Fin 256, v34 (ix2 r n) = P n)
    (h39 : ∀ n : Fin 256, v39 (ix2 r n) = BitVec.ofNat 32 n.val - i * 32#32) :
    k0_pay1 (F := Ideal) v3 v34 v39 v52 v55 (ix2 (0 : Fin 1) r)
      = (∑ j : Fin 32, Cert.Spec.quant (P (Cert.Spec.col2 (Cert.Spec.stack i) j)) * wo (Cert.Spec.stack i) j)
          + bo (Cert.Spec.stack i) := by
  unfold k0_pay1
  refine (transpose_ix2_apply _ _ (0 : Fin 1) r).trans ?_
  refine (shapeCast_a_a1_apply _ _ r (0 : Fin 1)).trans ?_
  refine (laneSum_apply _ _ _ _ r).trans ?_
  refine (Finset.sum_congr rfl fun n _ => ?_).trans
    (Cert.Spec.onehot_sum (Cert.Spec.stack i)
      (fun n => (∑ j : Fin 32, Cert.Spec.quant (P (Cert.Spec.col2 (Cert.Spec.stack i) j)) * wo n j) + bo n))
  refine (onehot_apply v3 _ _ _ r n).trans ?_
  rw [h3]
  refine (onehot_entry i hi n _).trans ?_
  refine if_congr Iff.rfl ?_ rfl
  refine (layer_apply _ rfl _ _ v55 _ _ r n).trans ?_
  refine congrArg₂ (· + ·) ?_ (h55 n)
  refine (Finset.sum_congr rfl fun c _ => ?_).trans
    (Cert.Spec.masked_sum32 (Cert.Spec.stack i) (fun k => Cert.Spec.quant (P k)) (fun j => wo n j))
  refine congrArg₂ (· * ·) ?_ ((congrFun (shapeCast_self v52 _) (ix2 c n)).trans (h52 c n))
  refine (maskq_apply _ _ _ (ix2 r c)).trans ?_
  refine if_congr ?_ (congrArg Cert.Spec.quant (h34 c)) rfl
  refine (IntOp.cmpi_ult (x := v39 (ix2 r c)) (y := 32#32)).trans ?_
  rw [h39 c]
  exact Cert.Spec.mask32_iff i hi c.val c.isLt

/-- The stored value at column `r`, from the loaded blocks. -/
theorem payload_apply
    (v0 : Vec Ideal S2048x1024 .f32) (v2 : Vec Ideal S2048x1 .i32) (v4 : Vec Ideal S1024x128 .bf16) (v7 : Vec Ideal S128 .f32)
    (v28 : Vec Ideal S128x256 .bf16) (v31 : Vec Ideal S256 .f32) (v52 : Vec Ideal S256x8 .bf16) (v55 : Vec Ideal S8 .f32)
    (w1 : Fin 128 → Fin 1024 → EReal) (b1 : Fin 128 → EReal) (w2 : Fin 256 → Fin 16 → EReal) (b2 : Fin 256 → EReal)
    (wo : Fin 8 → Fin 32 → EReal) (bo : Fin 8 → EReal)
    (h4 : ∀ (k : Fin 1024) (n : Fin 128), v4 (ix2 k n) = w1 n k)
    (h7 : ∀ n : Fin 128, v7 (ix1 n) = b1 n)
    (h28 : ∀ (k : Fin 128) (n : Fin 256), v28 (ix2 k n) = w2 n ⟨k.val % 16, Nat.mod_lt _ (by decide)⟩)
    (h31 : ∀ n : Fin 256, v31 (ix1 n) = b2 n)
    (h52 : ∀ (k : Fin 256) (n : Fin 8), v52 (ix2 k n) = wo n ⟨k.val % 32, Nat.mod_lt _ (by decide)⟩)
    (h55 : ∀ n : Fin 8, v55 (ix1 n) = bo n)
    (r : Fin 2048) (hr : (v2 (ix2 r (0 : Fin 1)) : BitVec 32).toNat < 8) :
    k0_pay1 (F := Ideal) (k0_pay2 (F := Ideal) v2) (k0_pay3 v0 v2 v4 v7 v28 v31) (k0_pay4 (F := Ideal) v2) v52 v55 (ix2 (0 : Fin 1) r)
      = Cert.Spec.rowOut (fun k => v0 (ix2 r k)) (Cert.Spec.stack (v2 (ix2 r (0 : Fin 1)))) w1 b1 w2 b2 wo bo :=
  pay1_apply (k0_pay2 (F := Ideal) v2) (k0_pay3 v0 v2 v4 v7 v28 v31) (k0_pay4 (F := Ideal) v2) v52 v55 wo bo h52 h55 r
    (v2 (ix2 r (0 : Fin 1))) hr (Cert.Spec.pre2 (fun k => v0 (ix2 r k)) (Cert.Spec.stack (v2 (ix2 r (0 : Fin 1)))) w1 b1 w2 b2)
    (pay2_apply v2 r) (fun n => pay3_apply v0 v2 v4 v7 v28 v31 w1 b1 w2 b2 h4 h7 h28 h31 r hr n) (fun n => pay4_apply v2 r n)

end Cert.KerSide

end
-- ==== Proof.KerGlue.lean ====
/-
  The arrays the host prepares before the kernel's region, read at an index, in terms of the argument arrays:
  the first layer's weights transposed; the second and third layers' weights transposed and repeated eight times along their
  first axis (row k of the repeated matrix is row k mod 16, respectively k mod 32, of the transpose); and the stack indices
  clamped to [0, 7] and viewed as a column, which on a word below 8 is the word itself. (A change of float format is the
  identity on the extended reals.)
-/
import proofs.«426485_j6262062317933_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KerSide

open Idealize.ShloMosaic Idealize.ShloMosaic.TcCoe Idealize.ShloMosaic.ValueIdx Idealize.SL.Sem Cert.KernelIdeal Cert.KernelIdeal.Gen

/-! ## The shape operations read at an index, over any array

  Each lemma is about one array of a literal shape and says which entry of it a chain of shape operations reads. -/

section Shapes
variable {α : Type}

/-- A matrix [16, 256] viewed as [1, 16, 1, 256], repeated eight times along the new leading axis, and flattened to
    [128, 256]: row k of the result is row k mod 16 of the matrix. The flattening sends row k to the pair
    (k / 16, k mod 16), since k = 16 (k / 16) + k mod 16; the repetition forgets the first of the two; the first view puts
    row j at (0, j, 0, ·). -/
theorem tile16_apply (x : (⟨2, ![16, 256]⟩ : Shape).Idx → α)
    (h1 : (⟨2, ![16, 256]⟩ : Shape).ShapeCasts ⟨4, ![1, 16, 1, 256]⟩)
    (hb : (⟨4, ![1, 16, 1, 256]⟩ : Shape).BroadcastsInDim ⟨4, ![8, 16, 1, 256]⟩ ![0, 1, 2, 3])
    (h2 : (⟨4, ![8, 16, 1, 256]⟩ : Shape).ShapeCasts ⟨2, ![128, 256]⟩) (k : Fin 128) (n : Fin 256) :
    shapeCast ⟨2, ![128, 256]⟩
        (broadcastInDim ⟨4, ![8, 16, 1, 256]⟩ ![0, 1, 2, 3] hb (shapeCast ⟨4, ![1, 16, 1, 256]⟩ x h1)) h2 (ix2 k n)
      = x (ix2 (⟨k.val % 16, Nat.mod_lt _ (by decide)⟩ : Fin 16) n) := by
  have hk := k.isLt
  have e2 := shapeCast_apply
    (broadcastInDim ⟨4, ![8, 16, 1, 256]⟩ ![0, 1, 2, 3] hb (shapeCast ⟨4, ![1, 16, 1, 256]⟩ x h1)) h2 (ix2 k n)
    (ix4 (⟨k.val / 16, by omega⟩ : Fin 8) (⟨k.val % 16, Nat.mod_lt _ (by decide)⟩ : Fin 16) (0 : Fin 1) n) (by
      rw [Shape.rowMajor_val_four, Shape.rowMajor_val_two]
      show ((k.val / 16 * 16 + k.val % 16) * 1 + 0) * 256 + n.val = k.val * 256 + n.val
      omega)
  have eb := broadcastInDim_apply ![0, 1, 2, 3] hb (shapeCast ⟨4, ![1, 16, 1, 256]⟩ x h1)
    (ix4 (⟨k.val / 16, by omega⟩ : Fin 8) (⟨k.val % 16, Nat.mod_lt _ (by decide)⟩ : Fin 16) (0 : Fin 1) n)
    (ix4 (0 : Fin 1) (⟨k.val % 16, Nat.mod_lt _ (by decide)⟩ : Fin 16) (0 : Fin 1) n)
    (fun a => match a with | ⟨0, _⟩ => rfl | ⟨1, _⟩ => rfl | ⟨2, _⟩ => rfl | ⟨3, _⟩ => rfl)
  have e1 := shapeCast_apply x h1
    (ix4 (0 : Fin 1) (⟨k.val % 16, Nat.mod_lt _ (by decide)⟩ : Fin 16) (0 : Fin 1) n)
    (ix2 (⟨k.val % 16, Nat.mod_lt _ (by decide)⟩ : Fin 16) n) (by
      rw [Shape.rowMajor_val_four, Shape.rowMajor_val_two]
      show k.val % 16 * 256 + n.val = ((0 * 16 + k.val % 16) * 1 + 0) * 256 + n.val
      omega)
  exact e2.trans (eb.trans e1)

/-- The same for a matrix [32, 8] repeated eight times to [256, 8]: row k of the result is row k mod 32 of the matrix. -/
theorem tile32_apply (x : (⟨2, ![32, 8]⟩ : Shape).Idx → α)
    (h1 : (⟨2, ![32, 8]⟩ : Shape).ShapeCasts ⟨4, ![1, 32, 1, 8]⟩)
    (hb : (⟨4, ![1, 32, 1, 8]⟩ : Shape).BroadcastsInDim ⟨4, ![8, 32, 1, 8]⟩ ![0, 1, 2, 3])
    (h2 : (⟨4, ![8, 32, 1, 8]⟩ : Shape).ShapeCasts ⟨2, ![256, 8]⟩) (k : Fin 256) (n : Fin 8) :
    shapeCast ⟨2, ![256, 8]⟩
        (broadcastInDim ⟨4, ![8, 32, 1, 8]⟩ ![0, 1, 2, 3] hb (shapeCast ⟨4, ![1, 32, 1, 8]⟩ x h1)) h2 (ix2 k n)
      = x (ix2 (⟨k.val % 32, Nat.mod_lt _ (by decide)⟩ : Fin 32) n) := by
  have hk := k.isLt
  have e2 := shapeCast_apply
    (broadcastInDim ⟨4, ![8, 32, 1, 8]⟩ ![0, 1, 2, 3] hb (shapeCast ⟨4, ![1, 32, 1, 8]⟩ x h1)) h2 (ix2 k n)
    (ix4 (⟨k.val / 32, by omega⟩ : Fin 8) (⟨k.val % 32, Nat.mod_lt _ (by decide)⟩ : Fin 32) (0 : Fin 1) n) (by
      rw [Shape.rowMajor_val_four, Shape.rowMajor_val_two]
      show ((k.val / 32 * 32 + k.val % 32) * 1 + 0) * 8 + n.val = k.val * 8 + n.val
      omega)
  have eb := broadcastInDim_apply ![0, 1, 2, 3] hb (shapeCast ⟨4, ![1, 32, 1, 8]⟩ x h1)
    (ix4 (⟨k.val / 32, by omega⟩ : Fin 8) (⟨k.val % 32, Nat.mod_lt _ (by decide)⟩ : Fin 32) (0 : Fin 1) n)
    (ix4 (0 : Fin 1) (⟨k.val % 32, Nat.mod_lt _ (by decide)⟩ : Fin 32) (0 : Fin 1) n)
    (fun a => match a with | ⟨0, _⟩ => rfl | ⟨1, _⟩ => rfl | ⟨2, _⟩ => rfl | ⟨3, _⟩ => rfl)
  have e1 := shapeCast_apply x h1
    (ix4 (0 : Fin 1) (⟨k.val % 32, Nat.mod_lt _ (by decide)⟩ : Fin 32) (0 : Fin 1) n)
    (ix2 (⟨k.val % 32, Nat.mod_lt _ (by decide)⟩ : Fin 32) n) (by
      rw [Shape.rowMajor_val_four, Shape.rowMajor_val_two]
      show k.val % 32 * 8 + n.val = ((0 * 32 + k.val % 32) * 1 + 0) * 8 + n.val
      omega)
  exact e2.trans (eb.trans e1)

/-- A vector [N] viewed as a column [N, 1] reads, at (b, 0), the vector at b. -/
theorem column_apply {N : ℕ} (x : (⟨1, ![N]⟩ : Shape).Idx → α) (h : (⟨1, ![N]⟩ : Shape).ShapeCasts ⟨2, ![N, 1]⟩)
    (b : Fin N) (u : Fin 1) : shapeCast ⟨2, ![N, 1]⟩ x h (ix2 b u) = x (ix1 b) :=
  shapeCast_apply x h _ _ (by
    have hu : u.val = 0 := by omega
    rw [Shape.rowMajor_val_two, Shape.rowMajor_val_one]
    show b.val = b.val * 1 + u.val
    omega)

end Shapes

/-! ## The clamp on words -/

/-- A word below 8 read as a signed number is its value, so the signed clamp to [0, 7] keeps it: it is not below 0, and 7
    is not below it. -/
theorem clamp_of_lt (v : BitVec 32) (h : v.toNat < 8) : IntOp.minsi 7#32 (IntOp.maxsi 0#32 v) = v := by
  have hv : v.toInt = (v.toNat : ℤ) := by
    rw [BitVec.toInt_eq_toNat_cond]
    split <;> omega
  have h0 : (0#32 : BitVec 32).toInt = 0 := by decide
  have h7 : (7#32 : BitVec 32).toInt = 7 := by decide
  have e1 : IntOp.maxsi 0#32 v = v := by
    unfold IntOp.maxsi
    rw [if_neg]
    rw [BitVec.slt_iff_toInt_lt, h0, hv]
    omega
  rw [e1]
  unfold IntOp.minsi
  rw [if_neg]
  rw [BitVec.slt_iff_toInt_lt, h7, hv]
  omega

variable (m : (ℓ : Loc nD τ sig) → Buf (Elt Ideal) ℓ)

/-! ## The host's operations, as terms of the argument arrays -/

/-- The first layer's weights: the argument transposed, then its float format changed. -/
theorem V_v1_term (c : Dev nD) :
    (V m c main_v1 : FVec Ideal S1024x128 .bf16)
      = (truncf .bf16 (transpose S1024x128 [1, 0] (m ((c.tc : Thread nD τ).loc main_arg2) : FVec Ideal S128x1024 .f32) transposes_S128x1024_S1024x128_1_0 : FVec Ideal S1024x128 .f32) bitsLt_bf16_f32 : FVec Ideal S1024x128 .bf16) := by
  dsimp only [Gen.V, Gen.V0]
  simp only [Gen.hostOps0, Gen.hostOps0_1, Gen.hostOps0_2, List.flatten_cons, List.flatten_nil, List.append_nil, List.cons_append, List.nil_append]
  after_results

/-- The second layer's weights: transposed, format changed, viewed as [1, 16, 1, 256], repeated to [8, 16, 1, 256], flattened. -/
theorem V_v6_term (c : Dev nD) :
    (V m c main_v6 : FVec Ideal S128x256 .bf16)
      = (shapeCast S128x256
          (broadcastInDim S8x16x1x256 ![0, 1, 2, 3] bcast_S1x16x1x256_S8x16x1x256_0_1_2_3
            (shapeCast S1x16x1x256
              (truncf .bf16 (transpose S16x256 [1, 0] (m ((c.tc : Thread nD τ).loc main_arg4) : FVec Ideal S256x16 .f32) transposes_S256x16_S16x256_1_0 : FVec Ideal S16x256 .f32) bitsLt_bf16_f32 : FVec Ideal S16x256 .bf16)
              shapeCasts_S16x256_S1x16x1x256 : FVec Ideal S1x16x1x256 .bf16) : FVec Ideal S8x16x1x256 .bf16)
          shapeCasts_S8x16x1x256_S128x256 : FVec Ideal S128x256 .bf16) := by
  dsimp only [Gen.V, Gen.V0]
  simp only [Gen.hostOps0, Gen.hostOps0_1, Gen.hostOps0_2, List.flatten_cons, List.flatten_nil, List.append_nil, List.cons_append, List.nil_append]
  after_results
  rfl

/-- The last layer's weights: transposed, format changed, viewed as [1, 32, 1, 8], repeated to [8, 32, 1, 8], flattened. -/
theorem V_v11_term (c : Dev nD) :
    (V m c main_v11 : FVec Ideal S256x8 .bf16)
      = (shapeCast S256x8
          (broadcastInDim S8x32x1x8 ![0, 1, 2, 3] bcast_S1x32x1x8_S8x32x1x8_0_1_2_3
            (shapeCast S1x32x1x8
              (truncf .bf16 (transpose S32x8 [1, 0] (m ((c.tc : Thread nD τ).loc main_arg6) : FVec Ideal S8x32 .f32) transposes_S8x32_S32x8_1_0 : FVec Ideal S32x8 .f32) bitsLt_bf16_f32 : FVec Ideal S32x8 .bf16)
              shapeCasts_S32x8_S1x32x1x8 : FVec Ideal S1x32x1x8 .bf16) : FVec Ideal S8x32x1x8 .bf16)
          shapeCasts_S8x32x1x8_S256x8 : FVec Ideal S256x8 .bf16) := by
  dsimp only [Gen.V, Gen.V0]
  simp only [Gen.hostOps0, Gen.hostOps0_1, Gen.hostOps0_2, List.flatten_cons, List.flatten_nil, List.append_nil, List.cons_append, List.nil_append]
  after_results
  rfl

/-- The stack indices: the signed maximum with a broadcast 0, the signed minimum of a broadcast 7 with that, viewed as a column. -/
theorem V_v13_term (c : Dev nD) :
    (V m c main_v13 : IVec S131072x1 32)
      = (shapeCast S131072x1
          (minsi (broadcastInDim S131072 ![] bcast_S_S131072 (constantI S_ 32 7#32) : IVec S131072 32)
            (maxsi (broadcastInDim S131072 ![] bcast_S_S131072 (constantI S_ 32 0#32) : IVec S131072 32)
              (m ((c.tc : Thread nD τ).loc main_arg1) : IVec S131072 32)) : IVec S131072 32)
          shapeCasts_S131072_S131072x1 : IVec S131072x1 32) := by
  dsimp only [Gen.V, Gen.V0]
  simp only [Gen.hostOps0, Gen.hostOps0_1, Gen.hostOps0_2, List.flatten_cons, List.flatten_nil, List.append_nil, List.cons_append, List.nil_append]
  after_results
  rfl

/-! ## The arrays read at an index -/

/-- The first layer's weights as the region finds them: transposed. -/
theorem V_v1_apply (c : Dev nD) (k : Fin 1024) (n : Fin 128) :
    (V m c main_v1 : FVec Ideal S1024x128 .bf16) (ix2 k n)
      = (m ((c.tc : Thread nD τ).loc main_arg2) : FVec Ideal S128x1024 .f32) (ix2 n k) := by
  refine (congrFun (V_v1_term m c) (ix2 k n)).trans ?_
  exact transpose_ix2_apply (m ((c.tc : Thread nD τ).loc main_arg2) : FVec Ideal S128x1024 .f32) transposes_S128x1024_S1024x128_1_0 k n

/-- The second layer's weights as the region finds them: transposed, then repeated eight times along the first axis. -/
theorem V_v6_apply (c : Dev nD) (k : Fin 128) (n : Fin 256) :
    (V m c main_v6 : FVec Ideal S128x256 .bf16) (ix2 k n)
      = (m ((c.tc : Thread nD τ).loc main_arg4) : FVec Ideal S256x16 .f32) (ix2 n (⟨k.val % 16, Nat.mod_lt _ (by decide)⟩ : Fin 16)) := by
  refine (congrFun (V_v6_term m c) (ix2 k n)).trans ?_
  refine (tile16_apply _ shapeCasts_S16x256_S1x16x1x256 bcast_S1x16x1x256_S8x16x1x256_0_1_2_3 shapeCasts_S8x16x1x256_S128x256 k n).trans ?_
  exact transpose_ix2_apply (m ((c.tc : Thread nD τ).loc main_arg4) : FVec Ideal S256x16 .f32) transposes_S256x16_S16x256_1_0 _ n

/-- The last layer's weights as the region finds them: transposed, then repeated eight times along the first axis. -/
theorem V_v11_apply (c : Dev nD) (k : Fin 256) (n : Fin 8) :
    (V m c main_v11 : FVec Ideal S256x8 .bf16) (ix2 k n)
      = (m ((c.tc : Thread nD τ).loc main_arg6) : FVec Ideal S8x32 .f32) (ix2 n (⟨k.val % 32, Nat.mod_lt _ (by decide)⟩ : Fin 32)) := by
  refine (congrFun (V_v11_term m c) (ix2 k n)).trans ?_
  refine (tile32_apply _ shapeCasts_S32x8_S1x32x1x8 bcast_S1x32x1x8_S8x32x1x8_0_1_2_3 shapeCasts_S8x32x1x8_S256x8 k n).trans ?_
  exact transpose_ix2_apply (m ((c.tc : Thread nD τ).loc main_arg6) : FVec Ideal S8x32 .f32) transposes_S8x32_S32x8_1_0 _ n

/-- The stack indices as the region finds them: clamped to [0, 7] and viewed as a column; a word below 8 is kept. -/
theorem V_v13_apply (c : Dev nD) (b : Fin 131072)
    (h : ((m ((c.tc : Thread nD τ).loc main_arg1) : IVec S131072 32) (ix1 b)).toNat < 8) :
    (V m c main_v13 : IVec S131072x1 32) (ix2 b (0 : Fin 1))
      = (m ((c.tc : Thread nD τ).loc main_arg1) : IVec S131072 32) (ix1 b) := by
  refine (congrFun (V_v13_term m c) (ix2 b (0 : Fin 1))).trans ?_
  refine (column_apply _ shapeCasts_S131072_S131072x1 b (0 : Fin 1)).trans ?_
  exact clamp_of_lt _ h

end Cert.KerSide

end
-- ==== Proof.KerRun.lean ====
/-
  The idealized kernel's program ends with its result array at the specification of its argument arrays.

  The region visits 64 points. At point t it reads rows 2048 t … 2048 t + 2047 of x and of the index column, and the whole
  of every weight and bias array, and writes columns 2048 t … 2048 t + 2047 of a [1, 131072] row. Column r of what it writes
  is the specification's row function of row 2048 t + r of x at the stack that row's index selects: the weights the region
  finds are the arguments transposed (and, for the second and third layers, repeated eight times along the contracted axis), and
  an index word below 8 survives the clamp. The 64 blocks tile the row, so after the region the row holds, at column b, the
  specification's row b; the one operation after the region views the row as a column, entry for entry. The argument arrays
  are read and never written.
-/
import proofs.«426485_j6262062317933_3_alg».proof.Defs
import proofs.«426485_j6262062317933_3_alg».proof.Proof.Gen.KernelIdeal.Frame
import proofs.«426485_j6262062317933_3_alg».proof.Proof.KerPayload
import proofs.«426485_j6262062317933_3_alg».proof.Proof.KerGlue
import Idealize.ShloMosaic.Lib.Pipeline.Value
import Idealize.ShloMosaic.Lib.StableHlo.Run

noncomputable section

namespace Cert.KerSide

open Idealize.ShloMosaic Idealize.ShloMosaic.TcCoe Idealize.SL.Sem

section Blocks

open Idealize.ShloMosaic.ValueIdx Cert.KernelIdeal Cert.KernelIdeal.Gen
open Idealize.ShloMosaic.Pipeline (Dat)

variable (m : (ℓ : Loc nD τ sig) → Buf (Elt Ideal) ℓ)

/-- Zero offsets, however the zeros are spelt. -/
theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the rows of x, the index column and the result row move with the point; every other
    window stays at block 0. -/
theorem index_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 1) = 0
  ∧ win0_4.index t (0 : Fin 2) = 0 ∧ win0_4.index t (1 : Fin 2) = 0
  ∧ win0_5.index t (0 : Fin 1) = 0
  ∧ win0_6.index t (0 : Fin 2) = 0 ∧ win0_6.index t (1 : Fin 2) = 0
  ∧ win0_7.index t (0 : Fin 1) = 0
  ∧ win0_8.index t (0 : Fin 2) = 0 ∧ win0_8.index t (1 : Fin 2) = t.val :=
  (by decide +kernel : ∀ t : Fin grid0.N, _)

/-! ## Each window's block at a point, read at an index -/

/-- Row r of point t's block of x is row 2048 t + r of the argument. -/
theorem xblk_apply (c : Dev nD) (t : Fin cfg0.N) (r : Fin 2048) (k : Fin 1024) (b : Fin 131072)
    (hb : b.val = 2048 * t.val + r.val) :
    (iblk m c 0 t : Vec Ideal S2048x1024 .f32) (ix2 r k)
      = (m ((c.tc : Thread nD τ).loc main_arg0) : FVec Ideal S131072x1024 .f32) (ix2 b k) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * r.val = b.val; omega
  | ⟨1, _⟩ => show win0_0.index t (1 : Fin 2) * 1024 + 1 * k.val = k.val; omega

/-- Entry r of point t's block of the index column is entry 2048 t + r of the column. -/
theorem iblk_apply (c : Dev nD) (t : Fin cfg0.N) (r : Fin 2048) (b : Fin 131072)
    (hb : b.val = 2048 * t.val + r.val) :
    (iblk m c 1 t : Vec Ideal S2048x1 .i32) (ix2 r (0 : Fin 1))
      = (V m c main_v13 : IVec S131072x1 32) (ix2 b (0 : Fin 1)) := by
  obtain ⟨-, -, e0, e1, -⟩ := index_facts t
  unfold iblk
  rw [View.read_apply]
  show V m c main_v13 _ = _
  refine congrArg _ (funext fun a => Fin.ext ?_)
  match a with
  | ⟨0, _⟩ => show win0_1.index t (0 : Fin 2) * 2048 + 1 * r.val = b.val; omega
  | ⟨1, _⟩ => show win0_1.index t (1 : Fin 2) * 1 + 1 * (0 : Fin 1).val = (0 : Fin 1).val; omega

/-- The first layer's weights window is the whole transposed array at every point. -/
theorem w1blk_apply (c : Dev nD) (t : Fin cfg0.N) (k : Fin 1024) (n : Fin 128) :
    (iblk m c 2 t : Vec Ideal S1024x128 .bf16) (ix2 k n)
      = (V m c main_v1 : FVec Ideal S1024x128 .bf16) (ix2 k n) := by
  obtain ⟨-, -, -, -, e0, e1, -⟩ := index_facts t
  unfold iblk
  rw [View.read_apply]
  show V m c main_v1 _ = _
  refine congrArg _ (funext fun a => Fin.ext ?_)
  match a with
  | ⟨0, _⟩ => show win0_2.index t (0 : Fin 2) * 1024 + 1 * k.val = k.val; omega
  | ⟨1, _⟩ => show win0_2.index t (1 : Fin 2) * 128 + 1 * n.val = n.val; omega

/-- The first layer's bias window is the whole argument at every point. -/
theorem b1blk_apply (c : Dev nD) (t : Fin cfg0.N) (n : Fin 128) :
    (iblk m c 3 t : Vec Ideal S128 .f32) (ix1 n)
      = (m ((c.tc : Thread nD τ).loc main_arg3) : FVec Ideal S128 .f32) (ix1 n) := by
  obtain ⟨-, -, -, -, -, -, e0, -⟩ := index_facts t
  unfold iblk
  rw [View.read_apply]
  show V m c main_arg3 _ = _
  rw [V_main_arg3]
  refine congrArg _ (funext fun a => Fin.ext ?_)
  match a with
  | ⟨0, _⟩ => show win0_3.index t (0 : Fin 1) * 128 + 1 * n.val = n.val; omega

/-- The second layer's weights window is the whole tiled array at every point. -/
theorem w2blk_apply (c : Dev nD) (t : Fin cfg0.N) (k : Fin 128) (n : Fin 256) :
    (iblk m c 4 t : Vec Ideal S128x256 .bf16) (ix2 k n)
      = (V m c main_v6 : FVec Ideal S128x256 .bf16) (ix2 k n) := by
  obtain ⟨-, -, -, -, -, -, -, e0, e1, -⟩ := index_facts t
  unfold iblk
  rw [View.read_apply]
  show V m c main_v6 _ = _
  refine congrArg _ (funext fun a => Fin.ext ?_)
  match a with
  | ⟨0, _⟩ => show win0_4.index t (0 : Fin 2) * 128 + 1 * k.val = k.val; omega
  | ⟨1, _⟩ => show win0_4.index t (1 : Fin 2) * 256 + 1 * n.val = n.val; omega

/-- The second layer's bias window is the whole argument at every point. -/
theorem b2blk_apply (c : Dev nD) (t : Fin cfg0.N) (n : Fin 256) :
    (iblk m c 5 t : Vec Ideal S256 .f32) (ix1 n)
      = (m ((c.tc : Thread nD τ).loc main_arg5) : FVec Ideal S256 .f32) (ix1 n) := by
  obtain ⟨-, -, -, -, -, -, -, -, -, e0, -⟩ := index_facts t
  unfold iblk
  rw [View.read_apply]
  show V m c main_arg5 _ = _
  rw [V_main_arg5]
  refine congrArg _ (funext fun a => Fin.ext ?_)
  match a with
  | ⟨0, _⟩ => show win0_5.index t (0 : Fin 1) * 256 + 1 * n.val = n.val; omega

/-- The last layer's weights window is the whole tiled array at every point. -/
theorem woblk_apply (c : Dev nD) (t : Fin cfg0.N) (k : Fin 256) (n : Fin 8) :
    (iblk m c 6 t : Vec Ideal S256x8 .bf16) (ix2 k n)
      = (V m c main_v11 : FVec Ideal S256x8 .bf16) (ix2 k n) := by
  obtain ⟨-, -, -, -, -, -, -, -, -, -, e0, e1, -⟩ := index_facts t
  unfold iblk
  rw [View.read_apply]
  show V m c main_v11 _ = _
  refine congrArg _ (funext fun a => Fin.ext ?_)
  match a with
  | ⟨0, _⟩ => show win0_6.index t (0 : Fin 2) * 256 + 1 * k.val = k.val; omega
  | ⟨1, _⟩ => show win0_6.index t (1 : Fin 2) * 8 + 1 * n.val = n.val; omega

/-- The last layer's bias window is the whole argument at every point. -/
theorem boblk_apply (c : Dev nD) (t : Fin cfg0.N) (n : Fin 8) :
    (iblk m c 7 t : Vec Ideal S8 .f32) (ix1 n)
      = (m ((c.tc : Thread nD τ).loc main_arg7) : FVec Ideal S8 .f32) (ix1 n) := by
  obtain ⟨-, -, -, -, -, -, -, -, -, -, -, -, e0, -⟩ := index_facts t
  unfold iblk
  rw [View.read_apply]
  show V m c main_arg7 _ = _
  rw [V_main_arg7]
  refine congrArg _ (funext fun a => Fin.ext ?_)
  match a with
  | ⟨0, _⟩ => show win0_7.index t (0 : Fin 1) * 8 + 1 * n.val = n.val; omega

/-! ## What a point stores, and the result row as one function of the arguments -/

/-- The region's result array: entry (0, b) is the specification's row b. -/
def resultRow (c : Dev nD) : FVec Ideal S1x131072 .f32 := fun y =>
  Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (ix2 (⟨(y 1).val, idx2_lt1 y⟩ : Fin 131072) (0 : Fin 1))

theorem resultRow_apply (c : Dev nD) (y : S1x131072.Idx) (b : Fin 131072) (hb : (y 1).val = b.val) :
    resultRow m c y = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 b (0 : Fin 1)) := by
  unfold resultRow
  exact congrArg (fun b' : Fin 131072 => Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 b' (0 : Fin 1))) (Fin.ext hb)

variable (hidx : ∀ (c : Dev nD) (b : Fin 131072), ((m ((c.tc : Thread nD τ).loc main_arg1) : IVec S131072 32) (ix1 b)).toNat < 8)
include hidx

/-- Column r of what point t stores is the specification's row 2048 t + r: the body's payload read at that column, over the
    windows' blocks read at their indices. -/
theorem stored_apply (c : Dev nD) (t : Fin cfg0.N) (r : Fin 2048) (b : Fin 131072) (hb : b.val = 2048 * t.val + r.val) :
    k0_pay1 (F := Ideal) (k0_pay2 (F := Ideal) (iblk m c 1 t)) (k0_pay3 (iblk m c 0 t) (iblk m c 1 t) (iblk m c 2 t) (iblk m c 3 t) (iblk m c 4 t) (iblk m c 5 t)) (k0_pay4 (F := Ideal) (iblk m c 1 t)) (iblk m c 6 t) (iblk m c 7 t) (ix2 (0 : Fin 1) r)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 b (0 : Fin 1)) := by
  have hi : (iblk m c 1 t : Vec Ideal S2048x1 .i32) (ix2 r (0 : Fin 1)) = (m ((c.tc : Thread nD τ).loc main_arg1) : IVec S131072 32) (ix1 b) :=
    (iblk_apply m c t r b hb).trans (V_v13_apply m c b (hidx c b))
  have hx : (fun k : Fin 1024 => (iblk m c 0 t : Vec Ideal S2048x1024 .f32) (ix2 r k))
      = fun k : Fin 1024 => (m ((c.tc : Thread nD τ).loc main_arg0) : FVec Ideal S131072x1024 .f32) (ix2 b k) :=
    funext fun k => xblk_apply m c t r k b hb
  refine (payload_apply (iblk m c 0 t) (iblk m c 1 t) (iblk m c 2 t) (iblk m c 3 t) (iblk m c 4 t) (iblk m c 5 t) (iblk m c 6 t) (iblk m c 7 t)
    (fun n k => (m ((c.tc : Thread nD τ).loc main_arg2) : FVec Ideal S128x1024 .f32) (ix2 n k))
    (fun n => (m ((c.tc : Thread nD τ).loc main_arg3) : FVec Ideal S128 .f32) (ix1 n))
    (fun n j => (m ((c.tc : Thread nD τ).loc main_arg4) : FVec Ideal S256x16 .f32) (ix2 n j))
    (fun n => (m ((c.tc : Thread nD τ).loc main_arg5) : FVec Ideal S256 .f32) (ix1 n))
    (fun n j => (m ((c.tc : Thread nD τ).loc main_arg6) : FVec Ideal S8x32 .f32) (ix2 n j))
    (fun n => (m ((c.tc : Thread nD τ).loc main_arg7) : FVec Ideal S8 .f32) (ix1 n))
    (fun k n => (w1blk_apply m c t k n).trans (V_v1_apply m c k n))
    (fun n => b1blk_apply m c t n)
    (fun k n => (w2blk_apply m c t k n).trans (V_v6_apply m c k n))
    (fun n => b2blk_apply m c t n)
    (fun k n => (woblk_apply m c t k n).trans (V_v11_apply m c k n))
    (fun n => boblk_apply m c t n)
    r (by rw [hi]; exact hidx c b)).trans ?_
  rw [hi, hx]
  rfl

/-- What point t writes back is block t of the result row. -/
theorem flushed_eq (c : Dev nD) (t : Fin cfg0.N) :
    (dats m 0 c).flushed 8 t = ((cfg0.win 8).blk t).view.read (Elt Ideal) (resultRow m c) := by
  show (cfg0.win 8).cut (grid0.coords t) ((dats m 0 c).after 8 t) = _
  rw [after0_8]
  unfold out0_8
  rw [View.canon_unit_zero zeros2]
  simp only [View.ld_unit_zero (S := S2048x1024) zeros2, View.ld_unit_zero (S := S2048x1) zeros2,
    View.ld_unit_zero (S := S1024x128) zeros2, View.ld_unit_zero (S := S128) zeros1,
    View.ld_unit_zero (S := S128x256) zeros2, View.ld_unit_zero (S := S256) zeros1,
    View.ld_unit_zero (S := S256x8) zeros2, View.ld_unit_zero (S := S8) zeros1]
  obtain ⟨-, -, -, -, -, -, -, -, -, -, -, -, -, e0, e1⟩ := index_facts t
  funext j
  obtain ⟨u, r, rfl⟩ : ∃ (u : Fin 1) (r : Fin 2048), j = ix2 u r := ⟨j 0, j 1, eq_ix2 (n0 := 1) (n1 := 2048) j⟩
  obtain rfl : u = 0 := Subsingleton.elim _ _
  rw [View.read_apply]
  have ht : t.val < 64 := Nat.lt_of_lt_of_eq t.isLt N_0
  refine (stored_apply m hidx c t r ⟨2048 * t.val + r.val, by omega⟩ rfl).trans ?_
  refine (resultRow_apply m c _ ⟨2048 * t.val + r.val, by omega⟩ ?_).symm
  show win0_8.index t (1 : Fin 2) * 2048 + 1 * r.val = 2048 * t.val + r.val
  omega

omit hidx in
/-- An index of the result row is in point t's block iff each coordinate is in the block's range on its axis. -/
theorem mem_blk (t : Fin cfg0.N) (i : S1x131072.Idx) :
    i ∈ ((cfg0.win 8).blk t).view.set ↔ ∀ a : Fin 2, win0_8.index t a * S1x2048.size a ≤ (i a).val ∧ (i a).val < win0_8.index t a * S1x2048.size a + S1x2048.size a := by
  show i ∈ ((View.whole main_v14).slice (win0_8.rect t)).set ↔ _
  rw [View.set_slice_whole, Rect.mem_set_unit]
  exact Iff.rfl

omit hidx in
/-- Column j of the result row is in the block of point j / 2048, which writes back. -/
theorem covered (i : S1x131072.Idx) :
    ∃ t : Fin cfg0.N, (cfg0.win 8).flush t = true ∧ i ∈ ((cfg0.win 8).blk t).view.set := by
  have h0 : (i 0).val < 1 := (i 0).isLt
  have h1 : (i 1).val < 131072 := (i 1).isLt
  have hN : cfg0.N = 64 := N_0
  have hlt : (i 1).val / 2048 < cfg0.N := by rw [hN]; omega
  refine ⟨⟨(i 1).val / 2048, hlt⟩, flush0_8 _, ?_⟩
  rw [mem_blk]
  obtain ⟨-, -, -, -, -, -, -, -, -, -, -, -, -, e0, e1⟩ := index_facts ⟨(i 1).val / 2048, hlt⟩
  have ht : (⟨(i 1).val / 2048, hlt⟩ : Fin cfg0.N).val = (i 1).val / 2048 := rfl
  intro a
  match a with
  | ⟨0, _⟩ =>
    show win0_8.index ⟨(i 1).val / 2048, hlt⟩ (0 : Fin 2) * 1 ≤ (i 0).val ∧ (i 0).val < win0_8.index ⟨(i 1).val / 2048, hlt⟩ (0 : Fin 2) * 1 + 1
    omega
  | ⟨1, _⟩ =>
    show win0_8.index ⟨(i 1).val / 2048, hlt⟩ (1 : Fin 2) * 2048 ≤ (i 1).val ∧ (i 1).val < win0_8.index ⟨(i 1).val / 2048, hlt⟩ (1 : Fin 2) * 2048 + 2048
    omega

/-- The result row after the region is the specification's column laid along it. -/
theorem final (c : Dev nD) : (dats m 0 c).arrAt 8 cfg0.N = resultRow m c :=
  (dats m 0 c).arrAt_eq_of_cover 8 (resultRow m c) (fun t _ => flushed_eq m hidx c t) covered

/-- The host line after the region views the result row as a column: the program's result is the specification's. -/
theorem tail_eq (c : Dev nD) :
    Pipeline.afterTail₀ cfgs (dats m) 0 (V0 m) [hostOps1] c main_v15
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hA : Pipeline.withArrays (cfgs 0).spec c (V0 m c) (fun w => (dats m 0 c).arrAt w (cfgs 0).N) (Proc.devRef .tc main_v14)
      = resultRow m c :=
    (Pipeline.withArrays_arr spec0 launch0.win.arr_inj c _ _ 8).trans (final m hidx c)
  unfold Pipeline.afterTail₀
  show StableHlo.after hostOps1 _ (Proc.devRef .tc main_v15) = _
  after_results
  funext y
  obtain ⟨b, u, rfl⟩ : ∃ (b : Fin 131072) (u : Fin 1), y = ix2 b u := ⟨y 0, y 1, eq_ix2 (n0 := 131072) (n1 := 1) y⟩
  obtain rfl : u = 0 := Subsingleton.elim _ _
  refine Eq.trans (congrArg (fun X : FVec Ideal S1x131072 .f32 =>
    shapeCast S131072x1 X shapeCasts_S1x131072_S131072x1 (ix2 b (0 : Fin 1))) hA) ?_
  refine (shapeCast_apply (resultRow m c) shapeCasts_S1x131072_S131072x1 (ix2 b (0 : Fin 1)) (ix2 (0 : Fin 1) b) ?_).trans ?_
  · rw [Shape.rowMajor_val_two, Shape.rowMajor_val_two]
    show 0 * 131072 + b.val = b.val * 1 + 0
    omega
  · exact resultRow_apply m c _ b rfl

end Blocks

open Cert.KernelIdeal Cert.KernelIdeal.Gen in
theorem run (m : (ℓ : Loc Cert.KernelIdeal.nD Cert.KernelIdeal.τ Cert.KernelIdeal.sig) → Buf (Elt Ideal) ℓ) (ρ : Dev Cert.KernelIdeal.nD → PrngReg)
    (hidx : ∀ (c : Dev Cert.KernelIdeal.nD) (b : Fin 131072), ((m ((c.tc : Thread Cert.KernelIdeal.nD Cert.KernelIdeal.τ).loc Cert.KernelIdeal.main_arg1) : IVec Cert.KernelIdeal.S131072 32) (ValueIdx.ix1 b)).toNat < 8) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v15)
        = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7) :=
  (θ_run (Cert.KernelIdeal.defs (F := Ideal)) _ _).mono (fun r h c =>
      ⟨((h c).2 main_v15 (Pipeline.mem_restRefs_of main_v15 (by decide) (by decide))).trans (tail_eq m hidx c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).1 3).trans (((dats m 0 c).arrAt_in 3 rfl _).trans ((A_eq m c 3).trans (V_main_arg3 m c))),
       ((h c).2 main_arg4 (Pipeline.mem_restRefs_of main_arg4 (by decide) (by decide))).trans (W_main_arg4 m (dats m) c),
       ((h c).1 5).trans (((dats m 0 c).arrAt_in 5 rfl _).trans ((A_eq m c 5).trans (V_main_arg5 m c))),
       ((h c).2 main_arg6 (Pipeline.mem_restRefs_of main_arg6 (by decide) (by decide))).trans (W_main_arg6 m (dats m) c),
       ((h c).1 7).trans (((dats m 0 c).arrAt_in 7 rfl _).trans ((A_eq m c 7).trans (V_main_arg7 m c)))⟩)
    (run_main m ρ)

end Cert.KerSide

end
-- ==== Proof.RefTerm.lean ====
/-
  The reference's result as ONE pure term of its eight argument arrays, stage by stage, each stage spelled with the
  operations the reference's program applies, in their order: three affine layers, after each a gather of the selected stack
  along the middle axis of the [rows, 8, L] view, and after the first two the quantiser.
-/
import proofs.«426485_j6262062317933_3_alg».proof.ReferenceIdeal
import proofs.«426485_j6262062317933_3_alg».proof.Proof.Gen.ReferenceIdeal

noncomputable section

namespace Cert.RefSide

open Idealize.ShloMosaic Cert.ReferenceIdeal Cert.ReferenceIdeal.Facts₀ Cert.ReferenceIdeal.Facts

variable {F : FTy → Type} [FloatOps F]

/-- A negative stack index counts from the end: 8 is added to it. -/
def wrapIdx (i : IVec S131072x1x1 32) : IVec S131072x1x1 32 :=
  select (cmpi .slt i (broadcastInDim S131072x1x1 ![] bcast_S_S131072x1x1 (constantI S_ 32 0#32)))
    (addi i (broadcastInDim S131072x1x1 ![] bcast_S_S131072x1x1 (constantI S_ 32 8#32))) i

/-- The gather along the stack axis as printed: the index wrapped if negative, the range test, the gather, and the fill where
    the index is out of range. -/
def take16 (a : FVec F S131072x8x16 .f32) (i : IVec S131072x1x1 32) : FVec F S131072x1x16 .f32 :=
  select
    (broadcastInDim S131072x1x16 ![0, 1] bcast_S131072x1_S131072x1x16_0_1
      (Host.reduce IntOp.andi
        (andi (cmpi .sge (wrapIdx i) (broadcastInDim S131072x1x1 ![] bcast_S_S131072x1x1 (constantI S_ 32 0#32)))
          (cmpi .sle (wrapIdx i)
            (broadcastInDim S131072x1x1 ![0, 1, 2] bcast_S1x1x1_S131072x1x1_0_1_2
              (broadcastInDim S1x1x1 ![2] bcast_S1_S1x1x1_2 (constantI S1 32 7#32)))))
        (constantI S_ 1 1#1) reducesTo_S131072x1x1_S131072x1_d2 h_S_))
    (Host.gather gather_S131072x8x16_S131072x1x1_S131072x1x16_2_1_0_0_1_2_1116 a (wrapIdx i))
    (broadcastInDim S131072x1x16 ![] bcast_S_S131072x1x16 (constant S_ .f32 0x7FC00000#32))

/-- The gather along the stack axis as printed: the index wrapped if negative, the range test, the gather, and the fill where
    the index is out of range. -/
def take32 (a : FVec F S131072x8x32 .f32) (i : IVec S131072x1x1 32) : FVec F S131072x1x32 .f32 :=
  select
    (broadcastInDim S131072x1x32 ![0, 1] bcast_S131072x1_S131072x1x32_0_1
      (Host.reduce IntOp.andi
        (andi (cmpi .sge (wrapIdx i) (broadcastInDim S131072x1x1 ![] bcast_S_S131072x1x1 (constantI S_ 32 0#32)))
          (cmpi .sle (wrapIdx i)
            (broadcastInDim S131072x1x1 ![0, 1, 2] bcast_S1x1x1_S131072x1x1_0_1_2
              (broadcastInDim S1x1x1 ![2] bcast_S1_S1x1x1_2 (constantI S1 32 7#32)))))
        (constantI S_ 1 1#1) reducesTo_S131072x1x1_S131072x1_d2 h_S_))
    (Host.gather gather_S131072x8x32_S131072x1x1_S131072x1x32_2_1_0_0_1_2_1132 a (wrapIdx i))
    (broadcastInDim S131072x1x32 ![] bcast_S_S131072x1x32 (constant S_ .f32 0x7FC00000#32))

/-- The gather along the stack axis as printed: the index wrapped if negative, the range test, the gather, and the fill where
    the index is out of range. -/
def take1 (a : FVec F S131072x8x1 .f32) (i : IVec S131072x1x1 32) : FVec F S131072x1x1 .f32 :=
  select
    (broadcastInDim S131072x1x1 ![0, 1] bcast_S131072x1_S131072x1x1_0_1
      (Host.reduce IntOp.andi
        (andi (cmpi .sge (wrapIdx i) (broadcastInDim S131072x1x1 ![] bcast_S_S131072x1x1 (constantI S_ 32 0#32)))
          (cmpi .sle (wrapIdx i)
            (broadcastInDim S131072x1x1 ![0, 1, 2] bcast_S1x1x1_S131072x1x1_0_1_2
              (broadcastInDim S1x1x1 ![2] bcast_S1_S1x1x1_2 (constantI S1 32 7#32)))))
        (constantI S_ 1 1#1) reducesTo_S131072x1x1_S131072x1_d2 h_S_))
    (Host.gather gather_S131072x8x1_S131072x1x1_S131072x1x1_2_1_0_0_1_2_111 a (wrapIdx i))
    (broadcastInDim S131072x1x1 ![] bcast_S_S131072x1x1 (constant S_ .f32 0x7FC00000#32))

/-- The reference's quantiser on a whole array, as printed: trunc (ceil below zero, floor otherwise), divide by 64, floor,
    clamp between the converted integers 0 and 127, relu. -/
def quant16 (a : FVec F S131072x16 .f32) : FVec F S131072x16 .f32 :=
  maximumf
    (minimumf (broadcastInDim S131072x16 ![] bcast_S_S131072x16 (sitofp .f32 (constantI S_ 32 127#32)))
      (maximumf (broadcastInDim S131072x16 ![] bcast_S_S131072x16 (sitofp .f32 (constantI S_ 32 0#32)))
        (Host.floor
          (Host.divf
            (select (cmpf .olt a (broadcastInDim S131072x16 ![] bcast_S_S131072x16 (constant S_ .f32 0x00000000#32)))
              (Host.ceil a) (Host.floor a))
            (broadcastInDim S131072x16 ![] bcast_S_S131072x16 (constant S_ .f32 0x42800000#32))))))
    (broadcastInDim S131072x16 ![] bcast_S_S131072x16 (constant S_ .f32 0x00000000#32))

/-- The reference's quantiser on a whole array, as printed: trunc (ceil below zero, floor otherwise), divide by 64, floor,
    clamp between the converted integers 0 and 127, relu. -/
def quant32 (a : FVec F S131072x32 .f32) : FVec F S131072x32 .f32 :=
  maximumf
    (minimumf (broadcastInDim S131072x32 ![] bcast_S_S131072x32 (sitofp .f32 (constantI S_ 32 127#32)))
      (maximumf (broadcastInDim S131072x32 ![] bcast_S_S131072x32 (sitofp .f32 (constantI S_ 32 0#32)))
        (Host.floor
          (Host.divf
            (select (cmpf .olt a (broadcastInDim S131072x32 ![] bcast_S_S131072x32 (constant S_ .f32 0x00000000#32)))
              (Host.ceil a) (Host.floor a))
            (broadcastInDim S131072x32 ![] bcast_S_S131072x32 (constant S_ .f32 0x42800000#32))))))
    (broadcastInDim S131072x32 ![] bcast_S_S131072x32 (constant S_ .f32 0x00000000#32))

/-- The first affine layer, viewed as [rows, 8, 16]. -/
def lin1 (x : FVec F S131072x1024 .f32) (w : FVec F S128x1024 .f32) (b : FVec F S128 .f32) : FVec F S131072x8x16 .f32 :=
  shapeCast S131072x8x16
    (addf (Host.dotGeneral dot_S131072x1024_S1024x128_S131072x128_1_0_0_1_n_n none x (transpose S1024x128 [1, 0] w transposes_S128x1024_S1024x128_1_0))
      (broadcastInDim S131072x128 ![0, 1] bcast_S1x128_S131072x128_0_1 (broadcastInDim S1x128 ![1] bcast_S128_S1x128_1 b)))
    shapeCasts_S131072x128_S131072x8x16

/-- The second affine layer, viewed as [rows, 8, 32]. -/
def lin2 (x : FVec F S131072x16 .f32) (w : FVec F S256x16 .f32) (b : FVec F S256 .f32) : FVec F S131072x8x32 .f32 :=
  shapeCast S131072x8x32
    (addf (Host.dotGeneral dot_S131072x16_S16x256_S131072x256_1_0_0_1_n_n none x (transpose S16x256 [1, 0] w transposes_S256x16_S16x256_1_0))
      (broadcastInDim S131072x256 ![0, 1] bcast_S1x256_S131072x256_0_1 (broadcastInDim S1x256 ![1] bcast_S256_S1x256_1 b)))
    shapeCasts_S131072x256_S131072x8x32

/-- The last affine layer, viewed as [rows, 8, 1]. -/
def lin3 (x : FVec F S131072x32 .f32) (w : FVec F S8x32 .f32) (b : FVec F S8 .f32) : FVec F S131072x8x1 .f32 :=
  shapeCast S131072x8x1
    (addf (Host.dotGeneral dot_S131072x32_S32x8_S131072x8_1_0_0_1_n_n none x (transpose S32x8 [1, 0] w transposes_S8x32_S32x8_1_0))
      (broadcastInDim S131072x8 ![0, 1] bcast_S1x8_S131072x8_0_1 (broadcastInDim S1x8 ![1] bcast_S8_S1x8_1 b)))
    shapeCasts_S131072x8_S131072x8x1

/-- The stack indices as the [rows, 1, 1] array the gathers read. -/
def idx3 (i : IVec S131072 32) : IVec S131072x1x1 32 := broadcastInDim S131072x1x1 ![0] bcast_S131072_S131072x1x1_0 i

/-- The reference's result array from its argument arrays. -/
def refTerm (x : FVec F S131072x1024 .f32) (i : IVec S131072 32) (w1 : FVec F S128x1024 .f32) (b1 : FVec F S128 .f32)
    (w2 : FVec F S256x16 .f32) (b2 : FVec F S256 .f32) (wo : FVec F S8x32 .f32) (bo : FVec F S8 .f32) : FVec F S131072x1 .f32 :=
  shapeCast S131072x1
    (take1
      (lin3
        (quant32
          (shapeCast S131072x32
            (take32
              (lin2
                (quant16
                  (shapeCast S131072x16 (take16 (lin1 x w1 b1) (idx3 i)) shapeCasts_S131072x1x16_S131072x16))
                w2 b2)
              (idx3 i))
            shapeCasts_S131072x1x32_S131072x32))
        wo bo)
      (idx3 i))
    shapeCasts_S131072x1x1_S131072x1

end Cert.RefSide

end
-- ==== Proof.RefOps.lean ====
/-
  The reference's program is a straight line of host operations once its functions are unfolded at their calls; run from any
  memory it ends with its result array at the composed term of Proof/RefTerm.lean and its arguments unchanged.
-/
import proofs.«426485_j6262062317933_3_alg».proof.Proof.RefTerm
import Idealize.ShloMosaic.Lib.StableHlo.Run

noncomputable section

namespace Cert.RefSide

open Idealize.ShloMosaic Idealize.ShloMosaic.TcCoe Idealize.SL.Sem Idealize.ShloMosaic.StableHlo Cert.ReferenceIdeal
  Cert.ReferenceIdeal.Facts₀ Cert.ReferenceIdeal.Facts

variable {F : FTy → Type} [FloatOps F]

/-- A fold over two lines one after the other is the second's fold of the first's. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation that writes the one buffer `y` writes inside any list of references that holds `y`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

local macro "ws" : term => `(writes_sub_of_mem _ rfl (by decide))

/-- The index array's view and the first affine layer: the transpose, the contraction, the bias broadcast twice, the sum, the view by stacks. -/
def seg1 : List (HloOp τ sig (Elt F)) :=
  [
    unary main_arg1 main_v0 (broadcastInDim S131072x1x1 ![0] bcast_S131072_S131072x1x1_0 : (⟨S131072, .i32⟩ : BufTy).Contents (Elt F) → (⟨S131072x1x1, .i32⟩ : BufTy).Contents (Elt F)),
    unary main_arg2 main_v1 ((transpose S1024x128 [1, 0] · transposes_S128x1024_S1024x128_1_0) : (⟨S128x1024, .f32⟩ : BufTy).Contents (Elt F) → (⟨S1024x128, .f32⟩ : BufTy).Contents (Elt F)),
    binary main_arg0 main_v1 main_v2 ((fun l r => Host.dotGeneral dot_S131072x1024_S1024x128_S131072x128_1_0_0_1_n_n none l r) : (⟨S131072x1024, .f32⟩ : BufTy).Contents (Elt F) → (⟨S1024x128, .f32⟩ : BufTy).Contents (Elt F) → (⟨S131072x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S131072x128 ![0, 1] bcast_S1x128_S131072x128_0_1 : (⟨S1x128, .f32⟩ : BufTy).Contents (Elt F) → (⟨S131072x128, .f32⟩ : BufTy).Contents (Elt F)),
    binary main_v2 main_v4 main_v5 (addf : (⟨S131072x128, .f32⟩ : BufTy).Contents (Elt F) → (⟨S131072x128, .f32⟩ : BufTy).Contents (Elt F) → (⟨S131072x128, .f32⟩ : BufTy).Contents (Elt F)),
    reshape main_v5 main_v6 rfl shapeCasts_S131072x128_S131072x8x16 ]

/-- The buffers that stretch writes. -/
def W1 : List (Ref sig .tc) :=
  [main_v0, main_v1, main_v2, main_v3, main_v4, main_v5, main_v6]

/-- The first gather along the stack axis, over its call's buffers. -/
def seg2 : List (HloOp τ sig (Elt F)) :=
  [
    TRef.nullary main_call0.c (constantI S_ 32 0#32),
    TRef.unary main_call0.c main_call0.v0 (broadcastInDim S131072x1x1 ![] bcast_S_S131072x1x1),
    TRef.binary (.of main_v0) main_call0.v0 main_call0.v1 (cmpi .slt),
    TRef.nullary main_call0.c_0 (constantI S_ 32 8#32),
    TRef.unary main_call0.c_0 main_call0.v2 (broadcastInDim S131072x1x1 ![] bcast_S_S131072x1x1),
    TRef.binary (.of main_v0) main_call0.v2 main_call0.v3 addi,
    TRef.ternary main_call0.v1 main_call0.v3 (.of main_v0) main_call0.v4 select,
    TRef.nullary main_call0.c_1 (constantI S1 32 7#32),
    TRef.nullary main_call0.c_2 (constantI S_ 32 0#32),
    TRef.unary main_call0.c_2 main_call0.v5 (broadcastInDim S131072x1x1 ![] bcast_S_S131072x1x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S131072x1x1 ![0, 1, 2] bcast_S1x1x1_S131072x1x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S131072x1x1_S131072x1_d2 h_S_),
    TRef.binary (.of main_v6) main_call0.v4 main_call0.v12 (fun x i => Host.gather gather_S131072x8x16_S131072x1x1_S131072x1x16_2_1_0_0_1_2_1116 x i),
    TRef.unary main_call0.v11 main_call0.v13 (broadcastInDim S131072x1x16 ![0, 1] bcast_S131072x1_S131072x1x16_0_1),
    TRef.nullary main_call0.cst (constant S_ .f32 0x7FC00000#32),
    TRef.unary main_call0.cst main_call0.v14 (broadcastInDim S131072x1x16 ![] bcast_S_S131072x1x16),
    TRef.ternary main_call0.v13 main_call0.v12 main_call0.v14 main_call0.v15 select ]

/-- The buffers that stretch writes. -/
def W2 : List (Ref sig .tc) :=
  [main_call0.c.ref, main_call0.v0.ref, main_call0.v1.ref, main_call0.c_0.ref, main_call0.v2.ref, main_call0.v3.ref, main_call0.v4.ref, main_call0.c_1.ref, main_call0.c_2.ref, main_call0.v5.ref, main_call0.v6.ref, main_call0.v7.ref, main_call0.v8.ref, main_call0.v9.ref, main_call0.v10.ref, main_call0.c_3.ref, main_call0.v11.ref, main_call0.v12.ref, main_call0.v13.ref, main_call0.cst.ref, main_call0.v14.ref, main_call0.v15.ref]

/-- The view of the gathered stack and the first quantiser: trunc, the division by 64, the floor, the two bounds, clip, relu. -/
def seg3 : List (HloOp τ sig (Elt F)) :=
  [
    reshape main_v7 main_v8 rfl shapeCasts_S131072x1x16_S131072x16,
    TRef.nullary main_call1.cst (constant S_ .f32 0x00000000#32),
    TRef.unary main_call1.cst main_call1.v0 (broadcastInDim S131072x16 ![] bcast_S_S131072x16),
    TRef.binary (.of main_v8) main_call1.v0 main_call1.v1 (cmpf .olt),
    TRef.unary (.of main_v8) main_call1.v2 Host.ceil,
    TRef.unary (.of main_v8) main_call1.v3 Host.floor,
    TRef.ternary main_call1.v1 main_call1.v2 main_call1.v3 main_call1.call0.v0 select,
    nullary main_cst (constant S_ .f32 0x42800000#32),
    unary main_cst main_v10 (broadcastInDim S131072x16 ![] bcast_S_S131072x16 : (⟨S_, .f32⟩ : BufTy).Contents (Elt F) → (⟨S131072x16, .f32⟩ : BufTy).Contents (Elt F)),
    binary main_v9 main_v10 main_v11 (Host.divf : (⟨S131072x16, .f32⟩ : BufTy).Contents (Elt F) → (⟨S131072x16, .f32⟩ : BufTy).Contents (Elt F) → (⟨S131072x16, .f32⟩ : BufTy).Contents (Elt F)),
    unary main_v11 main_v12 (Host.floor : (⟨S131072x16, .f32⟩ : BufTy).Contents (Elt F) → (⟨S131072x16, .f32⟩ : BufTy).Contents (Elt F)),
    nullary main_c (constantI S_ 32 0#32),
    nullary main_c_0 (constantI S_ 32 127#32),
    TRef.unary (.of main_c) main_call2.v0 (sitofp .f32),
    TRef.unary main_call2.v0 main_call2.v1 (broadcastInDim S131072x16 ![] bcast_S_S131072x16),
    TRef.binary main_call2.v1 (.of main_v12) main_call2.v2 maximumf,
    TRef.unary (.of main_c_0) main_call2.v3 (sitofp .f32),
    TRef.unary main_call2.v3 main_call2.v4 (broadcastInDim S131072x16 ![] bcast_S_S131072x16),
    TRef.binary main_call2.v4 main_call2.v2 main_call2.v5 minimumf,
    TRef.nullary main_call3.cst (constant S_ .f32 0x00000000#32),
    TRef.unary main_call3.cst main_call3.v0 (broadcastInDim S131072x16 ![] bcast_S_S131072x16),
    TRef.binary (.of main_v13) main_call3.v0 main_call3.v1 maximumf ]

/-- The buffers that stretch writes. -/
def W3 : List (Ref sig .tc) :=
  [main_v8, main_call1.cst.ref, main_call1.v0.ref, main_call1.v1.ref, main_call1.v2.ref, main_call1.v3.ref, main_call1.call0.v0.ref, main_cst, main_v10, main_v11, main_v12, main_c, main_c_0, main_call2.v0.ref, main_call2.v1.ref, main_call2.v2.ref, main_call2.v3.ref, main_call2.v4.ref, main_call2.v5.ref, main_call3.cst.ref, main_call3.v0.ref, main_call3.v1.ref]

/-- The second affine layer. -/
def seg4 : List (HloOp τ sig (Elt F)) :=
  [
    unary main_arg4 main_v15 ((transpose S16x256 [1, 0] · transposes_S256x16_S16x256_1_0) : (⟨S256x16, .f32⟩ : BufTy).Contents (Elt F) → (⟨S16x256, .f32⟩ : BufTy).Contents (Elt F)),
    binary main_v14 main_v15 main_v16 ((fun l r => Host.dotGeneral dot_S131072x16_S16x256_S131072x256_1_0_0_1_n_n none l r) : (⟨S131072x16, .f32⟩ : BufTy).Contents (Elt F) → (⟨S16x256, .f32⟩ : BufTy).Contents (Elt F) → (⟨S131072x256, .f32⟩ : BufTy).Contents (Elt F)),
    unary main_arg5 main_v17 (broadcastInDim S1x256 ![1] bcast_S256_S1x256_1 : (⟨S256, .f32⟩ : BufTy).Contents (Elt F) → (⟨S1x256, .f32⟩ : BufTy).Contents (Elt F)),
    unary main_v17 main_v18 (broadcastInDim S131072x256 ![0, 1] bcast_S1x256_S131072x256_0_1 : (⟨S1x256, .f32⟩ : BufTy).Contents (Elt F) → (⟨S131072x256, .f32⟩ : BufTy).Contents (Elt F)),
    binary main_v16 main_v18 main_v19 (addf : (⟨S131072x256, .f32⟩ : BufTy).Contents (Elt F) → (⟨S131072x256, .f32⟩ : BufTy).Contents (Elt F) → (⟨S131072x256, .f32⟩ : BufTy).Contents (Elt F)),
    reshape main_v19 main_v20 rfl shapeCasts_S131072x256_S131072x8x32 ]

/-- The buffers that stretch writes. -/
def W4 : List (Ref sig .tc) :=
  [main_v15, main_v16, main_v17, main_v18, main_v19, main_v20]

/-- The second gather along the stack axis. -/
def seg5 : List (HloOp τ sig (Elt F)) :=
  [
    TRef.nullary main_call4.c (constantI S_ 32 0#32),
    TRef.unary main_call4.c main_call4.v0 (broadcastInDim S131072x1x1 ![] bcast_S_S131072x1x1),
    TRef.binary (.of main_v0) main_call4.v0 main_call4.v1 (cmpi .slt),
    TRef.nullary main_call4.c_0 (constantI S_ 32 8#32),
    TRef.unary main_call4.c_0 main_call4.v2 (broadcastInDim S131072x1x1 ![] bcast_S_S131072x1x1),
    TRef.binary (.of main_v0) main_call4.v2 main_call4.v3 addi,
    TRef.ternary main_call4.v1 main_call4.v3 (.of main_v0) main_call4.v4 select,
    TRef.nullary main_call4.c_1 (constantI S1 32 7#32),
    TRef.nullary main_call4.c_2 (constantI S_ 32 0#32),
    TRef.unary main_call4.c_2 main_call4.v5 (broadcastInDim S131072x1x1 ![] bcast_S_S131072x1x1),
    TRef.binary main_call4.v4 main_call4.v5 main_call4.v6 (cmpi .sge),
    TRef.unary main_call4.c_1 main_call4.v7 (broadcastInDim S1x1x1 ![2] bcast_S1_S1x1x1_2),
    TRef.unary main_call4.v7 main_call4.v8 (broadcastInDim S131072x1x1 ![0, 1, 2] bcast_S1x1x1_S131072x1x1_0_1_2),
    TRef.binary main_call4.v4 main_call4.v8 main_call4.v9 (cmpi .sle),
    TRef.binary main_call4.v6 main_call4.v9 main_call4.v10 andi,
    TRef.nullary main_call4.c_3 (constantI S_ 1 1#1),
    TRef.binary main_call4.v10 main_call4.c_3 main_call4.v11 (fun x v => Host.reduce IntOp.andi x v reducesTo_S131072x1x1_S131072x1_d2 h_S_),
    TRef.binary (.of main_v20) main_call4.v4 main_call4.v12 (fun x i => Host.gather gather_S131072x8x32_S131072x1x1_S131072x1x32_2_1_0_0_1_2_1132 x i),
    TRef.unary main_call4.v11 main_call4.v13 (broadcastInDim S131072x1x32 ![0, 1] bcast_S131072x1_S131072x1x32_0_1),
    TRef.nullary main_call4.cst (constant S_ .f32 0x7FC00000#32),
    TRef.unary main_call4.cst main_call4.v14 (broadcastInDim S131072x1x32 ![] bcast_S_S131072x1x32),
    TRef.ternary main_call4.v13 main_call4.v12 main_call4.v14 main_call4.v15 select ]

/-- The buffers that stretch writes. -/
def W5 : List (Ref sig .tc) :=
  [main_call4.c.ref, main_call4.v0.ref, main_call4.v1.ref, main_call4.c_0.ref, main_call4.v2.ref, main_call4.v3.ref, main_call4.v4.ref, main_call4.c_1.ref, main_call4.c_2.ref, main_call4.v5.ref, main_call4.v6.ref, main_call4.v7.ref, main_call4.v8.ref, main_call4.v9.ref, main_call4.v10.ref, main_call4.c_3.ref, main_call4.v11.ref, main_call4.v12.ref, main_call4.v13.ref, main_call4.cst.ref, main_call4.v14.ref, main_call4.v15.ref]

/-- The view of the gathered stack and the second quantiser. -/
def seg6 : List (HloOp τ sig (Elt F)) :=
  [
    reshape main_v21 main_v22 rfl shapeCasts_S131072x1x32_S131072x32,
    TRef.nullary main_call5.cst (constant S_ .f32 0x00000000#32),
    TRef.unary main_call5.cst main_call5.v0 (broadcastInDim S131072x32 ![] bcast_S_S131072x32),
    TRef.binary (.of main_v22) main_call5.v0 main_call5.v1 (cmpf .olt),
    TRef.unary (.of main_v22) main_call5.v2 Host.ceil,
    TRef.unary (.of main_v22) main_call5.v3 Host.floor,
    TRef.ternary main_call5.v1 main_call5.v2 main_call5.v3 main_call5.call0.v0 select,
    nullary main_cst_1 (constant S_ .f32 0x42800000#32),
    unary main_cst_1 main_v24 (broadcastInDim S131072x32 ![] bcast_S_S131072x32 : (⟨S_, .f32⟩ : BufTy).Contents (Elt F) → (⟨S131072x32, .f32⟩ : BufTy).Contents (Elt F)),
    binary main_v23 main_v24 main_v25 (Host.divf : (⟨S131072x32, .f32⟩ : BufTy).Contents (Elt F) → (⟨S131072x32, .f32⟩ : BufTy).Contents (Elt F) → (⟨S131072x32, .f32⟩ : BufTy).Contents (Elt F)),
    unary main_v25 main_v26 (Host.floor : (⟨S131072x32, .f32⟩ : BufTy).Contents (Elt F) → (⟨S131072x32, .f32⟩ : BufTy).Contents (Elt F)),
    nullary main_c_2 (constantI S_ 32 0#32),
    nullary main_c_3 (constantI S_ 32 127#32),
    TRef.unary (.of main_c_2) main_call6.v0 (sitofp .f32),
    TRef.unary main_call6.v0 main_call6.v1 (broadcastInDim S131072x32 ![] bcast_S_S131072x32),
    TRef.binary main_call6.v1 (.of main_v26) main_call6.v2 maximumf,
    TRef.unary (.of main_c_3) main_call6.v3 (sitofp .f32),
    TRef.unary main_call6.v3 main_call6.v4 (broadcastInDim S131072x32 ![] bcast_S_S131072x32),
    TRef.binary main_call6.v4 main_call6.v2 main_call6.v5 minimumf,
    TRef.nullary main_call7.cst (constant S_ .f32 0x00000000#32),
    TRef.unary main_call7.cst main_call7.v0 (broadcastInDim S131072x32 ![] bcast_S_S131072x32),
    TRef.binary (.of main_v27) main_call7.v0 main_call7.v1 maximumf ]

/-- The buffers that stretch writes. -/
def W6 : List (Ref sig .tc) :=
  [main_v22, main_call5.cst.ref, main_call5.v0.ref, main_call5.v1.ref, main_call5.v2.ref, main_call5.v3.ref, main_call5.call0.v0.ref, main_cst_1, main_v24, main_v25, main_v26, main_c_2, main_c_3, main_call6.v0.ref, main_call6.v1.ref, main_call6.v2.ref, main_call6.v3.ref, main_call6.v4.ref, main_call6.v5.ref, main_call7.cst.ref, main_call7.v0.ref, main_call7.v1.ref]

/-- The last affine layer. -/
def seg7 : List (HloOp τ sig (Elt F)) :=
  [
    unary main_arg6 main_v29 ((transpose S32x8 [1, 0] · transposes_S8x32_S32x8_1_0) : (⟨S8x32, .f32⟩ : BufTy).Contents (Elt F) → (⟨S32x8, .f32⟩ : BufTy).Contents (Elt F)),
    binary main_v28 main_v29 main_v30 ((fun l r => Host.dotGeneral dot_S131072x32_S32x8_S131072x8_1_0_0_1_n_n none l r) : (⟨S131072x32, .f32⟩ : BufTy).Contents (Elt F) → (⟨S32x8, .f32⟩ : BufTy).Contents (Elt F) → (⟨S131072x8, .f32⟩ : BufTy).Contents (Elt F)),
    unary main_arg7 main_v31 (broadcastInDim S1x8 ![1] bcast_S8_S1x8_1 : (⟨S8, .f32⟩ : BufTy).Contents (Elt F) → (⟨S1x8, .f32⟩ : BufTy).Contents (Elt F)),
    unary main_v31 main_v32 (broadcastInDim S131072x8 ![0, 1] bcast_S1x8_S131072x8_0_1 : (⟨S1x8, .f32⟩ : BufTy).Contents (Elt F) → (⟨S131072x8, .f32⟩ : BufTy).Contents (Elt F)),
    binary main_v30 main_v32 main_v33 (addf : (⟨S131072x8, .f32⟩ : BufTy).Contents (Elt F) → (⟨S131072x8, .f32⟩ : BufTy).Contents (Elt F) → (⟨S131072x8, .f32⟩ : BufTy).Contents (Elt F)),
    reshape main_v33 main_v34 rfl shapeCasts_S131072x8_S131072x8x1 ]

/-- The buffers that stretch writes. -/
def W7 : List (Ref sig .tc) :=
  [main_v29, main_v30, main_v31, main_v32, main_v33, main_v34]

/-- The last gather along the stack axis. -/
def seg8 : List (HloOp τ sig (Elt F)) :=
  [
    TRef.nullary main_call8.c (constantI S_ 32 0#32),
    TRef.unary main_call8.c main_call8.v0 (broadcastInDim S131072x1x1 ![] bcast_S_S131072x1x1),
    TRef.binary (.of main_v0) main_call8.v0 main_call8.v1 (cmpi .slt),
    TRef.nullary main_call8.c_0 (constantI S_ 32 8#32),
    TRef.unary main_call8.c_0 main_call8.v2 (broadcastInDim S131072x1x1 ![] bcast_S_S131072x1x1),
    TRef.binary (.of main_v0) main_call8.v2 main_call8.v3 addi,
    TRef.ternary main_call8.v1 main_call8.v3 (.of main_v0) main_call8.v4 select,
    TRef.nullary main_call8.c_1 (constantI S1 32 7#32),
    TRef.nullary main_call8.c_2 (constantI S_ 32 0#32),
    TRef.unary main_call8.c_2 main_call8.v5 (broadcastInDim S131072x1x1 ![] bcast_S_S131072x1x1),
    TRef.binary main_call8.v4 main_call8.v5 main_call8.v6 (cmpi .sge),
    TRef.unary main_call8.c_1 main_call8.v7 (broadcastInDim S1x1x1 ![2] bcast_S1_S1x1x1_2),
    TRef.unary main_call8.v7 main_call8.v8 (broadcastInDim S131072x1x1 ![0, 1, 2] bcast_S1x1x1_S131072x1x1_0_1_2),
    TRef.binary main_call8.v4 main_call8.v8 main_call8.v9 (cmpi .sle),
    TRef.binary main_call8.v6 main_call8.v9 main_call8.v10 andi,
    TRef.nullary main_call8.c_3 (constantI S_ 1 1#1),
    TRef.binary main_call8.v10 main_call8.c_3 main_call8.v11 (fun x v => Host.reduce IntOp.andi x v reducesTo_S131072x1x1_S131072x1_d2 h_S_),
    TRef.binary (.of main_v34) main_call8.v4 main_call8.v12 (fun x i => Host.gather gather_S131072x8x1_S131072x1x1_S131072x1x1_2_1_0_0_1_2_111 x i),
    TRef.unary main_call8.v11 main_call8.v13 (broadcastInDim S131072x1x1 ![0, 1] bcast_S131072x1_S131072x1x1_0_1),
    TRef.nullary main_call8.cst (constant S_ .f32 0x7FC00000#32),
    TRef.unary main_call8.cst main_call8.v14 (broadcastInDim S131072x1x1 ![] bcast_S_S131072x1x1),
    TRef.ternary main_call8.v13 main_call8.v12 main_call8.v14 main_call8.v15 select ]

/-- The buffers that stretch writes. -/
def W8 : List (Ref sig .tc) :=
  [main_call8.c.ref, main_call8.v0.ref, main_call8.v1.ref, main_call8.c_0.ref, main_call8.v2.ref, main_call8.v3.ref, main_call8.v4.ref, main_call8.c_1.ref, main_call8.c_2.ref, main_call8.v5.ref, main_call8.v6.ref, main_call8.v7.ref, main_call8.v8.ref, main_call8.v9.ref, main_call8.v10.ref, main_call8.c_3.ref, main_call8.v11.ref, main_call8.v12.ref, main_call8.v13.ref, main_call8.cst.ref, main_call8.v14.ref, main_call8.v15.ref]

/-- The result's view as a column. -/
def seg9 : List (HloOp τ sig (Elt F)) :=
  [
    reshape main_v35 main_v36 rfl shapeCasts_S131072x1x1_S131072x1 ]

/-- The buffers that stretch writes. -/
def W9 : List (Ref sig .tc) :=
  [main_v36]

theorem seg1_out (V : Valuation τ sig (Elt F)) :
    after seg1 V (main_v6 : DevRef τ sig)
      = lin1 (F := F) (V (main_arg0 : DevRef τ sig)) (V (main_arg2 : DevRef τ sig)) (V (main_arg3 : DevRef τ sig)) := by
  unfold seg1
  after_results
  rfl

theorem seg1_idx (V : Valuation τ sig (Elt F)) :
    after seg1 V (main_v0 : DevRef τ sig) = idx3 (V (main_arg1 : DevRef τ sig)) := by
  unfold seg1
  after_results
  rfl

-- the gather and the reduction are compared as they stand, never opened
attribute [local irreducible] Host.reduce Host.gather in
set_option maxRecDepth 8192 in
set_option maxHeartbeats 1000000 in
theorem seg2_out (V : Valuation τ sig (Elt F)) :
    after seg2 V (main_v7 : DevRef τ sig)
      = take16 (F := F) (V (main_v6 : DevRef τ sig)) (V (main_v0 : DevRef τ sig)) := by
  unfold seg2
  simp only [after_cons, after_nil]
  rfl

theorem seg3_out (V : Valuation τ sig (Elt F)) :
    after seg3 V (main_v14 : DevRef τ sig)
      = quant16 (F := F) (shapeCast S131072x16 (V (main_v7 : DevRef τ sig)) shapeCasts_S131072x1x16_S131072x16) := by
  unfold seg3
  after_results
  rfl

theorem seg4_out (V : Valuation τ sig (Elt F)) :
    after seg4 V (main_v20 : DevRef τ sig)
      = lin2 (F := F) (V (main_v14 : DevRef τ sig)) (V (main_arg4 : DevRef τ sig)) (V (main_arg5 : DevRef τ sig)) := by
  unfold seg4
  after_results
  rfl

-- the gather and the reduction are compared as they stand, never opened
attribute [local irreducible] Host.reduce Host.gather in
set_option maxRecDepth 8192 in
set_option maxHeartbeats 1000000 in
theorem seg5_out (V : Valuation τ sig (Elt F)) :
    after seg5 V (main_v21 : DevRef τ sig)
      = take32 (F := F) (V (main_v20 : DevRef τ sig)) (V (main_v0 : DevRef τ sig)) := by
  unfold seg5
  simp only [after_cons, after_nil]
  rfl

theorem seg6_out (V : Valuation τ sig (Elt F)) :
    after seg6 V (main_v28 : DevRef τ sig)
      = quant32 (F := F) (shapeCast S131072x32 (V (main_v21 : DevRef τ sig)) shapeCasts_S131072x1x32_S131072x32) := by
  unfold seg6
  after_results
  rfl

theorem seg7_out (V : Valuation τ sig (Elt F)) :
    after seg7 V (main_v34 : DevRef τ sig)
      = lin3 (F := F) (V (main_v28 : DevRef τ sig)) (V (main_arg6 : DevRef τ sig)) (V (main_arg7 : DevRef τ sig)) := by
  unfold seg7
  after_results
  rfl

-- the gather and the reduction are compared as they stand, never opened
attribute [local irreducible] Host.reduce Host.gather in
set_option maxRecDepth 8192 in
set_option maxHeartbeats 1000000 in
theorem seg8_out (V : Valuation τ sig (Elt F)) :
    after seg8 V (main_v35 : DevRef τ sig)
      = take1 (F := F) (V (main_v34 : DevRef τ sig)) (V (main_v0 : DevRef τ sig)) := by
  unfold seg8
  simp only [after_cons, after_nil]
  rfl

theorem seg9_out (V : Valuation τ sig (Elt F)) :
    after seg9 V (main_v36 : DevRef τ sig)
      = shapeCast S131072x1 (V (main_v35 : DevRef τ sig)) shapeCasts_S131072x1x1_S131072x1 := by
  unfold seg9
  after_results
  rfl

theorem seg1_keep (V : Valuation τ sig (Elt F)) {r : Ref sig .tc} (hr : r ∉ W1) :
    after seg1 V (no_index (Proc.devRef .tc r)) = V (Proc.devRef .tc r) :=
  after_of_writes_sub seg1 V (W := W1) ⟨ws, ws, ws, ws, ws, ws, ws⟩ hr

theorem seg2_keep (V : Valuation τ sig (Elt F)) {r : Ref sig .tc} (hr : r ∉ W2) :
    after seg2 V (no_index (Proc.devRef .tc r)) = V (Proc.devRef .tc r) :=
  after_of_writes_sub seg2 V (W := W2) ⟨ws, ws, ws, ws, ws, ws, ws, ws, ws, ws, ws, ws, ws, ws, ws, ws, ws, ws, ws, ws, ws, ws⟩ hr

theorem seg3_keep (V : Valuation τ sig (Elt F)) {r : Ref sig .tc} (hr : r ∉ W3) :
    after seg3 V (no_index (Proc.devRef .tc r)) = V (Proc.devRef .tc r) :=
  after_of_writes_sub seg3 V (W := W3) ⟨ws, ws, ws, ws, ws, ws, ws, ws, ws, ws, ws, ws, ws, ws, ws, ws, ws, ws, ws, ws, ws, ws⟩ hr

theorem seg4_keep (V : Valuation τ sig (Elt F)) {r : Ref sig .tc} (hr : r ∉ W4) :
    after seg4 V (no_index (Proc.devRef .tc r)) = V (Proc.devRef .tc r) :=
  after_of_writes_sub seg4 V (W := W4) ⟨ws, ws, ws, ws, ws, ws⟩ hr

theorem seg5_keep (V : Valuation τ sig (Elt F)) {r : Ref sig .tc} (hr : r ∉ W5) :
    after seg5 V (no_index (Proc.devRef .tc r)) = V (Proc.devRef .tc r) :=
  after_of_writes_sub seg5 V (W := W5) ⟨ws, ws, ws, ws, ws, ws, ws, ws, ws, ws, ws, ws, ws, ws, ws, ws, ws, ws, ws, ws, ws, ws⟩ hr

theorem seg6_keep (V : Valuation τ sig (Elt F)) {r : Ref sig .tc} (hr : r ∉ W6) :
    after seg6 V (no_index (Proc.devRef .tc r)) = V (Proc.devRef .tc r) :=
  after_of_writes_sub seg6 V (W := W6) ⟨ws, ws, ws, ws, ws, ws, ws, ws, ws, ws, ws, ws, ws, ws, ws, ws, ws, ws, ws, ws, ws, ws⟩ hr

theorem seg7_keep (V : Valuation τ sig (Elt F)) {r : Ref sig .tc} (hr : r ∉ W7) :
    after seg7 V (no_index (Proc.devRef .tc r)) = V (Proc.devRef .tc r) :=
  after_of_writes_sub seg7 V (W := W7) ⟨ws, ws, ws, ws, ws, ws⟩ hr

theorem seg8_keep (V : Valuation τ sig (Elt F)) {r : Ref sig .tc} (hr : r ∉ W8) :
    after seg8 V (no_index (Proc.devRef .tc r)) = V (Proc.devRef .tc r) :=
  after_of_writes_sub seg8 V (W := W8) ⟨ws, ws, ws, ws, ws, ws, ws, ws, ws, ws, ws, ws, ws, ws, ws, ws, ws, ws, ws, ws, ws, ws⟩ hr

theorem seg9_keep (V : Valuation τ sig (Elt F)) {r : Ref sig .tc} (hr : r ∉ W9) :
    after seg9 V (no_index (Proc.devRef .tc r)) = V (Proc.devRef .tc r) :=
  after_of_writes_sub seg9 V (W := W9) ws hr

/-! The same results with the buffer read left out of the rewriting index, so that one rewriting pass finds them. -/

theorem seg1_out' (V : Valuation τ sig (Elt F)) :
    after seg1 V (no_index (main_v6 : DevRef τ sig))
      = lin1 (F := F) (V (main_arg0 : DevRef τ sig)) (V (main_arg2 : DevRef τ sig)) (V (main_arg3 : DevRef τ sig)) := seg1_out V

theorem seg1_idx' (V : Valuation τ sig (Elt F)) :
    after seg1 V (no_index (main_v0 : DevRef τ sig)) = idx3 (V (main_arg1 : DevRef τ sig)) := seg1_idx V

theorem seg2_out' (V : Valuation τ sig (Elt F)) :
    after seg2 V (no_index (main_v7 : DevRef τ sig))
      = take16 (F := F) (V (main_v6 : DevRef τ sig)) (V (main_v0 : DevRef τ sig)) := seg2_out V

theorem seg3_out' (V : Valuation τ sig (Elt F)) :
    after seg3 V (no_index (main_v14 : DevRef τ sig))
      = quant16 (F := F) (shapeCast S131072x16 (V (main_v7 : DevRef τ sig)) shapeCasts_S131072x1x16_S131072x16) := seg3_out V

theorem seg4_out' (V : Valuation τ sig (Elt F)) :
    after seg4 V (no_index (main_v20 : DevRef τ sig))
      = lin2 (F := F) (V (main_v14 : DevRef τ sig)) (V (main_arg4 : DevRef τ sig)) (V (main_arg5 : DevRef τ sig)) := seg4_out V

theorem seg5_out' (V : Valuation τ sig (Elt F)) :
    after seg5 V (no_index (main_v21 : DevRef τ sig))
      = take32 (F := F) (V (main_v20 : DevRef τ sig)) (V (main_v0 : DevRef τ sig)) := seg5_out V

theorem seg6_out' (V : Valuation τ sig (Elt F)) :
    after seg6 V (no_index (main_v28 : DevRef τ sig))
      = quant32 (F := F) (shapeCast S131072x32 (V (main_v21 : DevRef τ sig)) shapeCasts_S131072x1x32_S131072x32) := seg6_out V

theorem seg7_out' (V : Valuation τ sig (Elt F)) :
    after seg7 V (no_index (main_v34 : DevRef τ sig))
      = lin3 (F := F) (V (main_v28 : DevRef τ sig)) (V (main_arg6 : DevRef τ sig)) (V (main_arg7 : DevRef τ sig)) := seg7_out V

theorem seg8_out' (V : Valuation τ sig (Elt F)) :
    after seg8 V (no_index (main_v35 : DevRef τ sig))
      = take1 (F := F) (V (main_v34 : DevRef τ sig)) (V (main_v0 : DevRef τ sig)) := seg8_out V

theorem seg9_out' (V : Valuation τ sig (Elt F)) :
    after seg9 V (no_index (main_v36 : DevRef τ sig))
      = shapeCast S131072x1 (V (main_v35 : DevRef τ sig)) shapeCasts_S131072x1x1_S131072x1 := seg9_out V

/-- @main's one hundred and thirty operations in order, the calls unfolded: each affine layer is seven (the transpose, the
    contraction, the bias broadcast twice, the sum, the view by stacks, and before the first the index array's view), each
    gather along the stack axis twenty-two over its call's buffers, each quantiser twenty-one (the view of the gathered
    stack, trunc's six, the division's three, the floor, the two bounds, clip's six, relu's three), and the last view. -/
abbrev ops : List (HloOp τ sig (Elt F)) :=
  [
    unary main_arg1 main_v0 (broadcastInDim S131072x1x1 ![0] bcast_S131072_S131072x1x1_0 : (⟨S131072, .i32⟩ : BufTy).Contents (Elt F) → (⟨S131072x1x1, .i32⟩ : BufTy).Contents (Elt F)),
    unary main_arg2 main_v1 ((transpose S1024x128 [1, 0] · transposes_S128x1024_S1024x128_1_0) : (⟨S128x1024, .f32⟩ : BufTy).Contents (Elt F) → (⟨S1024x128, .f32⟩ : BufTy).Contents (Elt F)),
    binary main_arg0 main_v1 main_v2 ((fun l r => Host.dotGeneral dot_S131072x1024_S1024x128_S131072x128_1_0_0_1_n_n none l r) : (⟨S131072x1024, .f32⟩ : BufTy).Contents (Elt F) → (⟨S1024x128, .f32⟩ : BufTy).Contents (Elt F) → (⟨S131072x128, .f32⟩ : BufTy).Contents (Elt F)),
    unary main_arg3 main_v3 (broadcastInDim S1x128 ![1] bcast_S128_S1x128_1 : (⟨S128, .f32⟩ : BufTy).Contents (Elt F) → (⟨S1x128, .f32⟩ : BufTy).Contents (Elt F)),
    unary main_v3 main_v4 (broadcastInDim S131072x128 ![0, 1] bcast_S1x128_S131072x128_0_1 : (⟨S1x128, .f32⟩ : BufTy).Contents (Elt F) → (⟨S131072x128, .f32⟩ : BufTy).Contents (Elt F)),
    binary main_v2 main_v4 main_v5 (addf : (⟨S131072x128, .f32⟩ : BufTy).Contents (Elt F) → (⟨S131072x128, .f32⟩ : BufTy).Contents (Elt F) → (⟨S131072x128, .f32⟩ : BufTy).Contents (Elt F)),
    reshape main_v5 main_v6 rfl shapeCasts_S131072x128_S131072x8x16,
    TRef.nullary main_call0.c (constantI S_ 32 0#32),
    TRef.unary main_call0.c main_call0.v0 (broadcastInDim S131072x1x1 ![] bcast_S_S131072x1x1),
    TRef.binary (.of main_v0) main_call0.v0 main_call0.v1 (cmpi .slt),
    TRef.nullary main_call0.c_0 (constantI S_ 32 8#32),
    TRef.unary main_call0.c_0 main_call0.v2 (broadcastInDim S131072x1x1 ![] bcast_S_S131072x1x1),
    TRef.binary (.of main_v0) main_call0.v2 main_call0.v3 addi,
    TRef.ternary main_call0.v1 main_call0.v3 (.of main_v0) main_call0.v4 select,
    TRef.nullary main_call0.c_1 (constantI S1 32 7#32),
    TRef.nullary main_call0.c_2 (constantI S_ 32 0#32),
    TRef.unary main_call0.c_2 main_call0.v5 (broadcastInDim S131072x1x1 ![] bcast_S_S131072x1x1),
    TRef.binary main_call0.v4 main_call0.v5 main_call0.v6 (cmpi .sge),
    TRef.unary main_call0.c_1 main_call0.v7 (broadcastInDim S1x1x1 ![2] bcast_S1_S1x1x1_2),
    TRef.unary main_call0.v7 main_call0.v8 (broadcastInDim S131072x1x1 ![0, 1, 2] bcast_S1x1x1_S131072x1x1_0_1_2),
    TRef.binary main_call0.v4 main_call0.v8 main_call0.v9 (cmpi .sle),
    TRef.binary main_call0.v6 main_call0.v9 main_call0.v10 andi,
    TRef.nullary main_call0.c_3 (constantI S_ 1 1#1),
    TRef.binary main_call0.v10 main_call0.c_3 main_call0.v11 (fun x v => Host.reduce IntOp.andi x v reducesTo_S131072x1x1_S131072x1_d2 h_S_),
    TRef.binary (.of main_v6) main_call0.v4 main_call0.v12 (fun x i => Host.gather gather_S131072x8x16_S131072x1x1_S131072x1x16_2_1_0_0_1_2_1116 x i),
    TRef.unary main_call0.v11 main_call0.v13 (broadcastInDim S131072x1x16 ![0, 1] bcast_S131072x1_S131072x1x16_0_1),
    TRef.nullary main_call0.cst (constant S_ .f32 0x7FC00000#32),
    TRef.unary main_call0.cst main_call0.v14 (broadcastInDim S131072x1x16 ![] bcast_S_S131072x1x16),
    TRef.ternary main_call0.v13 main_call0.v12 main_call0.v14 main_call0.v15 select,
    reshape main_v7 main_v8 rfl shapeCasts_S131072x1x16_S131072x16,
    TRef.nullary main_call1.cst (constant S_ .f32 0x00000000#32),
    TRef.unary main_call1.cst main_call1.v0 (broadcastInDim S131072x16 ![] bcast_S_S131072x16),
    TRef.binary (.of main_v8) main_call1.v0 main_call1.v1 (cmpf .olt),
    TRef.unary (.of main_v8) main_call1.v2 Host.ceil,
    TRef.unary (.of main_v8) main_call1.v3 Host.floor,
    TRef.ternary main_call1.v1 main_call1.v2 main_call1.v3 main_call1.call0.v0 select,
    nullary main_cst (constant S_ .f32 0x42800000#32),
    unary main_cst main_v10 (broadcastInDim S131072x16 ![] bcast_S_S131072x16 : (⟨S_, .f32⟩ : BufTy).Contents (Elt F) → (⟨S131072x16, .f32⟩ : BufTy).Contents (Elt F)),
    binary main_v9 main_v10 main_v11 (Host.divf : (⟨S131072x16, .f32⟩ : BufTy).Contents (Elt F) → (⟨S131072x16, .f32⟩ : BufTy).Contents (Elt F) → (⟨S131072x16, .f32⟩ : BufTy).Contents (Elt F)),
    unary main_v11 main_v12 (Host.floor : (⟨S131072x16, .f32⟩ : BufTy).Contents (Elt F) → (⟨S131072x16, .f32⟩ : BufTy).Contents (Elt F)),
    nullary main_c (constantI S_ 32 0#32),
    nullary main_c_0 (constantI S_ 32 127#32),
    TRef.unary (.of main_c) main_call2.v0 (sitofp .f32),
    TRef.unary main_call2.v0 main_call2.v1 (broadcastInDim S131072x16 ![] bcast_S_S131072x16),
    TRef.binary main_call2.v1 (.of main_v12) main_call2.v2 maximumf,
    TRef.unary (.of main_c_0) main_call2.v3 (sitofp .f32),
    TRef.unary main_call2.v3 main_call2.v4 (broadcastInDim S131072x16 ![] bcast_S_S131072x16),
    TRef.binary main_call2.v4 main_call2.v2 main_call2.v5 minimumf,
    TRef.nullary main_call3.cst (constant S_ .f32 0x00000000#32),
    TRef.unary main_call3.cst main_call3.v0 (broadcastInDim S131072x16 ![] bcast_S_S131072x16),
    TRef.binary (.of main_v13) main_call3.v0 main_call3.v1 maximumf,
    unary main_arg4 main_v15 ((transpose S16x256 [1, 0] · transposes_S256x16_S16x256_1_0) : (⟨S256x16, .f32⟩ : BufTy).Contents (Elt F) → (⟨S16x256, .f32⟩ : BufTy).Contents (Elt F)),
    binary main_v14 main_v15 main_v16 ((fun l r => Host.dotGeneral dot_S131072x16_S16x256_S131072x256_1_0_0_1_n_n none l r) : (⟨S131072x16, .f32⟩ : BufTy).Contents (Elt F) → (⟨S16x256, .f32⟩ : BufTy).Contents (Elt F) → (⟨S131072x256, .f32⟩ : BufTy).Contents (Elt F)),
    unary main_arg5 main_v17 (broadcastInDim S1x256 ![1] bcast_S256_S1x256_1 : (⟨S256, .f32⟩ : BufTy).Contents (Elt F) → (⟨S1x256, .f32⟩ : BufTy).Contents (Elt F)),
    unary main_v17 main_v18 (broadcastInDim S131072x256 ![0, 1] bcast_S1x256_S131072x256_0_1 : (⟨S1x256, .f32⟩ : BufTy).Contents (Elt F) → (⟨S131072x256, .f32⟩ : BufTy).Contents (Elt F)),
    binary main_v16 main_v18 main_v19 (addf : (⟨S131072x256, .f32⟩ : BufTy).Contents (Elt F) → (⟨S131072x256, .f32⟩ : BufTy).Contents (Elt F) → (⟨S131072x256, .f32⟩ : BufTy).Contents (Elt F)),
    reshape main_v19 main_v20 rfl shapeCasts_S131072x256_S131072x8x32,
    TRef.nullary main_call4.c (constantI S_ 32 0#32),
    TRef.unary main_call4.c main_call4.v0 (broadcastInDim S131072x1x1 ![] bcast_S_S131072x1x1),
    TRef.binary (.of main_v0) main_call4.v0 main_call4.v1 (cmpi .slt),
    TRef.nullary main_call4.c_0 (constantI S_ 32 8#32),
    TRef.unary main_call4.c_0 main_call4.v2 (broadcastInDim S131072x1x1 ![] bcast_S_S131072x1x1),
    TRef.binary (.of main_v0) main_call4.v2 main_call4.v3 addi,
    TRef.ternary main_call4.v1 main_call4.v3 (.of main_v0) main_call4.v4 select,
    TRef.nullary main_call4.c_1 (constantI S1 32 7#32),
    TRef.nullary main_call4.c_2 (constantI S_ 32 0#32),
    TRef.unary main_call4.c_2 main_call4.v5 (broadcastInDim S131072x1x1 ![] bcast_S_S131072x1x1),
    TRef.binary main_call4.v4 main_call4.v5 main_call4.v6 (cmpi .sge),
    TRef.unary main_call4.c_1 main_call4.v7 (broadcastInDim S1x1x1 ![2] bcast_S1_S1x1x1_2),
    TRef.unary main_call4.v7 main_call4.v8 (broadcastInDim S131072x1x1 ![0, 1, 2] bcast_S1x1x1_S131072x1x1_0_1_2),
    TRef.binary main_call4.v4 main_call4.v8 main_call4.v9 (cmpi .sle),
    TRef.binary main_call4.v6 main_call4.v9 main_call4.v10 andi,
    TRef.nullary main_call4.c_3 (constantI S_ 1 1#1),
    TRef.binary main_call4.v10 main_call4.c_3 main_call4.v11 (fun x v => Host.reduce IntOp.andi x v reducesTo_S131072x1x1_S131072x1_d2 h_S_),
    TRef.binary (.of main_v20) main_call4.v4 main_call4.v12 (fun x i => Host.gather gather_S131072x8x32_S131072x1x1_S131072x1x32_2_1_0_0_1_2_1132 x i),
    TRef.unary main_call4.v11 main_call4.v13 (broadcastInDim S131072x1x32 ![0, 1] bcast_S131072x1_S131072x1x32_0_1),
    TRef.nullary main_call4.cst (constant S_ .f32 0x7FC00000#32),
    TRef.unary main_call4.cst main_call4.v14 (broadcastInDim S131072x1x32 ![] bcast_S_S131072x1x32),
    TRef.ternary main_call4.v13 main_call4.v12 main_call4.v14 main_call4.v15 select,
    reshape main_v21 main_v22 rfl shapeCasts_S131072x1x32_S131072x32,
    TRef.nullary main_call5.cst (constant S_ .f32 0x00000000#32),
    TRef.unary main_call5.cst main_call5.v0 (broadcastInDim S131072x32 ![] bcast_S_S131072x32),
    TRef.binary (.of main_v22) main_call5.v0 main_call5.v1 (cmpf .olt),
    TRef.unary (.of main_v22) main_call5.v2 Host.ceil,
    TRef.unary (.of main_v22) main_call5.v3 Host.floor,
    TRef.ternary main_call5.v1 main_call5.v2 main_call5.v3 main_call5.call0.v0 select,
    nullary main_cst_1 (constant S_ .f32 0x42800000#32),
    unary main_cst_1 main_v24 (broadcastInDim S131072x32 ![] bcast_S_S131072x32 : (⟨S_, .f32⟩ : BufTy).Contents (Elt F) → (⟨S131072x32, .f32⟩ : BufTy).Contents (Elt F)),
    binary main_v23 main_v24 main_v25 (Host.divf : (⟨S131072x32, .f32⟩ : BufTy).Contents (Elt F) → (⟨S131072x32, .f32⟩ : BufTy).Contents (Elt F) → (⟨S131072x32, .f32⟩ : BufTy).Contents (Elt F)),
    unary main_v25 main_v26 (Host.floor : (⟨S131072x32, .f32⟩ : BufTy).Contents (Elt F) → (⟨S131072x32, .f32⟩ : BufTy).Contents (Elt F)),
    nullary main_c_2 (constantI S_ 32 0#32),
    nullary main_c_3 (constantI S_ 32 127#32),
    TRef.unary (.of main_c_2) main_call6.v0 (sitofp .f32),
    TRef.unary main_call6.v0 main_call6.v1 (broadcastInDim S131072x32 ![] bcast_S_S131072x32),
    TRef.binary main_call6.v1 (.of main_v26) main_call6.v2 maximumf,
    TRef.unary (.of main_c_3) main_call6.v3 (sitofp .f32),
    TRef.unary main_call6.v3 main_call6.v4 (broadcastInDim S131072x32 ![] bcast_S_S131072x32),
    TRef.binary main_call6.v4 main_call6.v2 main_call6.v5 minimumf,
    TRef.nullary main_call7.cst (constant S_ .f32 0x00000000#32),
    TRef.unary main_call7.cst main_call7.v0 (broadcastInDim S131072x32 ![] bcast_S_S131072x32),
    TRef.binary (.of main_v27) main_call7.v0 main_call7.v1 maximumf,
    unary main_arg6 main_v29 ((transpose S32x8 [1, 0] · transposes_S8x32_S32x8_1_0) : (⟨S8x32, .f32⟩ : BufTy).Contents (Elt F) → (⟨S32x8, .f32⟩ : BufTy).Contents (Elt F)),
    binary main_v28 main_v29 main_v30 ((fun l r => Host.dotGeneral dot_S131072x32_S32x8_S131072x8_1_0_0_1_n_n none l r) : (⟨S131072x32, .f32⟩ : BufTy).Contents (Elt F) → (⟨S32x8, .f32⟩ : BufTy).Contents (Elt F) → (⟨S131072x8, .f32⟩ : BufTy).Contents (Elt F)),
    unary main_arg7 main_v31 (broadcastInDim S1x8 ![1] bcast_S8_S1x8_1 : (⟨S8, .f32⟩ : BufTy).Contents (Elt F) → (⟨S1x8, .f32⟩ : BufTy).Contents (Elt F)),
    unary main_v31 main_v32 (broadcastInDim S131072x8 ![0, 1] bcast_S1x8_S131072x8_0_1 : (⟨S1x8, .f32⟩ : BufTy).Contents (Elt F) → (⟨S131072x8, .f32⟩ : BufTy).Contents (Elt F)),
    binary main_v30 main_v32 main_v33 (addf : (⟨S131072x8, .f32⟩ : BufTy).Contents (Elt F) → (⟨S131072x8, .f32⟩ : BufTy).Contents (Elt F) → (⟨S131072x8, .f32⟩ : BufTy).Contents (Elt F)),
    reshape main_v33 main_v34 rfl shapeCasts_S131072x8_S131072x8x1,
    TRef.nullary main_call8.c (constantI S_ 32 0#32),
    TRef.unary main_call8.c main_call8.v0 (broadcastInDim S131072x1x1 ![] bcast_S_S131072x1x1),
    TRef.binary (.of main_v0) main_call8.v0 main_call8.v1 (cmpi .slt),
    TRef.nullary main_call8.c_0 (constantI S_ 32 8#32),
    TRef.unary main_call8.c_0 main_call8.v2 (broadcastInDim S131072x1x1 ![] bcast_S_S131072x1x1),
    TRef.binary (.of main_v0) main_call8.v2 main_call8.v3 addi,
    TRef.ternary main_call8.v1 main_call8.v3 (.of main_v0) main_call8.v4 select,
    TRef.nullary main_call8.c_1 (constantI S1 32 7#32),
    TRef.nullary main_call8.c_2 (constantI S_ 32 0#32),
    TRef.unary main_call8.c_2 main_call8.v5 (broadcastInDim S131072x1x1 ![] bcast_S_S131072x1x1),
    TRef.binary main_call8.v4 main_call8.v5 main_call8.v6 (cmpi .sge),
    TRef.unary main_call8.c_1 main_call8.v7 (broadcastInDim S1x1x1 ![2] bcast_S1_S1x1x1_2),
    TRef.unary main_call8.v7 main_call8.v8 (broadcastInDim S131072x1x1 ![0, 1, 2] bcast_S1x1x1_S131072x1x1_0_1_2),
    TRef.binary main_call8.v4 main_call8.v8 main_call8.v9 (cmpi .sle),
    TRef.binary main_call8.v6 main_call8.v9 main_call8.v10 andi,
    TRef.nullary main_call8.c_3 (constantI S_ 1 1#1),
    TRef.binary main_call8.v10 main_call8.c_3 main_call8.v11 (fun x v => Host.reduce IntOp.andi x v reducesTo_S131072x1x1_S131072x1_d2 h_S_),
    TRef.binary (.of main_v34) main_call8.v4 main_call8.v12 (fun x i => Host.gather gather_S131072x8x1_S131072x1x1_S131072x1x1_2_1_0_0_1_2_111 x i),
    TRef.unary main_call8.v11 main_call8.v13 (broadcastInDim S131072x1x1 ![0, 1] bcast_S131072x1_S131072x1x1_0_1),
    TRef.nullary main_call8.cst (constant S_ .f32 0x7FC00000#32),
    TRef.unary main_call8.cst main_call8.v14 (broadcastInDim S131072x1x1 ![] bcast_S_S131072x1x1),
    TRef.ternary main_call8.v13 main_call8.v12 main_call8.v14 main_call8.v15 select,
    reshape main_v35 main_v36 rfl shapeCasts_S131072x1x1_S131072x1 ]

-- one hundred and thirty binds re-associated: the rewrite under the chain recurses once per statement
set_option maxRecDepth 4096 in
/-- @main is that straight line: the functions' definitions unfolded at their calls and the records at their fields, both
    sides are one chain of host steps once sequencing is reassociated. -/
theorem main_eq (c : Dev nD) : main (F := F) c = seq ops := by
  simp only [main, fn_take_along_axis.body, fn_where.body, fn_trunc.body, fn_clip.body, fn_relu.body, fn_take_along_axis_0.body, fn_where_2.body, fn_trunc_1.body, fn_clip_3.body, fn_relu_4.body, fn_take_along_axis_5.body, seq, bind_assoc, pure_bind]

theorem ops_split :
    (ops : List (HloOp τ sig (Elt F))) = seg1 ++ (seg2 ++ (seg3 ++ (seg4 ++ (seg5 ++ (seg6 ++ (seg7 ++ (seg8 ++ seg9))))))) := rfl

set_option maxRecDepth 8192 in
/-- The fold of the whole line at the result buffer is the composed term: stretch by stretch, each stretch's result from the
    buffers the earlier stretches left, the buffers a stretch does not write carried over it. -/
theorem out_eq (V : Valuation τ sig (Elt F)) :
    after ops V (main_v36 : DevRef τ sig)
      = refTerm (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  rw [ops_split]
  simp (disch := decide) only [after_app, seg9_out', seg8_out', seg7_out', seg6_out', seg5_out', seg4_out', seg3_out', seg2_out',
    seg1_out', seg1_idx', seg1_keep, seg2_keep, seg3_keep, seg4_keep, seg5_keep, seg6_keep, seg7_keep, seg8_keep]
  rfl

/-- A buffer no stretch writes holds after the whole line what it held before. -/
theorem ops_keep (V : Valuation τ sig (Elt F)) {r : Ref sig .tc} (h1 : r ∉ W1) (h2 : r ∉ W2) (h3 : r ∉ W3) (h4 : r ∉ W4)
    (h5 : r ∉ W5) (h6 : r ∉ W6) (h7 : r ∉ W7) (h8 : r ∉ W8) (h9 : r ∉ W9) :
    after ops V (Proc.devRef .tc r) = V (Proc.devRef .tc r) := by
  rw [ops_split]
  simp only [after_app]
  exact (seg9_keep _ h9).trans <| (seg8_keep _ h8).trans <| (seg7_keep _ h7).trans <| (seg6_keep _ h6).trans <|
    (seg5_keep _ h5).trans <| (seg4_keep _ h4).trans <| (seg3_keep _ h3).trans <| (seg2_keep _ h2).trans <| seg1_keep _ h1

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., unary_bufs_sub .., binary_bufs_sub .., unary_bufs_sub .., unary_bufs_sub .., ternary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., unary_bufs_sub .., binary_bufs_sub .., unary_bufs_sub .., unary_bufs_sub .., ternary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every weakly fair execution of the reference terminates with its result at `refTerm` of the arguments' launch contents. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v36) = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run (defs (F := F)) _ _).mono
    (fun _ h c => ⟨(h c main_v36).trans (out_eq _),
      (h c main_arg0).trans (ops_keep _ (by decide) (by decide) (by decide) (by decide) (by decide) (by decide) (by decide) (by decide) (by decide)),
      (h c main_arg1).trans (ops_keep _ (by decide) (by decide) (by decide) (by decide) (by decide) (by decide) (by decide) (by decide) (by decide)),
      (h c main_arg2).trans (ops_keep _ (by decide) (by decide) (by decide) (by decide) (by decide) (by decide) (by decide) (by decide) (by decide)),
      (h c main_arg3).trans (ops_keep _ (by decide) (by decide) (by decide) (by decide) (by decide) (by decide) (by decide) (by decide) (by decide)),
      (h c main_arg4).trans (ops_keep _ (by decide) (by decide) (by decide) (by decide) (by decide) (by decide) (by decide) (by decide) (by decide)),
      (h c main_arg5).trans (ops_keep _ (by decide) (by decide) (by decide) (by decide) (by decide) (by decide) (by decide) (by decide) (by decide)),
      (h c main_arg6).trans (ops_keep _ (by decide) (by decide) (by decide) (by decide) (by decide) (by decide) (by decide) (by decide) (by decide)),
      (h c main_arg7).trans (ops_keep _ (by decide) (by decide) (by decide) (by decide) (by decide) (by decide) (by decide) (by decide) (by decide))⟩)
    (run_seq scopedRefs_eq scopedSems_eq defs main (fun _ => ops) main_eq (fun _ => ops_sub) m ρ
      (hfresh := fun _ => List.forall_iff_forall_mem.1 ops_fresh))

end Cert.RefSide

end
-- ==== Proof.RefValue.lean ====
/-
  The reference's composed term is the specification, where every stack index is a word below 8: there the index is not
  wrapped, the range test holds, the gather reads the selected stack's columns, and the quantiser chain is the specification's.
-/
import proofs.«426485_j6262062317933_3_alg».proof.Proof.RefTerm
import proofs.«426485_j6262062317933_3_alg».proof.Proof.Algebra
import Idealize.ShloMosaic.PureOps.Ideal.Laws
import Idealize.ShloMosaic.Lib.ValueIdx
import Idealize.ShloMosaic.Lib.Pipeline.Value
import Idealize.ShloMosaic.Lib.ValueLayout
import Idealize.ShloMosaic.Lib.ReduceAll
import Idealize.ShloMosaic.Lib.StackMember

noncomputable section

namespace Cert.RefSide

open Idealize.ShloMosaic Idealize.ShloMosaic.ValueIdx Cert.ReferenceIdeal Cert.ReferenceIdeal.Facts₀ Cert.ReferenceIdeal.Facts

/-! ## Index words below 8 -/

theorem word_toInt {w : BitVec 32} (hw : w.toNat < 8) : w.toInt = (w.toNat : ℤ) :=
  BitVec.toInt_eq_toNat_of_lt (by omega)

/-- A word below 8 is not negative. -/
theorem word_not_slt_zero {w : BitVec 32} (hw : w.toNat < 8) : IntOp.cmpi .slt w 0#32 = 0#1 := by
  refine eq_zero_of_ne_one fun h => ?_
  rw [IntOp.cmpi_slt, word_toInt hw, show (0#32 : BitVec 32).toInt = 0 from by decide] at h
  omega

theorem word_sge_zero {w : BitVec 32} (hw : w.toNat < 8) : IntOp.cmpi .sge w 0#32 = 1#1 := by
  rw [IntOp.cmpi_sge, word_toInt hw, show (0#32 : BitVec 32).toInt = 0 from by decide]
  omega

theorem word_sle_seven {w : BitVec 32} (hw : w.toNat < 8) : IntOp.cmpi .sle w 7#32 = 1#1 := by
  rw [IntOp.cmpi_sle, word_toInt hw, show (7#32 : BitVec 32).toInt = 7 from by decide]
  omega

/-- Read signed and clamped into [0, 7], a word below 8 is its value. -/
theorem word_clamp {w : BitVec 32} (hw : w.toNat < 8) : min w.toInt.toNat (8 - 1) = w.toNat := by
  rw [word_toInt hw, Int.toNat_natCast]
  omega

section Gather
variable {α : Type}

/-- The gather's dimension numbers over a [B, 8, L] operand: the rows batch, the stack axis is collapsed and carries the start
    index, the last axis is the offset axis. -/
abbrev stackDims (B L : Nat)
    (wf : GatherDims.WF ⟨3, ![B, 8, L]⟩ ⟨3, ![B, 1, 1]⟩ ⟨3, ![B, 1, L]⟩ [2] [1] [0] [1] [0] 2 ![1, 1, L]) :
    GatherDims ⟨3, ![B, 8, L]⟩ ⟨3, ![B, 1, 1]⟩ ⟨3, ![B, 1, L]⟩ where
  offsetDims := [2]
  collapsedSliceDims := [1]
  operandBatchingDims := [0]
  startIndicesBatchingDims := [0]
  startIndexMap := [1]
  indexVectorDim := 2
  sliceSizes := ![1, 1, L]
  wf := wf

variable {B L w : Nat}
  (wf : GatherDims.WF ⟨3, ![B, 8, L]⟩ ⟨3, ![B, 1, 1]⟩ ⟨3, ![B, 1, L]⟩ [2] [1] [0] [1] [0] 2 ![1, 1, L])
  (idx : IVec ⟨3, ![B, 1, 1]⟩ w) (b : Fin B) (j : Fin L)

/-- On the row axis the operand index is the result's row. -/
theorem stack_operandIdx_0 : ((stackDims B L wf).operandIdx (ix3 b 0 j) idx 0).val = b.val := by
  show (stackDims B L wf).start (ix3 b 0 j) idx 0 + (stackDims B L wf).batchCoord (ix3 b 0 j) 0
    + (stackDims B L wf).offCoord (ix3 b 0 j) 0 = _
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  unfold GatherDims.batchCoord
  rw [dif_pos (List.mem_singleton.mpr rfl)]
  rfl

/-- On the stack axis it is the start index, read signed and clamped into [0, 7]. -/
theorem stack_operandIdx_1 :
    ((stackDims B L wf).operandIdx (ix3 b 0 j) idx 1).val = min (idx (ix3 b 0 0)).toInt.toNat (8 - 1) := by
  show (stackDims B L wf).start (ix3 b 0 j) idx 1 + (stackDims B L wf).batchCoord (ix3 b 0 j) 1
    + (stackDims B L wf).offCoord (ix3 b 0 j) 1 = _
  rw [GatherDims.batchCoord_eq_zero _ _ _ (show (1 : Fin 3) ∉ [0] from by decide),
    GatherDims.offCoord_eq_zero _ _ _ (fun h => ((GatherDims.mem_sKept _ _).mp h).1 (List.mem_singleton.mpr rfl)),
    Nat.add_zero]
  unfold GatherDims.start
  rw [dif_pos (List.mem_singleton.mpr rfl)]
  have hsi : (stackDims B L wf).siIdx (ix3 b 0 j) ⟨List.idxOf (1 : Fin 3) (stackDims B L wf).startIndexMap,
      List.idxOf_lt_length_iff.2 (List.mem_singleton.mpr rfl)⟩ = ix3 b 0 0 := by
    funext c; refine Fin.ext ?_
    match c with
    | ⟨0, _⟩ => rfl
    | ⟨1, _⟩ => rfl
    | ⟨2, _⟩ => rfl
  rw [hsi]
  rfl

/-- On the last axis it is the result's last coordinate. -/
theorem stack_operandIdx_2 : ((stackDims B L wf).operandIdx (ix3 b 0 j) idx 2).val = j.val := by
  show (stackDims B L wf).start (ix3 b 0 j) idx 2 + (stackDims B L wf).batchCoord (ix3 b 0 j) 2
    + (stackDims B L wf).offCoord (ix3 b 0 j) 2 = _
  rw [GatherDims.batchCoord_eq_zero _ _ _ (show (2 : Fin 3) ∉ [0] from by decide)]
  unfold GatherDims.start
  rw [dif_neg (show (2 : Fin 3) ∉ [1] from by decide), Nat.zero_add]
  unfold GatherDims.offCoord
  have h21 : (2 : Fin 3) ∉ ([1] : List (Fin 3)) := by decide
  have h20 : (2 : Fin 3) ∉ ([0] : List (Fin 3)) := by decide
  rw [dif_pos (((stackDims B L wf).mem_sKept 2).2 ⟨h21, h20⟩)]
  rfl

theorem gather_stack_apply (x : (⟨3, ![B, 8, L]⟩ : Shape).Idx → α) :
    Host.gather (stackDims B L wf) x idx (ix3 b 0 j)
      = x (ix3 b ⟨min (idx (ix3 b 0 0)).toInt.toNat (8 - 1), by omega⟩ j) := by
  unfold Host.gather
  congr 1
  funext a
  refine Fin.ext ?_
  match a with
  | ⟨0, _⟩ => exact stack_operandIdx_0 wf idx b j
  | ⟨1, _⟩ => exact stack_operandIdx_1 wf idx b j
  | ⟨2, _⟩ => exact stack_operandIdx_2 wf idx b j

end Gather

/-! ## The range test and the wrapped index -/

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 from by decide]
    exact ih fun n hn => h n (List.mem_cons_of_mem _ hn)

/-- A reduction by `and` from 1 of an array of 1s is 1 at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- Where the index word is below 8 it is not negative, and is kept. -/
theorem wrapIdx_apply (i3 : IVec S131072x1x1 32) (p : S131072x1x1.Idx) (h : (i3 p).toNat < 8) : wrapIdx i3 p = i3 p := by
  unfold wrapIdx
  rw [select_apply]
  have hc : cmpi .slt i3 (broadcastInDim S131072x1x1 ![] bcast_S_S131072x1x1 (constantI S_ 32 0#32)) p = 0#1 :=
    word_not_slt_zero h
  rw [hc, select_zero]

/-- Where every index word is below 8 the range test 0 ≤ index ≤ 7 holds in every row. -/
theorem rangeTest_apply (i3 : IVec S131072x1x1 32) (h3 : ∀ p, (i3 p).toNat < 8) (q : S131072x1.Idx) :
    Host.reduce IntOp.andi
        (andi (cmpi .sge (wrapIdx i3) (broadcastInDim S131072x1x1 ![] bcast_S_S131072x1x1 (constantI S_ 32 0#32)))
          (cmpi .sle (wrapIdx i3)
            (broadcastInDim S131072x1x1 ![0, 1, 2] bcast_S1x1x1_S131072x1x1_0_1_2
              (broadcastInDim S1x1x1 ![2] bcast_S1_S1x1x1_2 (constantI S1 32 7#32)))))
        (constantI S_ 1 1#1) reducesTo_S131072x1x1_S131072x1_d2 h_S_ q = 1#1 := by
  refine reduce_andi_one _ _ _ _ _ rfl fun p => ?_
  show IntOp.andi (IntOp.cmpi .sge (wrapIdx i3 p) 0#32) (IntOp.cmpi .sle (wrapIdx i3 p) 7#32) = 1#1
  rw [wrapIdx_apply i3 p (h3 p), word_sge_zero (h3 p), word_sle_seven (h3 p)]
  decide

/-! ## The three gathers of the selected stack

With every index word below 8, entry (b, 0, j) of the gather is entry (b, s, j) of the operand, s the row's index word. -/

theorem take16_apply (a : FVec Ideal S131072x8x16 .f32) (i3 : IVec S131072x1x1 32) (h3 : ∀ p, (i3 p).toNat < 8)
    (b : Fin 131072) (s : Fin 8) (hs : (i3 (ix3 b 0 0)).toNat = s.val) (j : Fin 16) :
    take16 (F := Ideal) a i3 (ix3 b 0 j) = a (ix3 b s j) := by
  unfold take16
  rw [select_apply,
    broadcastInDim_apply ![0, 1] bcast_S131072x1_S131072x1x16_0_1 _ (ix3 b 0 j) (ix2 b 0)
      (fun c => by match c with | ⟨0, _⟩ => rfl | ⟨1, _⟩ => rfl),
    rangeTest_apply i3 h3, select_one]
  have hd : gather_S131072x8x16_S131072x1x1_S131072x1x16_2_1_0_0_1_2_1116
      = stackDims 131072 16 gather_S131072x8x16_S131072x1x1_S131072x1x16_2_1_0_0_1_2_1116_wf := rfl
  rw [hd, gather_stack_apply]
  have e : min (wrapIdx i3 (ix3 b 0 0)).toInt.toNat (8 - 1) = s.val := by
    rw [wrapIdx_apply i3 _ (h3 _), word_clamp (h3 _), hs]
  exact congrArg a (congrArg (fun k => ix3 b k j) (Fin.ext e))

theorem take32_apply (a : FVec Ideal S131072x8x32 .f32) (i3 : IVec S131072x1x1 32) (h3 : ∀ p, (i3 p).toNat < 8)
    (b : Fin 131072) (s : Fin 8) (hs : (i3 (ix3 b 0 0)).toNat = s.val) (j : Fin 32) :
    take32 (F := Ideal) a i3 (ix3 b 0 j) = a (ix3 b s j) := by
  unfold take32
  rw [select_apply,
    broadcastInDim_apply ![0, 1] bcast_S131072x1_S131072x1x32_0_1 _ (ix3 b 0 j) (ix2 b 0)
      (fun c => by match c with | ⟨0, _⟩ => rfl | ⟨1, _⟩ => rfl),
    rangeTest_apply i3 h3, select_one]
  have hd : gather_S131072x8x32_S131072x1x1_S131072x1x32_2_1_0_0_1_2_1132
      = stackDims 131072 32 gather_S131072x8x32_S131072x1x1_S131072x1x32_2_1_0_0_1_2_1132_wf := rfl
  rw [hd, gather_stack_apply]
  have e : min (wrapIdx i3 (ix3 b 0 0)).toInt.toNat (8 - 1) = s.val := by
    rw [wrapIdx_apply i3 _ (h3 _), word_clamp (h3 _), hs]
  exact congrArg a (congrArg (fun k => ix3 b k j) (Fin.ext e))

theorem take1_apply (a : FVec Ideal S131072x8x1 .f32) (i3 : IVec S131072x1x1 32) (h3 : ∀ p, (i3 p).toNat < 8)
    (b : Fin 131072) (s : Fin 8) (hs : (i3 (ix3 b 0 0)).toNat = s.val) (j : Fin 1) :
    take1 (F := Ideal) a i3 (ix3 b 0 j) = a (ix3 b s j) := by
  unfold take1
  rw [select_apply,
    broadcastInDim_apply ![0, 1] bcast_S131072x1_S131072x1x1_0_1 _ (ix3 b 0 j) (ix2 b 0)
      (fun c => by match c with | ⟨0, _⟩ => rfl | ⟨1, _⟩ => rfl),
    rangeTest_apply i3 h3, select_one]
  have hd : gather_S131072x8x1_S131072x1x1_S131072x1x1_2_1_0_0_1_2_111
      = stackDims 131072 1 gather_S131072x8x1_S131072x1x1_S131072x1x1_2_1_0_0_1_2_111_wf := rfl
  rw [hd, gather_stack_apply]
  have e : min (wrapIdx i3 (ix3 b 0 0)).toInt.toNat (8 - 1) = s.val := by
    rw [wrapIdx_apply i3 _ (h3 _), word_clamp (h3 _), hs]
  exact congrArg a (congrArg (fun k => ix3 b k j) (Fin.ext e))

/-! ## The affine layers -/

/-- An affine layer over [131072, K] with weights [N, K] and bias [N], as the reference spells it (the weights transposed, the
    bias broadcast through [1, N]), read at (r, n): the row's product with the weights' row n, plus the bias there. -/
theorem affine_apply {K N : Nat} (D : DotDims ⟨2, ![131072, K]⟩ ⟨2, ![K, N]⟩ ⟨2, ![131072, N]⟩)
    (hD : D = DotDims.plain 131072 K N)
    (ht : (⟨2, ![N, K]⟩ : Shape).Transposes [1, 0] ⟨2, ![K, N]⟩)
    (hb1 : (⟨1, ![N]⟩ : Shape).BroadcastsInDim ⟨2, ![1, N]⟩ ![1])
    (hb2 : (⟨2, ![1, N]⟩ : Shape).BroadcastsInDim ⟨2, ![131072, N]⟩ ![0, 1])
    (x : FVec Ideal ⟨2, ![131072, K]⟩ .f32) (w : FVec Ideal ⟨2, ![N, K]⟩ .f32) (bias : FVec Ideal ⟨1, ![N]⟩ .f32)
    (r : Fin 131072) (n : Fin N) :
    addf (Host.dotGeneral D none x (transpose ⟨2, ![K, N]⟩ [1, 0] w ht))
        (broadcastInDim ⟨2, ![131072, N]⟩ ![0, 1] hb2 (broadcastInDim ⟨2, ![1, N]⟩ ![1] hb1 bias)) (ix2 r n)
      = (∑ k : Fin K, x (ix2 r k) * w (ix2 n k)) + bias (ix1 n) := by
  subst hD
  rw [addf_apply, StackMember.dotGeneral_plain_apply]
  congr 1
  · refine Finset.sum_congr rfl fun k _ => ?_
    rw [transpose_ix2_apply]
  · rw [broadcastInDim_apply ![0, 1] hb2 _ (ix2 r n) (ix2 (0 : Fin 1) n)
        (fun c => by
          match c with
          | ⟨0, _⟩ => rfl
          | ⟨1, _⟩ =>
            show n.val = if N = 1 then 0 else n.val
            split
            · have := n.isLt; omega
            · rfl),
      broadcastInDim_apply ![1] hb1 bias (ix2 (0 : Fin 1) n) (ix1 n)
        (fun c => by
          match c with
          | ⟨0, _⟩ =>
            show n.val = if N = 1 then 0 else n.val
            split
            · have := n.isLt; omega
            · rfl)]

theorem lin1_apply (x : FVec Ideal S131072x1024 .f32) (w : FVec Ideal S128x1024 .f32) (bias : FVec Ideal S128 .f32)
    (r : Fin 131072) (s : Fin 8) (j : Fin 16) :
    lin1 (F := Ideal) x w bias (ix3 r s j)
      = (∑ k : Fin 1024, x (ix2 r k) * w (ix2 (Cert.Spec.col1 s j) k)) + bias (ix1 (Cert.Spec.col1 s j)) := by
  unfold lin1
  rw [shapeCast_apply _ shapeCasts_S131072x128_S131072x8x16 (ix3 r s j) (ix2 r (Cert.Spec.col1 s j))
    (by rw [Shape.rowMajor_val_two, Shape.rowMajor_val_three]
        show r.val * 128 + (16 * s.val + j.val) = (r.val * 8 + s.val) * 16 + j.val
        omega)]
  exact affine_apply _ rfl _ _ _ x w bias r (Cert.Spec.col1 s j)

theorem lin2_apply (x : FVec Ideal S131072x16 .f32) (w : FVec Ideal S256x16 .f32) (bias : FVec Ideal S256 .f32)
    (r : Fin 131072) (s : Fin 8) (j : Fin 32) :
    lin2 (F := Ideal) x w bias (ix3 r s j)
      = (∑ k : Fin 16, x (ix2 r k) * w (ix2 (Cert.Spec.col2 s j) k)) + bias (ix1 (Cert.Spec.col2 s j)) := by
  unfold lin2
  rw [shapeCast_apply _ shapeCasts_S131072x256_S131072x8x32 (ix3 r s j) (ix2 r (Cert.Spec.col2 s j))
    (by rw [Shape.rowMajor_val_two, Shape.rowMajor_val_three]
        show r.val * 256 + (32 * s.val + j.val) = (r.val * 8 + s.val) * 32 + j.val
        omega)]
  exact affine_apply _ rfl _ _ _ x w bias r (Cert.Spec.col2 s j)

theorem lin3_apply (x : FVec Ideal S131072x32 .f32) (w : FVec Ideal S8x32 .f32) (bias : FVec Ideal S8 .f32)
    (r : Fin 131072) (s : Fin 8) (z : Fin 1) :
    lin3 (F := Ideal) x w bias (ix3 r s z) = (∑ k : Fin 32, x (ix2 r k) * w (ix2 s k)) + bias (ix1 s) := by
  unfold lin3
  rw [shapeCast_apply _ shapeCasts_S131072x8_S131072x8x1 (ix3 r s z) (ix2 r s)
    (by rw [Shape.rowMajor_val_two, Shape.rowMajor_val_three]
        show r.val * 8 + s.val = (r.val * 8 + s.val) * 1 + z.val
        omega)]
  exact affine_apply _ rfl _ _ _ x w bias r s

/-! ## The quantiser and the index array -/

theorem quant16_apply (a : FVec Ideal S131072x16 .f32) (p : S131072x16.Idx) :
    quant16 (F := Ideal) a p = Cert.Spec.quant (a p) := Cert.Spec.refQuant_eq (a p)

theorem quant32_apply (a : FVec Ideal S131072x32 .f32) (p : S131072x32.Idx) :
    quant32 (F := Ideal) a p = Cert.Spec.quant (a p) := Cert.Spec.refQuant_eq (a p)

theorem idx3_apply (i : IVec S131072 32) (b : Fin 131072) (u v : Fin 1) : idx3 i (ix3 b u v) = i (ix1 b) := by
  unfold idx3
  exact broadcastInDim_apply ![0] bcast_S131072_S131072x1x1_0 i (ix3 b u v) (ix1 b)
    (fun c => by match c with | ⟨0, _⟩ => rfl)

/-! ## The three stages at a row -/

section Stages
variable (i3 : IVec S131072x1x1 32) (h3 : ∀ p, (i3 p).toNat < 8) (b : Fin 131072) (s : Fin 8)
  (hs : (i3 (ix3 b 0 0)).toNat = s.val)
include h3 hs

/-- The first layer's selected columns. -/
theorem stage1 (x : FVec Ideal S131072x1024 .f32) (w1 : FVec Ideal S128x1024 .f32) (b1 : FVec Ideal S128 .f32) (j : Fin 16) :
    shapeCast S131072x16 (take16 (F := Ideal) (lin1 x w1 b1) i3) shapeCasts_S131072x1x16_S131072x16 (ix2 b j)
      = (∑ k : Fin 1024, x (ix2 b k) * w1 (ix2 (Cert.Spec.col1 s j) k)) + b1 (ix1 (Cert.Spec.col1 s j)) := by
  rw [shapeCast_apply _ shapeCasts_S131072x1x16_S131072x16 (ix2 b j) (ix3 b 0 j)
    (by rw [Shape.rowMajor_val_two, Shape.rowMajor_val_three]
        show (b.val * 1 + 0) * 16 + j.val = b.val * 16 + j.val
        omega),
    take16_apply _ i3 h3 b s hs, lin1_apply]

/-- The second layer's selected columns, over any array of first-layer values. -/
theorem stage2 (A : FVec Ideal S131072x16 .f32) (w2 : FVec Ideal S256x16 .f32) (b2 : FVec Ideal S256 .f32) (j : Fin 32) :
    shapeCast S131072x32 (take32 (F := Ideal) (lin2 (quant16 A) w2 b2) i3) shapeCasts_S131072x1x32_S131072x32 (ix2 b j)
      = (∑ k : Fin 16, Cert.Spec.quant (A (ix2 b k)) * w2 (ix2 (Cert.Spec.col2 s j) k)) + b2 (ix1 (Cert.Spec.col2 s j)) := by
  rw [shapeCast_apply _ shapeCasts_S131072x1x32_S131072x32 (ix2 b j) (ix3 b 0 j)
    (by rw [Shape.rowMajor_val_two, Shape.rowMajor_val_three]
        show (b.val * 1 + 0) * 32 + j.val = b.val * 32 + j.val
        omega),
    take32_apply _ i3 h3 b s hs, lin2_apply]
  simp only [quant16_apply]

/-- The last layer's selected entry, over any array of second-layer values. -/
theorem stage3 (A : FVec Ideal S131072x32 .f32) (wo : FVec Ideal S8x32 .f32) (bo : FVec Ideal S8 .f32) :
    shapeCast S131072x1 (take1 (F := Ideal) (lin3 (quant32 A) wo bo) i3) shapeCasts_S131072x1x1_S131072x1 (ix2 b 0)
      = (∑ k : Fin 32, Cert.Spec.quant (A (ix2 b k)) * wo (ix2 s k)) + bo (ix1 s) := by
  rw [shapeCast_apply _ shapeCasts_S131072x1x1_S131072x1 (ix2 b 0) (ix3 b 0 0)
    (by rw [Shape.rowMajor_val_two, Shape.rowMajor_val_three]
        show (b.val * 1 + 0) * 1 + 0 = b.val * 1 + 0
        omega),
    take1_apply _ i3 h3 b s hs, lin3_apply]
  simp only [quant32_apply]

end Stages

/-! ## The composed term -/

theorem refTerm_eq (x : FVec Ideal S131072x1024 .f32) (i : IVec S131072 32) (w1 : FVec Ideal S128x1024 .f32) (b1 : FVec Ideal S128 .f32)
    (w2 : FVec Ideal S256x16 .f32) (b2 : FVec Ideal S256 .f32) (wo : FVec Ideal S8x32 .f32) (bo : FVec Ideal S8 .f32)
    (hidx : ∀ b : Fin 131072, (i (ix1 b)).toNat < 8) :
    refTerm (F := Ideal) x i w1 b1 w2 b2 wo bo = Cert.Spec.out x i w1 b1 w2 b2 wo bo := by
  funext y
  obtain ⟨b, z, rfl⟩ : ∃ (b : Fin 131072) (z : Fin 1), y = ix2 b z := ⟨y 0, y 1, eq_ix2 y⟩
  obtain rfl : z = 0 := Subsingleton.elim _ _
  have h3 : ∀ p, (idx3 i p).toNat < 8 := fun p => by
    obtain ⟨c, u, v, rfl⟩ : ∃ (c : Fin 131072) (u v : Fin 1), p = ix3 c u v := ⟨p 0, p 1, p 2, eq_ix3 p⟩
    rw [idx3_apply]; exact hidx c
  have hs : (idx3 i (ix3 b 0 0)).toNat = (Cert.Spec.stack (i (ix1 b))).val := by
    rw [idx3_apply, Cert.Spec.stack_val_of_lt (hidx b)]
  unfold refTerm
  rw [stage3 (idx3 i) h3 b _ hs]
  simp only [stage2 (idx3 i) h3 b _ hs, stage1 (idx3 i) h3 b _ hs]
  rfl

end Cert.RefSide

end
-- ==== Proof.RefRun.lean ====
/-
  The idealized reference ends with its result array at the specification of its argument arrays.
-/
import proofs.«426485_j6262062317933_3_alg».proof.Defs
import proofs.«426485_j6262062317933_3_alg».proof.Proof.RefOps
import proofs.«426485_j6262062317933_3_alg».proof.Proof.RefValue

noncomputable section

namespace Cert.RefSide

open Idealize.ShloMosaic Idealize.ShloMosaic.TcCoe Idealize.SL.Sem

theorem run (m : (ℓ : Loc Cert.ReferenceIdeal.nD Cert.ReferenceIdeal.τ Cert.ReferenceIdeal.sig) → Buf (Elt Ideal) ℓ) (ρ : Dev Cert.ReferenceIdeal.nD → PrngReg)
    (hidx : ∀ (c : Dev Cert.ReferenceIdeal.nD) (b : Fin 131072), ((m ((c.tc : Thread Cert.ReferenceIdeal.nD Cert.ReferenceIdeal.τ).loc Cert.ReferenceIdeal.main_arg1) : IVec Cert.ReferenceIdeal.S131072 32) (ValueIdx.ix1 b)).toNat < 8) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v36)
        = Cert.Spec.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) :=
  (θ_run (Cert.ReferenceIdeal.defs (F := Ideal)) _ _).mono
    (fun _ h c => ⟨(h c).1.trans (refTerm_eq _ _ _ _ _ _ _ _ (hidx c)), (h c).2⟩) (run_term m ρ)

end Cert.RefSide

end
-- ==== Proof.lean ====
/-
  The certificate: a fused three-layer stack-selecting network, against its plain reference, over the extended reals.

  Each row of the input picks one of eight stacks by an integer index. The reference gathers the selected stack's columns
  after each affine layer; the kernel instead zeroes the other stacks' columns and multiplies by weights tiled eight times, which
  is the same sum, and picks the last layer's entry by a one-hot sum. Both quantise by scaling with 2⁻⁶ (the reference: dividing
  by 64 after truncating), rounding down and clamping to [0, 127]. The precondition asks the float inputs to be finite and the
  indices to lie in [0, 8): there the reference's gather reads inside its array, and the kernel's clamp of the index is the
  identity.

  The word-level kernel's and the idealized kernel's frames are the generated ones. The reference's frame is its run with the
  result dropped. The ideal pass rewrote nothing, so there is nothing to preserve. For the equivalence, each program's run ends
  with its result array at ONE function of the argument arrays (Proof/Spec.lean): the kernel's by Proof/KerRun.lean, the
  reference's by Proof/RefRun.lean.
-/
import proofs.«426485_j6262062317933_3_alg».proof.Defs
import proofs.«426485_j6262062317933_3_alg».proof.Proof.Gen.Kernel
import proofs.«426485_j6262062317933_3_alg».proof.Proof.Gen.Kernel.Frame
import proofs.«426485_j6262062317933_3_alg».proof.Proof.Gen.KernelIdeal
import proofs.«426485_j6262062317933_3_alg».proof.Proof.Gen.KernelIdeal.Frame
import proofs.«426485_j6262062317933_3_alg».proof.Proof.Gen.ReferenceIdeal
import proofs.«426485_j6262062317933_3_alg».proof.Proof.Gen.Pre_finite_inputs
import proofs.«426485_j6262062317933_3_alg».proof.Proof.PreIdx
import proofs.«426485_j6262062317933_3_alg».proof.Proof.KerRun
import proofs.«426485_j6262062317933_3_alg».proof.Proof.RefRun

noncomputable section

namespace Cert.Proof

open Idealize.ShloMosaic Idealize.ShloMosaic.TcCoe Idealize.SL.Sem

/-- Under the precondition every stack index of the kernel's memory is a word below 8. -/
theorem idx_kernel (m : (ℓ : Loc Cert.KernelIdeal.nD Cert.KernelIdeal.τ Cert.KernelIdeal.sig) → Buf (Elt Ideal) ℓ) (h : Cert.Pre_KernelIdeal m)
    (c : Dev Cert.KernelIdeal.nD) (b : Fin 131072) :
    ((m ((c.tc : Thread Cert.KernelIdeal.nD Cert.KernelIdeal.τ).loc Cert.KernelIdeal.main_arg1) : IVec Cert.KernelIdeal.S131072 32) (ValueIdx.ix1 b)).toNat < 8 :=
  Cert.PreIdx.idx_lt (F := Ideal) _ _ _ _ _ _ _ _ (h c) b

/-- The same of the reference's memory. -/
theorem idx_reference (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) (b : Fin 131072) :
    ((m ((c.tc : Thread Cert.ReferenceIdeal.nD Cert.ReferenceIdeal.τ).loc Cert.ReferenceIdeal.main_arg1) : IVec Cert.ReferenceIdeal.S131072 32) (ValueIdx.ix1 b)).toNat < 8 :=
  Cert.PreIdx.idx_lt (F := Ideal) _ _ _ _ _ _ _ _ (h c) b

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ hpre =>
  (θ_run Cert.ReferenceIdeal.defs _ _).mono (fun _ h c => (h c).2) (Cert.RefSide.run m ρ (idx_reference m hpre))

/-- Both runs end at the specification of their argument arrays, and the arrays agree. -/
theorem algebraic : Cert.algebraic_KernelIdeal_ReferenceIdeal := by
  intro m ρ m' ρ' hpre hagree
  have hidx' : ∀ (c : Dev Cert.ReferenceIdeal.nD) (b : Fin 131072),
      ((m' ((c.tc : Thread Cert.ReferenceIdeal.nD Cert.ReferenceIdeal.τ).loc Cert.ReferenceIdeal.main_arg1) : IVec Cert.ReferenceIdeal.S131072 32) (ValueIdx.ix1 b)).toNat < 8 := by
    intro c b
    rw [(hagree c).2.1]
    exact idx_kernel m hpre c b
  refine ⟨_, Cert.KerSide.run m ρ (idx_kernel m hpre), ?_⟩
  refine (θ_run Cert.ReferenceIdeal.defs _ _).mono (fun _ h c => ⟨(h c).1.trans ?_, (h c).2⟩) (Cert.RefSide.run m' ρ' hidx')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
